-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v97_1)) (v1 : (c : Dev Cert.KernelIdeal.nD) → Buf (Elt Ideal) ((c.tc : Thread Cert.KernelIdeal.nD Cert.KernelIdeal.τ).loc Cert.KernelIdeal.main_v97_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97_1) = v0 c
          ∧ r.2.mem ((c.tc : Thread Cert.KernelIdeal.nD Cert.KernelIdeal.τ).loc Cert.KernelIdeal.main_v97_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1x128 .f32) (main_arg17 : FVec F S1 .f32) (main_v63 : IVec S_ 1) (main_v67 : IVec S_ 1) : IVec S_ 1 :=
  let main_v68 : IVec S_ 1 := andi main_v63 main_v67
  let main_v69 : FVec F S1x128 .f32 := Host.absf main_arg16
  let main_cst_26 : FVec F S_ .f32 := constant S_ .f32 0x7F800000#32
  let main_v70 : FVec F S1x128 .f32 := broadcastInDim S1x128 ![] bcast_S_S1x128 main_cst_26
  let main_v71 : IVec S1x128 1 := cmpf .olt main_v69 main_v70
  let main_c_27 : IVec S_ 1 := constantI S_ 1 1#1
  let main_v72 : IVec S_ 1 := (fun x v => Host.reduce IntOp.andi x v reducesTo_S1x128_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S128 .f32) (main_arg14 : FVec F S128 .f32) (main_arg15 : FVec F S128x1 .f32) (main_arg16 : FVec F S1x128 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_arg17 main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x1 .f32) (main_arg16 : FVec F S1x128 .f32) (main_arg17 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x1 .f32) (main_arg16 : FVec F S1x128 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : IVec S2x1600000 32) (main_arg2 : IVec S50000 32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x1 .f32) (main_arg16 : FVec F S1x128 .f32) (main_arg17 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S50000x1 : Shape := ⟨2, ![50000, 1]⟩
abbrev S2000x128 : Shape := ⟨2, ![2000, 128]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x1 : Shape := ⟨2, ![1, 1]⟩
abbrev S64x1 : Shape := ⟨2, ![64, 1]⟩
abbrev S2000x1 : Shape := ⟨2, ![2000, 1]⟩
abbrev S64x128 : Shape := ⟨2, ![64, 128]⟩
abbrev S2000 : Shape := ⟨1, ![2000]⟩
abbrev S1x64 : Shape := ⟨2, ![1, 64]⟩
abbrev S2000x64 : Shape := ⟨2, ![2000, 64]⟩
abbrev S64 : Shape := ⟨1, ![64]⟩

abbrev nBuf : Space → Nat
  | .hbm => 143
  | .vmem => 31
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x1, .f32⟩
  | 16 => ⟨S1x128, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S50000x1, .i32⟩
  | 23 => ⟨S50000x128, .f32⟩
  | 24 => ⟨S50000, .i32⟩
  | 25 => ⟨S1650000, .i32⟩
  | 26 => ⟨S1650000, .i32⟩
  | 27 => ⟨S_, .f32⟩
  | 28 => ⟨S1650000, .f32⟩
  | 29 => ⟨S_, .f32⟩
  | 30 => ⟨S50000, .f32⟩
  | 31 => ⟨S1650000x1, .i32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S_, .i32⟩
  | 51 => ⟨S1650000, .i32⟩
  | 52 => ⟨S1650000, .i1⟩
  | 53 => ⟨S_, .i32⟩
  | 54 => ⟨S1650000, .i32⟩
  | 55 => ⟨S1650000, .i32⟩
  | 56 => ⟨S1650000, .i32⟩
  | 57 => ⟨S1650000x1, .i32⟩
  | 58 => ⟨S1650000, .f32⟩
  | 59 => ⟨S1650000, .f32⟩
  | 60 => ⟨S_, .i32⟩
  | 61 => ⟨S1650000, .i32⟩
  | 62 => ⟨S1650000, .i1⟩
  | 63 => ⟨S_, .i32⟩
  | 64 => ⟨S1650000, .i32⟩
  | 65 => ⟨S1650000, .i32⟩
  | 66 => ⟨S1650000, .i32⟩
  | 67 => ⟨S1650000x1, .i32⟩
  | 68 => ⟨S1650000x128, .f32⟩
  | 69 => ⟨S1650000x1, .f32⟩
  | 70 => ⟨S1650000x128, .f32⟩
  | 71 => ⟨S1650000x128, .f32⟩
  | 72 => ⟨S_, .f32⟩
  | 73 => ⟨S50000x128, .f32⟩
  | 74 => ⟨S1650000x1, .i32⟩
  | 75 => ⟨S50000x128, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S50000x128, .f32⟩
  | 82 => ⟨S50000, .i32⟩
  | 83 => ⟨S1650000, .i32⟩
  | 84 => ⟨S1650000, .i32⟩
  | 85 => ⟨S_, .f32⟩
  | 86 => ⟨S1650000, .f32⟩
  | 87 => ⟨S_, .f32⟩
  | 88 => ⟨S50000, .f32⟩
  | 89 => ⟨S1650000x1, .i32⟩
  | 90 => ⟨S50000, .f32⟩
  | 91 => ⟨S_, .f32⟩
  | 92 => ⟨S50000, .f32⟩
  | 93 => ⟨S50000, .i1⟩
  | 94 => ⟨S50000, .f32⟩
  | 95 => ⟨S_, .f32⟩
  | 96 => ⟨S_, .f32⟩
  | 97 => ⟨S50000, .f32⟩
  | 98 => ⟨S50000, .f32⟩
  | 99 => ⟨S_, .i32⟩
  | 100 => ⟨S1650000, .i32⟩
  | 101 => ⟨S1650000, .i1⟩
  | 102 => ⟨S_, .i32⟩
  | 103 => ⟨S1650000, .i32⟩
  | 104 => ⟨S1650000, .i32⟩
  | 105 => ⟨S1650000, .i32⟩
  | 106 => ⟨S1650000x1, .i32⟩
  | 107 => ⟨S1650000, .f32⟩
  | 108 => ⟨S_, .i32⟩
  | 109 => ⟨S1650000, .i32⟩
  | 110 => ⟨S1650000, .i1⟩
  | 111 => ⟨S_, .i32⟩
  | 112 => ⟨S1650000, .i32⟩
  | 113 => ⟨S1650000, .i32⟩
  | 114 => ⟨S1650000, .i32⟩
  | 115 => ⟨S1650000x1, .i32⟩
  | 116 => ⟨S1650000, .f32⟩
  | 117 => ⟨S1650000, .f32⟩
  | 118 => ⟨S_, .i32⟩
  | 119 => ⟨S1650000, .i32⟩
  | 120 => ⟨S1650000, .i1⟩
  | 121 => ⟨S_, .i32⟩
  | 122 => ⟨S1650000, .i32⟩
  | 123 => ⟨S1650000, .i32⟩
  | 124 => ⟨S1650000, .i32⟩
  | 125 => ⟨S1650000x1, .i32⟩
  | 126 => ⟨S1650000x128, .f32⟩
  | 127 => ⟨S1650000x1, .f32⟩
  | _ => ⟨S50000x128, .f32⟩

abbrev hbmTy0_1 (i : Nat) : BufTy := match i % 128 with
  | 0 => ⟨S1650000x128, .f32⟩
  | 1 => ⟨S1650000x128, .f32⟩
  | 2 => ⟨S_, .f32⟩
  | 3 => ⟨S50000x128, .f32⟩
  | 4 => ⟨S1650000x1, .i32⟩
  | 5 => ⟨S50000x128, .f32⟩
  | 6 => ⟨S1x128, .f32⟩
  | 7 => ⟨S1x128, .f32⟩
  | 8 => ⟨S1x128, .f32⟩
  | 9 => ⟨S1x128, .f32⟩
  | 10 => ⟨S1x128, .f32⟩
  | 11 => ⟨S1x128, .f32⟩
  | 12 => ⟨S1x1, .f32⟩
  | 13 => ⟨S50000x1, .f32⟩
  | 14 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x1, .f32⟩
  | .local _ .vmem, ⟨25, _⟩ => ⟨S2000x1, .i32⟩
  | .local _ .vmem, ⟨26, _⟩ => ⟨S2000x1, .i32⟩
  | .local _ .vmem, ⟨27, _⟩ => ⟨S2000x1, .f32⟩
  | .local _ .vmem, ⟨28, _⟩ => ⟨S2000x1, .f32⟩
  | .local _ .vmem, ⟨29, _⟩ => ⟨S64x1, .f32⟩
  | .local _ .vmem, ⟨30, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_4 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_call1_v0 : Ref sig .tc := ⟨.hbm, 96, rfl⟩
abbrev main_call1_v1 : Ref sig .tc := ⟨.hbm, 97, rfl⟩
abbrev main_v61 : Ref sig .tc := ⟨.hbm, 98, rfl⟩
abbrev main_c_13 : Ref sig .tc := ⟨.hbm, 99, rfl⟩
abbrev main_v62 : Ref sig .tc := ⟨.hbm, 100, rfl⟩
abbrev main_v63 : Ref sig .tc := ⟨.hbm, 101, rfl⟩
abbrev main_c_14 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_c_15 : Ref sig .tc := ⟨.hbm, 108, rfl⟩
abbrev main_v69 : Ref sig .tc := ⟨.hbm, 109, rfl⟩
abbrev main_v70 : Ref sig .tc := ⟨.hbm, 110, rfl⟩
abbrev main_c_16 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_17 : Ref sig .tc := ⟨.hbm, 118, rfl⟩
abbrev main_v77 : Ref sig .tc := ⟨.hbm, 119, rfl⟩
abbrev main_v78 : Ref sig .tc := ⟨.hbm, 120, rfl⟩
abbrev main_c_18 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_19 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97_0 : Ref sig .tc := ⟨.hbm, 141, rfl⟩
abbrev main_v97_1 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg9_1 : Ref sig .tc := ⟨.vmem, 26, rfl⟩
abbrev cc2_stg10_0 : Ref sig .tc := ⟨.vmem, 27, rfl⟩
abbrev cc2_stg10_1 : Ref sig .tc := ⟨.vmem, 28, rfl⟩
abbrev cc2_stg11_0 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem9_1 : DmaSem sig := 26
abbrev cc2_sem10_0 : DmaSem sig := 27
abbrev cc2_sem10_1 : DmaSem sig := 28
abbrev cc2_sem11_0 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v57 : BitVec 1 := Scalar.cmpi .eq arg0 c24_i32
  let v58 : BitVec 32 := Scalar.extui v57
  let c0_i32_27 : BitVec 32 := 0#32
  let v59 : BitVec 1 := Scalar.cmpi .ne v58 c0_i32_27
  v59

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x1 .i32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 1 → Memref sig .tc .vmem S64x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  transposes_S128x1_S1x128_1_0 : S128x1.Transposes [1, 0] S1x128
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  reduces_S2000x128_S2000 : S2000x128.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  shapeCasts_S2000x1_S2000x1 : S2000x1.ShapeCasts S2000x1
  iota_S1x64_d1_w32 : S1x64.Iotas .tc 32 [1]
  broadcasts_S2000x1_S2000x64 : S2000x1.Broadcasts S2000x64
  broadcasts_S1x64_S2000x64 : S1x64.Broadcasts S2000x64
  broadcasts_S1x128_S64x128 : S1x128.Broadcasts S64x128
  reduces_S64x128_S64 : S64x128.Reduces [1] S64
  shapeCasts_S64_S64x1 : S64.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  dot_S2000x128_S128x128_S2000x128_1_0_0_1_n_n_wf : DotDims.WF S2000x128 S128x128 S2000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x64_S2000x128_S64x128_0_0_1_1_n_n_wf : DotDims.WF S2000x64 S2000x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x1.size a ≤ S50000x1.size a
  hwx2_9 : ∀ i : grid2.Coords, EltTy.bits .i32 = 32 ∨ (Rect.block (s := S50000x1) S2000x1.size (cc2_transform_9 i) (hinb2_9 i)).WholeWords (EltTy.packing .i32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x1.size a ≤ S50000x1.size a
  hwx2_10 : ∀ i : grid2.Coords, EltTy.bits .f32 = 32 ∨ (Rect.block (s := S50000x1) S2000x1.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x1.size a ≤ S64x1.size a
  hwx2_11 : ∀ i : grid2.Coords, EltTy.bits .f32 = 32 ∨ (Rect.block (s := S64x1) S64x1.size (cc2_transform_11 i) (hinb2_11 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v89) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v90) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v91) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v92) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v93) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v94) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v95) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg16) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v96) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v4) S2000x1.size cc2_transform_9 reads2_9 false false 2 stage2_9 sem2_9
    hrank2 hreads2_9 hinb2_9 nbuf2_9 (Memref.isWhole_whole _) hwx2_9 hstage2_9

abbrev win2_10 : Pipeline.Window sig grid2 :=
  Pipeline.Window.ofSpec (Memref.whole main_v97_0) S2000x1.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v97_1) S64x1.size cc2_transform_11 reads2_11 true true 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev idle2 : Fin 12 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k2_cond2 i == 1#1) | ⟨_ + 12, h⟩ => absurd h (Nat.not_lt.2 (Nat.le_add_left _ _))

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S50000x1 : Shape := ⟨2, ![50000, 1]⟩
abbrev S64x128 : Shape := ⟨2, ![64, 128]⟩
abbrev S64x1 : Shape := ⟨2, ![64, 1]⟩
abbrev S1x1 : Shape := ⟨2, ![1, 1]⟩

abbrev nBuf : Space → Nat
  | .hbm => 192
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x1, .f32⟩
  | 16 => ⟨S1x128, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S50000x128, .f32⟩
  | 23 => ⟨S50000, .i32⟩
  | 24 => ⟨S1650000, .i32⟩
  | 25 => ⟨S1650000, .i32⟩
  | 26 => ⟨S_, .f32⟩
  | 27 => ⟨S1650000, .f32⟩
  | 28 => ⟨S_, .f32⟩
  | 29 => ⟨S50000, .f32⟩
  | 30 => ⟨S1650000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S1650000, .i32⟩
  | 42 => ⟨S1650000, .i1⟩
  | 43 => ⟨S_, .i32⟩
  | 44 => ⟨S1650000, .i32⟩
  | 45 => ⟨S1650000, .i32⟩
  | 46 => ⟨S1650000, .i32⟩
  | 47 => ⟨S1650000x1, .i32⟩
  | 48 => ⟨S1650000, .f32⟩
  | 49 => ⟨S_, .i32⟩
  | 50 => ⟨S1650000, .i32⟩
  | 51 => ⟨S1650000, .i1⟩
  | 52 => ⟨S_, .i32⟩
  | 53 => ⟨S1650000, .i32⟩
  | 54 => ⟨S1650000, .i32⟩
  | 55 => ⟨S1650000, .i32⟩
  | 56 => ⟨S1650000x1, .i32⟩
  | 57 => ⟨S1650000, .f32⟩
  | 58 => ⟨S1650000, .f32⟩
  | 59 => ⟨S_, .i32⟩
  | 60 => ⟨S1650000, .i32⟩
  | 61 => ⟨S1650000, .i1⟩
  | 62 => ⟨S_, .i32⟩
  | 63 => ⟨S1650000, .i32⟩
  | 64 => ⟨S1650000, .i32⟩
  | 65 => ⟨S1650000, .i32⟩
  | 66 => ⟨S1650000x1, .i32⟩
  | 67 => ⟨S1650000x128, .f32⟩
  | 68 => ⟨S1650000x1, .f32⟩
  | 69 => ⟨S1650000x128, .f32⟩
  | 70 => ⟨S1650000x128, .f32⟩
  | 71 => ⟨S_, .f32⟩
  | 72 => ⟨S50000x128, .f32⟩
  | 73 => ⟨S1650000x1, .i32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S50000, .i32⟩
  | 99 => ⟨S1650000, .i32⟩
  | 100 => ⟨S1650000, .i32⟩
  | 101 => ⟨S_, .f32⟩
  | 102 => ⟨S1650000, .f32⟩
  | 103 => ⟨S_, .f32⟩
  | 104 => ⟨S50000, .f32⟩
  | 105 => ⟨S1650000x1, .i32⟩
  | 106 => ⟨S50000, .f32⟩
  | 107 => ⟨S_, .f32⟩
  | 108 => ⟨S50000, .f32⟩
  | 109 => ⟨S50000, .i1⟩
  | 110 => ⟨S50000, .f32⟩
  | 111 => ⟨S_, .f32⟩
  | 112 => ⟨S_, .f32⟩
  | 113 => ⟨S50000, .f32⟩
  | 114 => ⟨S50000, .f32⟩
  | 115 => ⟨S_, .i32⟩
  | 116 => ⟨S1650000, .i32⟩
  | 117 => ⟨S1650000, .i1⟩
  | 118 => ⟨S_, .i32⟩
  | 119 => ⟨S1650000, .i32⟩
  | 120 => ⟨S1650000, .i32⟩
  | 121 => ⟨S1650000, .i32⟩
  | 122 => ⟨S1650000x1, .i32⟩
  | 123 => ⟨S1650000, .f32⟩
  | 124 => ⟨S_, .i32⟩
  | 125 => ⟨S1650000, .i32⟩
  | 126 => ⟨S1650000, .i1⟩
  | 127 => ⟨S_, .i32⟩
  | _ => ⟨S50000x128, .f32⟩

abbrev hbmTy0_1 (i : Nat) : BufTy := match i % 128 with
  | 0 => ⟨S1650000, .i32⟩
  | 1 => ⟨S1650000, .i32⟩
  | 2 => ⟨S1650000, .i32⟩
  | 3 => ⟨S1650000x1, .i32⟩
  | 4 => ⟨S1650000, .f32⟩
  | 5 => ⟨S1650000, .f32⟩
  | 6 => ⟨S_, .i32⟩
  | 7 => ⟨S1650000, .i32⟩
  | 8 => ⟨S1650000, .i1⟩
  | 9 => ⟨S_, .i32⟩
  | 10 => ⟨S1650000, .i32⟩
  | 11 => ⟨S1650000, .i32⟩
  | 12 => ⟨S1650000, .i32⟩
  | 13 => ⟨S1650000x1, .i32⟩
  | 14 => ⟨S1650000x128, .f32⟩
  | 15 => ⟨S1650000x1, .f32⟩
  | 16 => ⟨S1650000x128, .f32⟩
  | 17 => ⟨S1650000x128, .f32⟩
  | 18 => ⟨S_, .f32⟩
  | 19 => ⟨S50000x128, .f32⟩
  | 20 => ⟨S1650000x1, .i32⟩
  | 21 => ⟨S50000x128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S128, .f32⟩
  | 33 => ⟨S128, .f32⟩
  | 34 => ⟨S128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x1, .f32⟩
  | 45 => ⟨S50000x1, .f32⟩
  | 46 => ⟨S50000x1, .f32⟩
  | 47 => ⟨S_, .f32⟩
  | 48 => ⟨S50000x1, .f32⟩
  | 49 => ⟨S50000x1, .f32⟩
  | 50 => ⟨S_, .f32⟩
  | 51 => ⟨S50000x1, .f32⟩
  | 52 => ⟨S50000x1, .f32⟩
  | 53 => ⟨S50000x128, .f32⟩
  | 54 => ⟨S50000x128, .f32⟩
  | 55 => ⟨S_, .f32⟩
  | 56 => ⟨S64x128, .f32⟩
  | 57 => ⟨S50000x1, .i32⟩
  | 58 => ⟨S64x128, .f32⟩
  | 59 => ⟨S128x1, .f32⟩
  | 60 => ⟨S64x1, .f32⟩
  | 61 => ⟨S1x1, .f32⟩
  | 62 => ⟨S64x1, .f32⟩
  | 63 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call1_cst : Ref sig .tc := ⟨.hbm, 94, rfl⟩
abbrev main_call1_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_10 : Ref sig .tc := ⟨.hbm, 101, rfl⟩
abbrev main_v67 : Ref sig .tc := ⟨.hbm, 102, rfl⟩
abbrev main_cst_11 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_13 : Ref sig .tc := ⟨.hbm, 111, rfl⟩
abbrev main_call2_v0 : Ref sig .tc := ⟨.hbm, 112, rfl⟩
abbrev main_call2_v1 : Ref sig .tc := ⟨.hbm, 113, rfl⟩
abbrev main_v74 : Ref sig .tc := ⟨.hbm, 114, rfl⟩
abbrev main_c_14 : Ref sig .tc := ⟨.hbm, 115, rfl⟩
abbrev main_v75 : Ref sig .tc := ⟨.hbm, 116, rfl⟩
abbrev main_v76 : Ref sig .tc := ⟨.hbm, 117, rfl⟩
abbrev main_c_15 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_16 : Ref sig .tc := ⟨.hbm, 124, rfl⟩
abbrev main_v82 : Ref sig .tc := ⟨.hbm, 125, rfl⟩
abbrev main_v83 : Ref sig .tc := ⟨.hbm, 126, rfl⟩
abbrev main_c_17 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_18 : Ref sig .tc := ⟨.hbm, 134, rfl⟩
abbrev main_v90 : Ref sig .tc := ⟨.hbm, 135, rfl⟩
abbrev main_v91 : Ref sig .tc := ⟨.hbm, 136, rfl⟩
abbrev main_c_19 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_20 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_21 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_call3_cst : Ref sig .tc := ⟨.hbm, 169, rfl⟩
abbrev main_call3_v0 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_22 : Ref sig .tc := ⟨.hbm, 175, rfl⟩
abbrev main_v125 : Ref sig .tc := ⟨.hbm, 176, rfl⟩
abbrev main_v126 : Ref sig .tc := ⟨.hbm, 177, rfl⟩
abbrev main_cst_23 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_24 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  transposes_S1x128_S128x1_1_0 : S1x128.Transposes [1, 0] S128x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x1_S50000x1_1_0_0_1_n_n_wf : DotDims.WF S50000x128 S128x1 S50000x1 [1] [0] [0] [1] [] []
  scatter_S64x128_S50000x1_S50000x128_1_0_0_1_wf : ScatterDims.WF S64x128 S50000x1 S50000x128 [1] [0] [0] 1
  dot_S64x128_S128x1_S64x1_1_0_0_1_n_n_wf : DotDims.WF S64x128 S128x1 S64x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.Reg0.lean ====
/- Kernel region 0: a grid of 25 points; at point t the body reads rows [2000 t, 2000 t + 2000) of the
   f32[50000,128] left operand and the whole f32[128,128] right operand, truncates both to bf16, multiplies them
   from a zero accumulator, and writes the f32[2000,128] product to rows [2000 t, 2000 t + 2000) of the result.
   This module is the frame half: each window's block at a point, what the body leaves in the output window's
   buffer as a closed function of the two input blocks, the body's triple, and the pipeline's body obligation. -/
import proofs.«409529_j10797547782216_3_alg».proof.Proof.Gen.Kernel.Launch
import proofs.«409529_j10797547782216_3_alg».proof.Proof.Gen.Kernel.Skeleton
import proofs.«409529_j10797547782216_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- window w's block at point t, read off its array as the region finds it -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the window's block at every point, for any proof data whose array is
    the entry contents and whose body leaves the block in place: the window is fetched at every point, and a
    fetch puts the block in the buffer. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the window's block at every point, under the same two hypotheses:
    its block index never moves, so a point that does not fetch it finds the block the previous point left,
    which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- the whole f32[2000,128] buffer as a rectangle: unit strides, offset zero, the buffer's own extents -/
abbrev rectRows : Rect S2000x128 := Rect.unit (s := S2000x128) ![0, 0] S2000x128.size inb_S2000x128_S2000x128_0_0
/-- the whole f32[128,128] buffer as a rectangle: unit strides, offset zero, the buffer's own extents -/
abbrev rectRhs : Rect S128x128 := Rect.unit (s := S128x128) ![0, 0] S128x128.size inb_S128x128_S128x128_0_0

theorem zero_off2 : (![0, 0] : Fin 2 → Nat) = fun _ => 0 := funext fun a => by fin_cases a <;> rfl

/-! ## What the body leaves in the output window's buffer -/

/-- what the output window's staging buffer holds after the body, from the two input blocks: the View.canon of the one store over Gen.k0_pay1 -/
def out0_2 (x0 : Vec F S2000x128 .f32) (x1 : Vec F S128x128 .f32) : Vec F S2000x128 .f32 :=
  View.canon [⟨rectRows, k0_pay1 (View.ld x0 rectRows) (View.ld x1 rectRhs)⟩]

/-- The one store's rectangle is the whole buffer, so it covers it. -/
theorem cover0_2 (p0 : Vec F S2000x128 .f32) (y : S2000x128.Idx) :
    ∃ pc ∈ ([⟨rectRows, p0⟩] : List (View.Piece (Elt F) S2000x128 .f32)), y ∈ pc.1.set :=
  View.cover_of_tiled [⟨rectRows, p0⟩] S2000x128.size (by rfl) y

/-- the output buffer after the body is the payload itself of the two blocks (the one store covers the buffer from offset 0: View.canon_unit_zero, View.ld_unit_zero) -/
theorem out0_2_eq (x0 : Vec F S2000x128 .f32) (x1 : Vec F S128x128 .f32) : out0_2 (F := F) x0 x1 = k0_pay1 x0 x1 := by
  unfold out0_2
  rw [View.canon_unit_zero (S := S2000x128) zero_off2 inb_S2000x128_S2000x128_0_0,
    View.ld_unit_zero (S := S2000x128) zero_off2 inb_S2000x128_S2000x128_0_0,
    View.ld_unit_zero (S := S128x128) zero_off2 inb_S128x128_S128x128_0_0]

/-! ## The body's triple -/

set_option maxHeartbeats 1000000 in
/-- The kernel body on whole staging memrefs, the two inputs' at read contents x0, x1 and the output's at anything,
    runs to the continuation holding the inputs' as they were and the output's at out0_2 of the inputs: the printed
    function is its skeleton, two whole loads, one dead load of the output buffer, one whole store of the payload. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core c: the arrays as the region finds them; after the body at point t each
    input's buffer at its block and the output's at out0_2 of the two input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t: the invariant, what is owed, and the three windows' current staging
    buffers at what the pipeline left in them, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/- Kernel region 1: over a grid of 25 points, point t takes rows [2000 t, 2000 t + 2000) of a 50000×128 array,
   adds a bias row, normalizes by a mean row and a variance row (x − mean) · scale · rsqrt(variance + ε) + shift,
   clamps below at zero, rounds to bf16 and multiplies by a 128×128 matrix (rounded to bf16), accumulating in f32;
   the product is rows [2000 t, 2000 t + 2000) of the result. This module is the frame half: what each window's
   staging buffer holds before and after the body at every point, and the body's triple. -/
import proofs.«409529_j10797547782216_3_alg».proof.Proof.Gen.Kernel.Launch
import proofs.«409529_j10797547782216_3_alg».proof.Proof.Gen.Kernel.Skeleton
import proofs.«409529_j10797547782216_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the entry contents and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the entry contents and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is the entry contents and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is the entry contents and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev rowsRect1 : Rect S2000x128 := Rect.unit (s := S2000x128) ![0, 0] S2000x128.size inb_S2000x128_S2000x128_0_0
abbrev rowRect1 : Rect S1x128 := Rect.unit (s := S1x128) ![0, 0] S1x128.size inb_S1x128_S1x128_0_0
abbrev matRect1 : Rect S128x128 := Rect.unit (s := S128x128) ![0, 0] S128x128.size inb_S128x128_S128x128_0_0

/-! ## What the body leaves in the output window's buffer -/

/-- what the output window's staging buffer holds after the body, from the seven input blocks in window order
    (x0 … x6 = windows 0 … 6): the one store, whole, of the payload over the whole loads. The payload takes the
    loads in the order the body makes them: windows 0, 1, 4, 2, 5, 3, 6. -/
def out1_7 (x0 : Vec F S2000x128 .f32) (x1 x2 x3 x4 x5 : Vec F S1x128 .f32) (x6 : Vec F S128x128 .f32) : Vec F S2000x128 .f32 :=
  View.canon [⟨rowsRect1, k1_pay1 (View.ld x0 rowsRect1) (View.ld x1 rowRect1) (View.ld x4 rowRect1) (View.ld x2 rowRect1)
    (View.ld x5 rowRect1) (View.ld x3 rowRect1) (View.ld x6 matRect1)⟩]

/-- The one store tiles the buffer, so it covers it. -/
theorem cover1_7 (p0 : Vec F S2000x128 .f32) (y : S2000x128.Idx) :
    ∃ pc ∈ ([⟨rowsRect1, p0⟩] : List (View.Piece (Elt F) S2000x128 .f32)), y ∈ pc.1.set :=
  View.cover_of_tiled [⟨rowsRect1, p0⟩] S2000x128.size (by rfl) y

/-! ## The body's triple -/

set_option maxHeartbeats 1000000 in
/-- The kernel body on whole staging memrefs, the inputs' at read contents `x0 … x6` and the output's at anything, runs
    to the continuation holding the inputs' as they were and the output's at `out1_7` of the inputs': the printed
    function is its skeleton, seven whole loads, a load of the output that nothing reads, and one whole store. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S2000x128 .f32) (harg8 : arg8.IsWhole)
    (x0 : Vec F S2000x128 .f32) (x1 x2 x3 x4 x5 : Vec F S1x128 .f32) (x6 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__bn_relu_matmul_kernel i arg1 harg1 arg2 harg2 arg3 harg3 arg4 harg4 arg5 harg5 arg6 harg6 arg7 harg7 arg8 harg8) K := by
  simp only [cc1__bn_relu_matmul_kernel_eq_skeleton]; unfold cc1__bn_relu_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the region on core `c`: the arrays as the region finds them; after the body at point `t` each
    input's buffer at its block and the output's at `out1_7` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- the output buffer after the body is the payload itself of the blocks: a whole load reads the contents, one whole
    store leaves its payload -/
theorem out1_7_eq (x0 : Vec F S2000x128 .f32) (x1 x2 x3 x4 x5 : Vec F S1x128 .f32) (x6 : Vec F S128x128 .f32) :
    out1_7 (F := F) x0 x1 x2 x3 x4 x5 x6 = k1_pay1 x0 x1 x4 x2 x5 x3 x6 := by
  have hz : (![0, 0] : Fin 2 → Nat) = fun _ => 0 := funext fun a => by fin_cases a <;> rfl
  unfold out1_7
  rw [View.canon_unit_zero (S := S2000x128) hz inb_S2000x128_S2000x128_0_0,
    View.ld_unit_zero (S := S2000x128) hz inb_S2000x128_S2000x128_0_0,
    View.ld_unit_zero (S := S128x128) hz inb_S128x128_S128x128_0_0]
  simp only [View.ld_unit_zero (S := S1x128) hz inb_S1x128_S1x128_0_0]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2Defs.lean ====
/-
  The pooling region, point by point. At grid point t the kernel reads rows [2000 t, 2000 t + 2000) of the aggregated
  features, normalises and rectifies them (h), takes the attention weight of each row as the logistic of its inner product
  with the attention vector (a), and adds to a 64 x 128 accumulator, kept in a scratch buffer across the points and cleared at
  the first one, the sum over the block's rows of h · a, each row sent to the group its segment id names (a one-hot
  product). At the last point the accumulator's rows are contracted with the classifier vector and shifted by its bias.
  This module states those values as one recursion over the grid position, and the region's invariant that carries the
  accumulator from point to point.
-/
import proofs.«409529_j10797547782216_3_alg».proof.Proof.Gen.Kernel.Launch
import proofs.«409529_j10797547782216_3_alg».proof.Proof.Gen.Kernel.Skeleton
import proofs.«409529_j10797547782216_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of feature rows at point `t`. -/
abbrev rows2 (c : Dev nD) (t : Fin cfg2.N) : Vec F S2000x128 .f32 := iblk2 V c 0 t
/-- The convolution's bias, the normalisation's scale, shift, mean and variance, the attention vector and the classifier
    vector: one row of 128 each, the same at every point. -/
abbrev bias2 (c : Dev nD) (t : Fin cfg2.N) : Vec F S1x128 .f32 := iblk2 V c 1 t
abbrev scale2 (c : Dev nD) (t : Fin cfg2.N) : Vec F S1x128 .f32 := iblk2 V c 2 t
abbrev shift2 (c : Dev nD) (t : Fin cfg2.N) : Vec F S1x128 .f32 := iblk2 V c 3 t
abbrev mean2 (c : Dev nD) (t : Fin cfg2.N) : Vec F S1x128 .f32 := iblk2 V c 4 t
abbrev var2 (c : Dev nD) (t : Fin cfg2.N) : Vec F S1x128 .f32 := iblk2 V c 5 t
abbrev attw2 (c : Dev nD) (t : Fin cfg2.N) : Vec F S1x128 .f32 := iblk2 V c 6 t
abbrev clsw2 (c : Dev nD) (t : Fin cfg2.N) : Vec F S1x128 .f32 := iblk2 V c 7 t
/-- The classifier's bias, one entry. -/
abbrev clsb2 (c : Dev nD) (t : Fin cfg2.N) : Vec F S1x1 .f32 := iblk2 V c 8 t
/-- The block of segment ids at point `t`, one per feature row. -/
abbrev segs2 (c : Dev nD) (t : Fin cfg2.N) : Vec F S2000x1 .i32 := iblk2 V c 9 t

/-! ## What the body computes at a point -/

/-- The rectified, normalised feature rows of the block at point `t`. -/
def hP (c : Dev nD) (t : Fin cfg2.N) : Vec F S2000x128 .f32 :=
  k2_pay4 (rows2 V c t) (bias2 V c t) (mean2 V c t) (scale2 V c t) (var2 V c t) (shift2 V c t)

/-- The attention weights of the block's rows at point `t`: what the body stores into the first output window. -/
def aP (c : Dev nD) (t : Fin cfg2.N) : Vec F S2000x1 .f32 :=
  k2_pay5 (rows2 V c t) (bias2 V c t) (mean2 V c t) (scale2 V c t) (var2 V c t) (shift2 V c t) (attw2 V c t)

/-- The accumulator after the body at position `n`: cleared before the first point's contribution is added, carried
    from the point before otherwise. -/
def accP (c : Dev nD) : (n : ℕ) → n < cfg2.N → Vec F S64x128 .f32
  | 0, h => k2_pay1 (hP V c ⟨0, h⟩) (aP V c ⟨0, h⟩) (segs2 V c ⟨0, h⟩) (k2_pay3 (F := F))
  | n + 1, h => k2_pay1 (hP V c ⟨n + 1, h⟩) (aP V c ⟨n + 1, h⟩) (segs2 V c ⟨n + 1, h⟩) (accP c n (Nat.lt_of_succ_lt h))

theorem accP_zero (c : Dev nD) (h : 0 < cfg2.N) :
    accP V c 0 h = k2_pay1 (hP V c ⟨0, h⟩) (aP V c ⟨0, h⟩) (segs2 V c ⟨0, h⟩) (k2_pay3 (F := F)) := rfl

theorem accP_succ (c : Dev nD) (n : ℕ) (h : n + 1 < cfg2.N) :
    accP V c (n + 1) h = k2_pay1 (hP V c ⟨n + 1, h⟩) (aP V c ⟨n + 1, h⟩) (segs2 V c ⟨n + 1, h⟩) (accP V c n (Nat.lt_of_succ_lt h)) := rfl

/-- The group scores the body stores into the second output window at a point that stores them (the last): the
    accumulator after that point contracted with the classifier vector, plus its bias. -/
def logitsP (c : Dev nD) (t : Fin cfg2.N) : Vec F S64x1 .f32 :=
  k2_pay2 (accP V c t.val t.isLt) (clsw2 V c t) (clsb2 V c t)

/-! ## The region's invariant -/

/-- The core's other scoped buffers — the staging buffers of the two earlier regions —, each whole at some contents. -/
def othersHeld2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg7_1), ((c : Thread nD τ).loc cc1_stg7_1) ↦{fullShare} f))

/-- The region's invariant before position `n`: before the first point every scoped buffer no window stages holds
    anything; afterwards the accumulator's buffer holds what the point before left in it. -/
def PhiS2 (c : Dev nD) : (n : ℕ) → n ≤ cfg2.N → sProp 𝕄
  | 0, _ => Pipeline.ΦA spec2 c
  | n + 1, hn => iprop(othersHeld2 (F := F) c ∗ owns (c : Thread nD τ) (Memref.whole cc2_scratch0) fullShare (accP V c n hn) ∗ ∃ r, prngReg c r)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(othersHeld2 (F := F) c ∗ owns (c : Thread nD τ) (Memref.whole cc2_scratch0) fullShare (accP V c n hn) ∗ ∃ r, prngReg c r) := rfl

theorem PhiS2_pos (c : Dev nD) (n : ℕ) (h : n ≤ cfg2.N) (hz : n ≠ 0) :
    PhiS2 V c n h = iprop(othersHeld2 (F := F) c ∗ owns (c : Thread nD τ) (Memref.whole cc2_scratch0) fullShare (accP V c (n - 1) (by omega)) ∗ ∃ r, prngReg c r) := by
  cases n with
  | zero => exact absurd rfl hz
  | succ n => rfl

/-! ## The region's proof data -/

/-- After the body at point `t`: each input window's buffer still at its block, the first output's at the attention
    weights, the second's at the group scores (consulted only where the body stores them); the invariant carries the
    accumulator; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => aP V c t
    | ⟨11, _⟩ => logitsP V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_10 (c : Dev nD) (t : Fin cfg2.N) : (dat2 V c).after 10 t = aP V c t := by dsimp only [dat2]
theorem after2_11 (c : Dev nD) (t : Fin cfg2.N) : (dat2 V c).after 11 t = logitsP V c t := by dsimp only [dat2]

theorem Phi2_castSucc (c : Dev nD) (t : Fin cfg2.N) :
    (dat2 V c).Φ t.castSucc = PhiS2 V c t.val (Nat.le_of_lt t.isLt) := by
  dsimp only [dat2]; simp only [Fin.coe_castSucc]

theorem Phi2_succ (c : Dev nD) (t : Fin cfg2.N) :
    (dat2 V c).Φ t.succ = PhiS2 V c (t.val + 1) t.isLt := rfl

end Cert.Kernel.Hand

end
-- ==== Proof.K.Bounds.lean ====
/-
  The kernel's program from launch to return. Its @main is ten items: three kernel regions among stretches of host
  operations. Between two items the TensorCore's unscoped buffers hold known contents: the launch memory, then what each
  host stretch computes from them, then — after a region — the same contents with the region's output arrays at what its
  write-backs leave. This module names those contents and gives each region its proof data at its own entry contents.
-/
import proofs.«409529_j10797547782216_3_alg».proof.Proof.Gen.Kernel.Regions
import proofs.«409529_j10797547782216_3_alg».proof.Proof.K.Reg0
import proofs.«409529_j10797547782216_3_alg».proof.Proof.K.Reg1
import proofs.«409529_j10797547782216_3_alg».proof.Proof.K.Reg2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- Region 0 is entered after the first host stretch. -/
abbrev Win0 (c : Dev nD) : Valuation τ sig (Elt F) := V1 m c
abbrev Vin0 (c : Dev nD) (b : Ref sig .tc) : Buf (Elt F) ((c : Thread nD τ).loc b) := Win0 m c b
/-- What region 0's write-backs leave in its output array: the product of the feature rows with the first weight matrix. -/
def left0 (c : Dev nD) : Buf (Elt F) ((c : Thread nD τ).loc main_v5) := (dat0 (Vin0 m) c).arrAt 2 cfg0.N
/-- After region 0: the entry contents with that array in place. -/
abbrev Wout0 (c : Dev nD) : Valuation τ sig (Elt F) := Function.update (Win0 m c) main_v5 (left0 m c)
abbrev Vout0 (c : Dev nD) (b : Ref sig .tc) : Buf (Elt F) ((c : Thread nD τ).loc b) := Wout0 m c b

/-- Region 1 is entered after the three host stretches that aggregate region 0's output along the edges. A definition, not an
    abbreviation: the stretches' fold stays folded wherever these contents are compared. -/
def Win1 (c : Dev nD) : Valuation τ sig (Elt F) :=
  StableHlo.after hostOps1_2 (StableHlo.after hostOps1_1 (StableHlo.after hostOps1 (Wout0 m c)))
abbrev Vin1 (c : Dev nD) (b : Ref sig .tc) : Buf (Elt F) ((c : Thread nD τ).loc b) := Win1 m c b
/-- What region 1 leaves in its output array. -/
def left1 (c : Dev nD) : Buf (Elt F) ((c : Thread nD τ).loc main_v50) := (dat1 (Vin1 m) c).arrAt 7 cfg1.N
abbrev Wout1 (c : Dev nD) : Valuation τ sig (Elt F) := Function.update (Win1 m c) main_v50 (left1 m c)
abbrev Vout1 (c : Dev nD) (b : Ref sig .tc) : Buf (Elt F) ((c : Thread nD τ).loc b) := Wout1 m c b

/-- Region 2 is entered after the three host stretches that aggregate region 1's output. -/
def Win2 (c : Dev nD) : Valuation τ sig (Elt F) :=
  StableHlo.after hostOps2_2 (StableHlo.after hostOps2_1 (StableHlo.after hostOps2 (Wout1 m c)))
abbrev Vin2 (c : Dev nD) (b : Ref sig .tc) : Buf (Elt F) ((c : Thread nD τ).loc b) := Win2 m c b
/-- What region 2 leaves in its two output arrays: the attention weights and the group scores. -/
def left2a (c : Dev nD) : Buf (Elt F) ((c : Thread nD τ).loc main_v97_0) := (dat2 (Vin2 m) c).arrAt 10 cfg2.N
def left2b (c : Dev nD) : Buf (Elt F) ((c : Thread nD τ).loc main_v97_1) := (dat2 (Vin2 m) c).arrAt 11 cfg2.N
abbrev Wout2 (c : Dev nD) : Valuation τ sig (Elt F) :=
  Function.update (Function.update (Win2 m c) main_v97_0 (left2a m c)) main_v97_1 (left2b m c)
abbrev Vout2 (c : Dev nD) (b : Ref sig .tc) : Buf (Elt F) ((c : Thread nD τ).loc b) := Wout2 m c b

/-- What the regions leave, read where the generated boundary contents read it: after item 1, 5 and 9. -/
def outs : Outs (F := F) := fun J r c => match J with
  | 2 => Wout0 m c r
  | 6 => Wout1 m c r
  | _ => Wout2 m c r

/-- The generated boundary contents, at these choices, are the ones above. -/
theorem V2_eq (c : Dev nD) : V2 m (outs m) c = Wout0 m c := by
  show Function.update (V1 m c) main_v5 (Wout0 m c main_v5) = Wout0 m c
  rw [show Wout0 m c main_v5 = left0 m c from Function.update_self ..]
theorem V5_eq (c : Dev nD) : V5 m (outs m) c = Win1 m c := by
  unfold Win1
  show StableHlo.after hostOps1_2 (StableHlo.after hostOps1_1 (StableHlo.after hostOps1 (V2 m (outs m) c))) = _
  rw [V2_eq]
theorem V6_eq (c : Dev nD) : V6 m (outs m) c = Wout1 m c := by
  show Function.update (V5 m (outs m) c) main_v50 (Wout1 m c main_v50) = Wout1 m c
  rw [V5_eq, show Wout1 m c main_v50 = left1 m c from Function.update_self ..]
theorem V9_eq (c : Dev nD) : V9 m (outs m) c = Win2 m c := by
  unfold Win2
  show StableHlo.after hostOps2_2 (StableHlo.after hostOps2_1 (StableHlo.after hostOps2 (V6 m (outs m) c))) = _
  rw [V6_eq]
theorem V10_eq (c : Dev nD) : V10 m (outs m) c = Wout2 m c := by
  show Function.update (Function.update (V9 m (outs m) c) main_v97_0 (Wout2 m c main_v97_0)) main_v97_1 (Wout2 m c main_v97_1) = Wout2 m c
  rw [V9_eq, show Wout2 m c main_v97_1 = left2b m c from Function.update_self ..,
    show Wout2 m c main_v97_0 = left2a m c from
      (Function.update_of_ne (StableHlo.devRef_ne_of_ne (by decide) : (Proc.devRef .tc main_v97_0 : DevRef τ sig) ≠ Proc.devRef .tc main_v97_1) _ _).trans (Function.update_self ..)]

/-! ## The proof data family and what rides beside the buffers -/

/-- Every region's proof data, each at its own entry contents. -/
def pdats : (p : Fin 3) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨_ + 3, h⟩ => absurd h (Nat.not_lt.2 (Nat.le_add_left _ _))

/-- No core owes another anything: no level is assigned. -/
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)

end Cert.Kernel.Hand

end
-- ==== Proof.K.Reg2Run.lean ====
/-
  The body of the pooling region as a triple, in each of its three control cases. The body clears the accumulator when
  the grid coordinate is 0, loads the feature rows and the six normalisation and attention vectors, stores the
  attention weights into the first output's buffer, loads the segment ids and the accumulator, stores the accumulator
  with the block's contribution added, and, when the grid coordinate is 24, reads the accumulator back and stores its
  contraction with the classifier vector, shifted by the bias, into the second output's buffer. Every load and store
  is through the whole-buffer rectangle, so a load reads the contents and a store leaves its payload. Each case's
  triple states the contents left explicitly as the payloads of the input contents.
-/
import proofs.«409529_j10797547782216_3_alg».proof.Proof.Gen.Kernel.Launch
import proofs.«409529_j10797547782216_3_alg».proof.Proof.Gen.Kernel.Skeleton
import proofs.«409529_j10797547782216_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form -/

/-- The condition of the clearing branch (the grid coordinate compared with 0), as the body computes it. -/
abbrev cond2_0 (i : grid2.Coords) : Prop := (Scalar.cmpi .ne (Scalar.extui (Scalar.cmpi .eq (BitVec.ofNat 32 (i 0).val) 0#32)) 0#32) = 1#1
/-- The condition of the branch that stores the group scores (the grid coordinate compared with 24). -/
abbrev cond2_1 (i : grid2.Coords) : Prop := k2_cond2 i = 1#1

/-- The first holds at the first point only, -/
theorem hcond2_0 : ∀ t : Fin cfg2.N, cond2_0 (grid2.coords t) ↔ t.val % 25 = 0 :=
  (by decide +kernel : ∀ t : Fin grid2.N, cond2_0 (grid2.coords t) ↔ t.val % 25 = 0)
/-- the second at the last point only. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Whole-buffer loads and stores -/

theorem zeroOffsets2 : (![0, 0] : Fin 2 → Nat) = fun _ => 0 := funext fun a => by fin_cases a <;> rfl

section Whole

variable {sg : RefSig} {κ : Kind} {sp : Space} {S : Shape} {e : EltTy}

/-- A load through the whole-buffer rectangle (unit strides, zero offsets, the buffer's extents) reads the contents. -/
theorem readAt_whole (v : View sg κ sp S e) (f : v.ty.Contents (Elt F)) {off : Fin S.rank → Nat} (hz : off = fun _ => 0)
    (inb : ∀ a, off a + S.size a ≤ S.size a) :
    v.readAt (Elt F) (Rect.unit off S.size inb).toLoadRect f = v.read (Elt F) f :=
  (View.readAt_eq_ld v f _).trans (View.ld_unit_zero hz inb _)

/-- One store through that rectangle leaves its payload, whatever the buffer held: the rectangle covers the buffer. -/
theorem read_store_whole (v : View sg κ sp S e) (f : v.ty.Contents (Elt F)) {off : Fin S.rank → Nat} (hz : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero hz inb y⟩)).trans
    (View.canon_unit_zero hz inb w)

/-- Two such stores leave the later one's payload. -/
theorem read_store_whole₂ (v : View sg κ sp S e) (f : v.ty.Contents (Elt F)) {off : Fin S.rank → Nat} (hz : off = fun _ => 0)
    (inb : ∀ a, off a + S.size a ≤ S.size a) (w w' : S.Idx → Elt F e) :
    v.read (Elt F) (v.writes (Elt F) f [(⟨Rect.unit off S.size inb, w⟩ : View.Piece (Elt F) S e), ⟨Rect.unit off S.size inb, w'⟩]) = w :=
  (View.read_writes_eq_canon v f _ (fun y => ⟨_, List.mem_cons_self, View.mem_set_unit_zero hz inb y⟩)).trans
    (View.canon_cons_unit_zero hz inb w _)

end Whole

/-! ## The body's triple, case by case -/

set_option maxHeartbeats 2000000 in
/-- THE FIRST POINT. The clearing branch is taken, the scoring branch is not. On whole memrefs, the seven inputs of the
    normalisation and the attention and the segment ids at read contents, the first output's and the accumulator's at
    anything, the body runs to the continuation holding the inputs as they were, the first output at the attention
    weights, and the accumulator at the block's contribution added to the cleared accumulator: the accumulator is
    stored whole twice, the later store over what the earlier left (read back through the whole-buffer rectangle). -/
theorem sound_kernel2_A (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S2000x1 .i32) (harg10 : arg10.IsWhole) (arg11 : Memref sig .tc .vmem S2000x1 .f32) (harg11 : arg11.IsWhole) (arg12 : Memref sig .tc .vmem S64x1 .f32) (harg12 : arg12.IsWhole) (arg13 : Memref sig .tc .vmem S64x128 .f32) (harg13 : arg13.IsWhole)
    (hc0 : cond2_0 i) (hc1 : ¬cond2_1 i)
    (x0 : Vec F S2000x128 .f32) (x1 x2 x3 x4 x5 x6 : Vec F S1x128 .f32) (x9 : Vec F S2000x1 .i32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x9
        ∗ (∃ d, owns (c : Thread nD τ) arg11 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x9
            ∗ owns (c : Thread nD τ) arg11 fullShare (k2_pay5 x0 x1 x4 x2 x5 x3 x6)
            ∗ owns (c : Thread nD τ) arg13 fullShare (k2_pay1 (k2_pay4 x0 x1 x4 x2 x5 x3) (k2_pay5 x0 x1 x4 x2 x5 x3 x6) x9 (k2_pay3 (F := F)))) -∗ K ⟨⟩))
      ⊢ wp frame (wpE (defs₀ (F := F)) Variants.none c none) E (cc2__final_kernel i arg1 harg1 arg2 harg2 arg3 harg3 arg4 harg4 arg5 harg5 arg6 harg6 arg7 harg7 arg8 harg8 arg9 harg9 arg10 harg10 arg11 harg11 arg12 harg12 arg13 harg13) K := by
  simp only [cc2__final_kernel_eq_skeleton]; unfold cc2__final_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%d11, %f11, -, H11⟩, ⟨%d13, %f13, -, H13⟩, Hk⟩
  subst hf1; subst hf2; subst hf3; subst hf4; subst hf5; subst hf6; subst hf7; subst hf10
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H10]
  · iexists f10; isplitr; · ipureintro; rfl
    iexact H10
  isplitl [H11]
  · iexists _; isplitr
    swap; · iexact H11
    ipureintro
    refine (read_store_whole _ _ zeroOffsets2 _ _).trans ?_
    dsimp only
    simp only [readAt_whole (S := S2000x128) _ _ zeroOffsets2 inb_S2000x128_S2000x128_0_0, readAt_whole (S := S1x128) _ _ zeroOffsets2 inb_S1x128_S1x128_0_0, readAt_whole (S := S2000x1) _ _ zeroOffsets2 inb_S2000x1_S2000x1_0_0, readAt_whole (S := S64x128) _ _ zeroOffsets2 inb_S64x128_S64x128_0_0, readAt_whole (S := S1x1) _ _ zeroOffsets2 inb_S1x1_S1x1_0_0]
  · iexists _; isplitr
    swap; · iexact H13
    ipureintro
    refine (read_store_whole₂ _ _ zeroOffsets2 _ _ _).trans ?_
    dsimp only
    sl_unfold_words
    simp only [readAt_whole (S := S2000x128) _ _ zeroOffsets2 inb_S2000x128_S2000x128_0_0, readAt_whole (S := S1x128) _ _ zeroOffsets2 inb_S1x128_S1x128_0_0, readAt_whole (S := S2000x1) _ _ zeroOffsets2 inb_S2000x1_S2000x1_0_0, readAt_whole (S := S64x128) _ _ zeroOffsets2 inb_S64x128_S64x128_0_0, readAt_whole (S := S1x1) _ _ zeroOffsets2 inb_S1x1_S1x1_0_0, View.readCov_unit_zero (S := S64x128) _ zeroOffsets2 inb_S64x128_S64x128_0_0]

set_option maxHeartbeats 2000000 in
/-- A MIDDLE POINT. Neither branch is taken. As at the first point, but the accumulator is found at contents `xs` (what
    the point before left) and left at the block's contribution added to them. -/
theorem sound_kernel2_B (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S2000x1 .i32) (harg10 : arg10.IsWhole) (arg11 : Memref sig .tc .vmem S2000x1 .f32) (harg11 : arg11.IsWhole) (arg12 : Memref sig .tc .vmem S64x1 .f32) (harg12 : arg12.IsWhole) (arg13 : Memref sig .tc .vmem S64x128 .f32) (harg13 : arg13.IsWhole)
    (hc0 : ¬cond2_0 i) (hc1 : ¬cond2_1 i)
    (x0 : Vec F S2000x128 .f32) (x1 x2 x3 x4 x5 x6 : Vec F S1x128 .f32) (x9 : Vec F S2000x1 .i32) (xs : Vec F S64x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x9
        ∗ (∃ d, owns (c : Thread nD τ) arg11 fullShare d) ∗ owns (c : Thread nD τ) arg13 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x9
            ∗ owns (c : Thread nD τ) arg11 fullShare (k2_pay5 x0 x1 x4 x2 x5 x3 x6)
            ∗ owns (c : Thread nD τ) arg13 fullShare (k2_pay1 (k2_pay4 x0 x1 x4 x2 x5 x3) (k2_pay5 x0 x1 x4 x2 x5 x3 x6) x9 xs)) -∗ K ⟨⟩))
      ⊢ wp frame (wpE (defs₀ (F := F)) Variants.none c none) E (cc2__final_kernel i arg1 harg1 arg2 harg2 arg3 harg3 arg4 harg4 arg5 harg5 arg6 harg6 arg7 harg7 arg8 harg8 arg9 harg9 arg10 harg10 arg11 harg11 arg12 harg12 arg13 harg13) K := by
  simp only [cc2__final_kernel_eq_skeleton]; unfold cc2__final_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%d11, %f11, -, H11⟩, ⟨%f13, %hf13, H13⟩, Hk⟩
  subst hf1; subst hf2; subst hf3; subst hf4; subst hf5; subst hf6; subst hf7; subst hf10; subst hf13
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H10]
  · iexists f10; isplitr; · ipureintro; rfl
    iexact H10
  isplitl [H11]
  · iexists _; isplitr
    swap; · iexact H11
    ipureintro
    refine (read_store_whole _ _ zeroOffsets2 _ _).trans ?_
    dsimp only
    simp only [readAt_whole (S := S2000x128) _ _ zeroOffsets2 inb_S2000x128_S2000x128_0_0, readAt_whole (S := S1x128) _ _ zeroOffsets2 inb_S1x128_S1x128_0_0, readAt_whole (S := S2000x1) _ _ zeroOffsets2 inb_S2000x1_S2000x1_0_0, readAt_whole (S := S64x128) _ _ zeroOffsets2 inb_S64x128_S64x128_0_0, readAt_whole (S := S1x1) _ _ zeroOffsets2 inb_S1x1_S1x1_0_0]
  · iexists _; isplitr
    swap; · iexact H13
    ipureintro
    refine (read_store_whole _ _ zeroOffsets2 _ _).trans ?_
    dsimp only
    simp only [readAt_whole (S := S2000x128) _ _ zeroOffsets2 inb_S2000x128_S2000x128_0_0, readAt_whole (S := S1x128) _ _ zeroOffsets2 inb_S1x128_S1x128_0_0, readAt_whole (S := S2000x1) _ _ zeroOffsets2 inb_S2000x1_S2000x1_0_0, readAt_whole (S := S64x128) _ _ zeroOffsets2 inb_S64x128_S64x128_0_0, readAt_whole (S := S1x1) _ _ zeroOffsets2 inb_S1x1_S1x1_0_0]

set_option maxHeartbeats 2000000 in
/-- THE LAST POINT. The clearing branch is not taken, the scoring branch is. As at a middle point, and besides, with the
    classifier's vector and bias at read contents and the second output at anything, the second output is left at the
    group scores of the accumulator just stored (read back through the whole-buffer rectangle). -/
theorem sound_kernel2_C (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S2000x1 .i32) (harg10 : arg10.IsWhole) (arg11 : Memref sig .tc .vmem S2000x1 .f32) (harg11 : arg11.IsWhole) (arg12 : Memref sig .tc .vmem S64x1 .f32) (harg12 : arg12.IsWhole) (arg13 : Memref sig .tc .vmem S64x128 .f32) (harg13 : arg13.IsWhole)
    (hc0 : ¬cond2_0 i) (hc1 : cond2_1 i)
    (x0 : Vec F S2000x128 .f32) (x1 x2 x3 x4 x5 x6 x7 : Vec F S1x128 .f32) (x8 : Vec F S1x1 .f32) (x9 : Vec F S2000x1 .i32) (xs : Vec F S64x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ owns (c : Thread nD τ) arg13 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (k2_pay5 x0 x1 x4 x2 x5 x3 x6)
            ∗ owns (c : Thread nD τ) arg12 fullShare (k2_pay2 (k2_pay1 (k2_pay4 x0 x1 x4 x2 x5 x3) (k2_pay5 x0 x1 x4 x2 x5 x3 x6) x9 xs) x7 x8)
            ∗ owns (c : Thread nD τ) arg13 fullShare (k2_pay1 (k2_pay4 x0 x1 x4 x2 x5 x3) (k2_pay5 x0 x1 x4 x2 x5 x3 x6) x9 xs)) -∗ K ⟨⟩))
      ⊢ wp frame (wpE (defs₀ (F := F)) Variants.none c none) E (cc2__final_kernel i arg1 harg1 arg2 harg2 arg3 harg3 arg4 harg4 arg5 harg5 arg6 harg6 arg7 harg7 arg8 harg8 arg9 harg9 arg10 harg10 arg11 harg11 arg12 harg12 arg13 harg13) K := by
  simp only [cc2__final_kernel_eq_skeleton]; unfold cc2__final_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, Hk⟩
  subst hf1; subst hf2; subst hf3; subst hf4; subst hf5; subst hf6; subst hf7; subst hf8; subst hf9; subst hf10; subst hf13
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (read_store_whole _ _ zeroOffsets2 _ _).trans ?_
    dsimp only
    simp only [readAt_whole (S := S2000x128) _ _ zeroOffsets2 inb_S2000x128_S2000x128_0_0, readAt_whole (S := S1x128) _ _ zeroOffsets2 inb_S1x128_S1x128_0_0, readAt_whole (S := S2000x1) _ _ zeroOffsets2 inb_S2000x1_S2000x1_0_0, readAt_whole (S := S64x128) _ _ zeroOffsets2 inb_S64x128_S64x128_0_0, readAt_whole (S := S1x1) _ _ zeroOffsets2 inb_S1x1_S1x1_0_0]
  isplitl [H12]
  · iexists _; isplitr
    swap; · iexact H12
    ipureintro
    refine (read_store_whole _ _ zeroOffsets2 _ _).trans ?_
    dsimp only
    sl_unfold_words
    simp only [readAt_whole (S := S2000x128) _ _ zeroOffsets2 inb_S2000x128_S2000x128_0_0, readAt_whole (S := S1x128) _ _ zeroOffsets2 inb_S1x128_S1x128_0_0, readAt_whole (S := S2000x1) _ _ zeroOffsets2 inb_S2000x1_S2000x1_0_0, readAt_whole (S := S64x128) _ _ zeroOffsets2 inb_S64x128_S64x128_0_0, readAt_whole (S := S1x1) _ _ zeroOffsets2 inb_S1x1_S1x1_0_0, View.readCov_unit_zero (S := S64x128) _ zeroOffsets2 inb_S64x128_S64x128_0_0]
  · iexists _; isplitr
    swap; · iexact H13
    ipureintro
    refine (read_store_whole _ _ zeroOffsets2 _ _).trans ?_
    dsimp only
    simp only [readAt_whole (S := S2000x128) _ _ zeroOffsets2 inb_S2000x128_S2000x128_0_0, readAt_whole (S := S1x128) _ _ zeroOffsets2 inb_S1x128_S1x128_0_0, readAt_whole (S := S2000x1) _ _ zeroOffsets2 inb_S2000x1_S2000x1_0_0, readAt_whole (S := S64x128) _ _ zeroOffsets2 inb_S64x128_S64x128_0_0, readAt_whole (S := S1x1) _ _ zeroOffsets2 inb_S1x1_S1x1_0_0]

end Cert.Kernel.Hand

end
-- ==== Proof.K.Reg2.lean ====
/-
  The body obligation of the pooling region. At every grid point the body, run on the windows' current staging buffers
  (each input's at its block, the outputs' at anything) and on the region's invariant before the point, leaves every
  input's buffer at its block, the first output's at the attention weights of the block's rows, the second output's
  at the group scores at the last point and as it found it at every other point (there the window is idle and not
  written back), and the invariant after the point: the accumulator's buffer at the recursion's value at the point.
  Three cases by the point — the first (the accumulator is cleared, then updated), a middle one (updated), the last
  (updated, then contracted into the group scores) — each by the body's triple in that case. Before the first point
  the invariant is the class invariant, and after the last it gives the class invariant back.
-/
import proofs.«409529_j10797547782216_3_alg».proof.Proof.Gen.Kernel.Launch
import proofs.«409529_j10797547782216_3_alg».proof.Proof.Gen.Kernel.Skeleton
import proofs.«409529_j10797547782216_3_alg».proof.Proof.Gen.Kernel.Points
import proofs.«409529_j10797547782216_3_alg».proof.Proof.K.Reg2Defs
import proofs.«409529_j10797547782216_3_alg».proof.Proof.K.Reg2Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## What the input windows' buffers hold at a point -/

theorem after2_0 (c : Dev nD) (t : Fin cfg2.N) : (dat2 V c).after 0 t = iblk2 V c 0 t := by dsimp only [dat2]
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d

theorem after2_1 (c : Dev nD) (t : Fin cfg2.N) : (dat2 V c).after 1 t = iblk2 V c 1 t := by dsimp only [dat2]
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

theorem after2_2 (c : Dev nD) (t : Fin cfg2.N) : (dat2 V c).after 2 t = iblk2 V c 2 t := by dsimp only [dat2]
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d

theorem after2_3 (c : Dev nD) (t : Fin cfg2.N) : (dat2 V c).after 3 t = iblk2 V c 3 t := by dsimp only [dat2]
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d

theorem after2_4 (c : Dev nD) (t : Fin cfg2.N) : (dat2 V c).after 4 t = iblk2 V c 4 t := by dsimp only [dat2]
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d

theorem after2_5 (c : Dev nD) (t : Fin cfg2.N) : (dat2 V c).after 5 t = iblk2 V c 5 t := by dsimp only [dat2]
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_5 (c : Dev nD) (t : Fin cfg2.N) (d) : (dat2 V c).before 5 t d = iblk2 V c 5 t :=
  before2_5_of V (dat2 V c) (A_eq2 V c 5) (after2_5 V c) t d

theorem after2_6 (c : Dev nD) (t : Fin cfg2.N) : (dat2 V c).after 6 t = iblk2 V c 6 t := by dsimp only [dat2]
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_6 (c : Dev nD) (t : Fin cfg2.N) (d) : (dat2 V c).before 6 t d = iblk2 V c 6 t :=
  before2_6_of V (dat2 V c) (A_eq2 V c 6) (after2_6 V c) t d

theorem after2_7 (c : Dev nD) (t : Fin cfg2.N) : (dat2 V c).after 7 t = iblk2 V c 7 t := by dsimp only [dat2]
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_7 (c : Dev nD) (t : Fin cfg2.N) (d) : (dat2 V c).before 7 t d = iblk2 V c 7 t :=
  before2_7_of V (dat2 V c) (A_eq2 V c 7) (after2_7 V c) t d

theorem after2_8 (c : Dev nD) (t : Fin cfg2.N) : (dat2 V c).after 8 t = iblk2 V c 8 t := by dsimp only [dat2]
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_8 (c : Dev nD) (t : Fin cfg2.N) (d) : (dat2 V c).before 8 t d = iblk2 V c 8 t :=
  before2_8_of V (dat2 V c) (A_eq2 V c 8) (after2_8 V c) t d

theorem after2_9 (c : Dev nD) (t : Fin cfg2.N) : (dat2 V c).after 9 t = iblk2 V c 9 t := by dsimp only [dat2]
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_9 (c : Dev nD) (t : Fin cfg2.N) (d) : (dat2 V c).before 9 t d = iblk2 V c 9 t :=
  before2_9_of V (dat2 V c) (A_eq2 V c 9) (after2_9 V c) t d

/-! ## Where the second output is idle -/

/-- Where the scoring branch is not taken the second output's window is idle, -/
theorem idleAt2_11 : ∀ t : Fin cfg2.N, ¬cond2_1 (grid2.coords t) → cfg2.idle 11 (grid2.coords t) = true := by decide +kernel
/-- and its block is not written back there; -/
theorem noFlush2_11 : ∀ t : Fin cfg2.N, ¬cond2_1 (grid2.coords t) → (cfg2.win 11).flush t = false := by decide +kernel
/-- where it is taken the window is live. -/
theorem liveAt2_11 : ∀ t : Fin cfg2.N, cond2_1 (grid2.coords t) → cfg2.idle 11 (grid2.coords t) = false := by decide +kernel

/-! ## The accumulator's recursion read at a point -/

theorem accP_first (c : Dev nD) (t : Fin cfg2.N) (h0 : t.val = 0) :
    accP V c t.val t.isLt = k2_pay1 (hP V c t) (aP V c t) (segs2 V c t) (k2_pay3 (F := F)) := by
  obtain ⟨n, hn⟩ := t
  cases n with
  | zero => rfl
  | succ n => exact absurd h0 (Nat.succ_ne_zero n)

theorem accP_later (c : Dev nD) (t : Fin cfg2.N) (h0 : t.val ≠ 0) :
    accP V c t.val t.isLt = k2_pay1 (hP V c t) (aP V c t) (segs2 V c t) (accP V c (t.val - 1) (Nat.lt_of_le_of_lt (Nat.sub_le _ _) t.isLt)) := by
  obtain ⟨n, hn⟩ := t
  cases n with
  | zero => exact absurd rfl h0
  | succ n => rfl

/-! ## The class invariant with the accumulator's buffer named -/

/-- The class invariant is the other regions' staging buffers, the accumulator's buffer at some contents, and the
    generator register at some state: the scoped rest listed, its last entry the accumulator's buffer. One direction, -/
theorem PhiA2_open (c : Dev nD) :
    (Pipeline.ΦA spec2 c : sProp 𝕄) ⊢ iprop(othersHeld2 (F := F) c ∗ (∃ d, owns (c : Thread nD τ) (Memref.whole cc2_scratch0) fullShare d) ∗ ∃ r, prngReg c r) := by
  unfold Pipeline.ΦA othersHeld2; rw [scopedRest2_eq]; simp only [owns_whole]
  iintro ⟨⟨H1, H2, H3, H4, H5, H6, H7, H8, H9, H10, H11, H12, H13, H14, H15, H16⟩, Hg⟩
  isplitl [H1 H2 H3 H4 H5 H6 H7 H8 H9 H10 H11 H12 H13 H14 H15]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [H16]; · iexact H16
  iexact Hg

/-- the other, -/
theorem PhiA2_close (c : Dev nD) :
    iprop(othersHeld2 (F := F) c ∗ (∃ d, owns (c : Thread nD τ) (Memref.whole cc2_scratch0) fullShare d) ∗ ∃ r, prngReg c r) ⊢ (Pipeline.ΦA spec2 c : sProp 𝕄) := by
  unfold Pipeline.ΦA othersHeld2; rw [scopedRest2_eq]; simp only [owns_whole]
  iintro ⟨⟨H1, H2, H3, H4, H5, H6, H7, H8, H9, H10, H11, H12, H13, H14, H15⟩, H16, Hg⟩
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iexact Hg

/-- and so the two are equal. -/
theorem PhiA2_eq (c : Dev nD) :
    (Pipeline.ΦA spec2 c : sProp 𝕄) = iprop(othersHeld2 (F := F) c ∗ (∃ d, owns (c : Thread nD τ) (Memref.whole cc2_scratch0) fullShare d) ∗ ∃ r, prngReg c r) :=
  BI.equiv_iff.mp ⟨PhiA2_open c, PhiA2_close c⟩

/-! ## The body obligation, at a generic point -/

/-- What the body is called with at point `t`: the invariant, what is owed, and every window's current staging buffer
    at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d)))

/-- and what it returns: the second output's buffer as found where the window is idle, at the group scores where not. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ (dat2 V c).leavesExact 11 t)

set_option maxHeartbeats 4000000 in
/-- The body at any point. The inputs' buffers hold their blocks; the point is the first, a middle one or the last,
    which decides the two branches; the invariant hands the body the accumulator's buffer (at anything at the first
    point, at what the point before left otherwise) and takes it back at this point's accumulator, which the
    recursion `accP` unfolds to; where the scoring branch is not taken the second output's buffer passes through
    untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).owesAt () t.succ = (dat2 V c).owesAt () t.castSucc from rfl]
  rw [Phi2_succ, PhiS2_succ, Phi2_castSucc]
  rw [after2_0, after2_1, after2_2, after2_3, after2_4, after2_5, after2_6, after2_7, after2_8, after2_9, after2_10]
  have hN : t.val < 25 := lt_of_lt_of_eq t.isLt (show cfg2.N = 25 from N_2)
  by_cases h0 : t.val = 0
  · have hc0 : cond2_0 (grid2.coords t) := (hcond2_0 t).mpr (by omega)
    have hc1 : ¬cond2_1 (grid2.coords t) := fun h => by have := (hcond2_1 t).mp h; omega
    rw [Dat.leavesExact_idle (dat2 V c) 11 t (idleAt2_11 t hc1) (noFlush2_11 t hc1)]
    rw [PhiS2_zero V c _ _ h0, PhiA2_eq, accP_first V c t h0]
    unfold aP hP
    iintro ⟨⟨Hoth, ⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel2_A c Set.univ _ _ _ _ _ _ _ _ _ _ _ _ _ _ _ _ _ _ _ _ _ _ _ _ _ _ _ hc0 hc1 (rows2 V c t) (bias2 V c t) (scale2 V c t) (shift2 V c t) (mean2 V c t) (var2 V c t) (attw2 V c t) (segs2 V c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexists _; iexact H10
    isplitl [HS]; · iexists _; iexact HS
    iintro ⟨H0, H1, H2, H3, H4, H5, H6, H9, H10, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · by_cases h1 : t.val = 24
    · have hc0 : ¬cond2_0 (grid2.coords t) := fun h => by have := (hcond2_0 t).mp h; omega
      have hc1 : cond2_1 (grid2.coords t) := (hcond2_1 t).mpr (by omega)
      rw [show (dat2 V c).leavesExact 11 t = owns (c : Thread nD τ) (st2_11 t) fullShare ((dat2 V c).after 11 t) from by
        unfold Dat.leavesExact; rw [liveAt2_11 t hc1], after2_11]
      unfold logitsP
      rw [PhiS2_pos V c _ _ h0, accP_later V c t h0]
      unfold aP hP
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (sound_kernel2_C c Set.univ _ _ _ _ _ _ _ _ _ _ _ _ _ _ _ _ _ _ _ _ _ _ _ _ _ _ _ hc0 hc1 (rows2 V c t) (bias2 V c t) (scale2 V c t) (shift2 V c t) (mean2 V c t) (var2 V c t) (attw2 V c t) (clsw2 V c t) (clsb2 V c t) (segs2 V c t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS]; · iexact HS
      iintro ⟨H0, H1, H2, H3, H4, H5, H6, H7, H8, H9, H10, H11, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · have hc0 : ¬cond2_0 (grid2.coords t) := fun h => by have := (hcond2_0 t).mp h; omega
      have hc1 : ¬cond2_1 (grid2.coords t) := fun h => by have := (hcond2_1 t).mp h; omega
      rw [Dat.leavesExact_idle (dat2 V c) 11 t (idleAt2_11 t hc1) (noFlush2_11 t hc1)]
      rw [PhiS2_pos V c _ _ h0, accP_later V c t h0]
      unfold aP hP
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (sound_kernel2_B c Set.univ _ _ _ _ _ _ _ _ _ _ _ _ _ _ _ _ _ _ _ _ _ _ _ _ _ _ _ hc0 hc1 (rows2 V c t) (bias2 V c t) (scale2 V c t) (shift2 V c t) (mean2 V c t) (var2 V c t) (attw2 V c t) (segs2 V c t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H9]; · iexact H9
      isplitl [H10]; · iexists _; iexact H10
      isplitl [HS]; · iexact HS
      iintro ⟨H0, H1, H2, H3, H4, H5, H6, H9, H10, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 (F := F) V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega), PhiA2_eq]
  iintro ⟨Hoth, HS, Hg⟩
  isplitl [Hoth]; · iexact Hoth
  isplitl [HS]; · iexists _; iexact HS
  iexact Hg

end Cert.Kernel.Hand

end
-- ==== Proof.K.Whole.lean ====
/-
  The kernel's program from launch to return. Its @main is ten items: three kernel regions among stretches of host
  operations. Between two items the TensorCore's unscoped buffers hold known contents: the launch memory, then what each
  host stretch computes from them, then — after a region — the same contents with the region's output arrays at what its
  write-backs leave. This module states each region as a segment entered from and left at those contents, and concludes that every
  execution ends with the arguments as launched.
-/
import proofs.«409529_j10797547782216_3_alg».proof.Proof.Gen.Kernel.Regions
import proofs.«409529_j10797547782216_3_alg».proof.Proof.K.Bounds
import proofs.«409529_j10797547782216_3_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Each region's arrays at its exit -/

/-- An array of region 0 holds, at its exit, what the exit contents say: the two inputs as entered, the output as left. -/
theorem hF0 (c : Dev nD) (w : Fin cfg0.W) : (pdats m 0 c).arrAt w cfg0.N = Vout0 m c (Pipeline.arrRef spec0 w) := by
  match w with
  | ⟨0, _⟩ =>
    exact (((dat0 (Vin0 m) c).arrAt_in 0 rfl _).trans (A_eq0 (Vin0 m) c 0)).trans (Function.update_of_ne (StableHlo.devRef_ne_of_ne (by decide) : (Proc.devRef .tc main_arg0 : DevRef τ sig) ≠ Proc.devRef .tc main_v5) _ _).symm
  | ⟨1, _⟩ =>
    exact (((dat0 (Vin0 m) c).arrAt_in 1 rfl _).trans (A_eq0 (Vin0 m) c 1)).trans (Function.update_of_ne (StableHlo.devRef_ne_of_ne (by decide) : (Proc.devRef .tc main_arg3 : DevRef τ sig) ≠ Proc.devRef .tc main_v5) _ _).symm
  | ⟨2, _⟩ =>
    show left0 m c = Function.update (Win0 m c) (Proc.devRef .tc main_v5) (left0 m c) (Proc.devRef .tc main_v5)
    rw [Function.update_self]
  | ⟨_ + 3, h⟩ => exact absurd h (Nat.not_lt.2 (Nat.le_add_left _ _))
/-- Every other buffer is as entered. -/
theorem hrest0 (c : Dev nD) : ∀ b, b ∉ Finset.univ.image (Pipeline.arrRef spec0) → Vout0 m c b = Vin0 m c b := fun b hb =>
  Function.update_of_ne (StableHlo.devRef_ne_of_ne (fun e => hb (Finset.mem_image.mpr ⟨2, Finset.mem_univ _, e.symm⟩))) _ _

set_option maxHeartbeats 4000000 in
/-- Region 1: its seven inputs as entered, its output as left. -/
theorem hF1 (c : Dev nD) (w : Fin cfg1.W) : (pdats m 1 c).arrAt w cfg1.N = Vout1 m c (Pipeline.arrRef spec1 w) := by
  match w with
  | ⟨0, _⟩ =>
    exact (((dat1 (Vin1 m) c).arrAt_in 0 rfl _).trans (A_eq1 (Vin1 m) c 0)).trans (Function.update_of_ne (StableHlo.devRef_ne_of_ne (by decide) : (Proc.devRef .tc main_v44 : DevRef τ sig) ≠ Proc.devRef .tc main_v50) _ _).symm
  | ⟨1, _⟩ =>
    exact (((dat1 (Vin1 m) c).arrAt_in 1 rfl _).trans (A_eq1 (Vin1 m) c 1)).trans (Function.update_of_ne (StableHlo.devRef_ne_of_ne (by decide) : (Proc.devRef .tc main_v45 : DevRef τ sig) ≠ Proc.devRef .tc main_v50) _ _).symm
  | ⟨2, _⟩ =>
    exact (((dat1 (Vin1 m) c).arrAt_in 2 rfl _).trans (A_eq1 (Vin1 m) c 2)).trans (Function.update_of_ne (StableHlo.devRef_ne_of_ne (by decide) : (Proc.devRef .tc main_v46 : DevRef τ sig) ≠ Proc.devRef .tc main_v50) _ _).symm
  | ⟨3, _⟩ =>
    exact (((dat1 (Vin1 m) c).arrAt_in 3 rfl _).trans (A_eq1 (Vin1 m) c 3)).trans (Function.update_of_ne (StableHlo.devRef_ne_of_ne (by decide) : (Proc.devRef .tc main_v47 : DevRef τ sig) ≠ Proc.devRef .tc main_v50) _ _).symm
  | ⟨4, _⟩ =>
    exact (((dat1 (Vin1 m) c).arrAt_in 4 rfl _).trans (A_eq1 (Vin1 m) c 4)).trans (Function.update_of_ne (StableHlo.devRef_ne_of_ne (by decide) : (Proc.devRef .tc main_v48 : DevRef τ sig) ≠ Proc.devRef .tc main_v50) _ _).symm
  | ⟨5, _⟩ =>
    exact (((dat1 (Vin1 m) c).arrAt_in 5 rfl _).trans (A_eq1 (Vin1 m) c 5)).trans (Function.update_of_ne (StableHlo.devRef_ne_of_ne (by decide) : (Proc.devRef .tc main_v49 : DevRef τ sig) ≠ Proc.devRef .tc main_v50) _ _).symm
  | ⟨6, _⟩ =>
    exact (((dat1 (Vin1 m) c).arrAt_in 6 rfl _).trans (A_eq1 (Vin1 m) c 6)).trans (Function.update_of_ne (StableHlo.devRef_ne_of_ne (by decide) : (Proc.devRef .tc main_arg9 : DevRef τ sig) ≠ Proc.devRef .tc main_v50) _ _).symm
  | ⟨7, _⟩ =>
    show left1 m c = Function.update (Win1 m c) (Proc.devRef .tc main_v50) (left1 m c) (Proc.devRef .tc main_v50)
    rw [Function.update_self]
  | ⟨_ + 8, h⟩ => exact absurd h (Nat.not_lt.2 (Nat.le_add_left _ _))
theorem hrest1 (c : Dev nD) : ∀ b, b ∉ Finset.univ.image (Pipeline.arrRef spec1) → Vout1 m c b = Vin1 m c b := fun b hb =>
  Function.update_of_ne (StableHlo.devRef_ne_of_ne (fun e => hb (Finset.mem_image.mpr ⟨7, Finset.mem_univ _, e.symm⟩))) _ _

set_option maxHeartbeats 8000000 in
/-- Region 2: its ten inputs as entered, its two outputs as left. -/
theorem hF2 (c : Dev nD) (w : Fin cfg2.W) : (pdats m 2 c).arrAt w cfg2.N = Vout2 m c (Pipeline.arrRef spec2 w) := by
  match w with
  | ⟨0, _⟩ =>
    exact (((dat2 (Vin2 m) c).arrAt_in 0 rfl _).trans (A_eq2 (Vin2 m) c 0)).trans ((Function.update_of_ne (StableHlo.devRef_ne_of_ne (by decide) : (Proc.devRef .tc main_v89 : DevRef τ sig) ≠ Proc.devRef .tc main_v97_1) _ _).trans (Function.update_of_ne (StableHlo.devRef_ne_of_ne (by decide) : (Proc.devRef .tc main_v89 : DevRef τ sig) ≠ Proc.devRef .tc main_v97_0) _ _)).symm
  | ⟨1, _⟩ =>
    exact (((dat2 (Vin2 m) c).arrAt_in 1 rfl _).trans (A_eq2 (Vin2 m) c 1)).trans ((Function.update_of_ne (StableHlo.devRef_ne_of_ne (by decide) : (Proc.devRef .tc main_v90 : DevRef τ sig) ≠ Proc.devRef .tc main_v97_1) _ _).trans (Function.update_of_ne (StableHlo.devRef_ne_of_ne (by decide) : (Proc.devRef .tc main_v90 : DevRef τ sig) ≠ Proc.devRef .tc main_v97_0) _ _)).symm
  | ⟨2, _⟩ =>
    exact (((dat2 (Vin2 m) c).arrAt_in 2 rfl _).trans (A_eq2 (Vin2 m) c 2)).trans ((Function.update_of_ne (StableHlo.devRef_ne_of_ne (by decide) : (Proc.devRef .tc main_v91 : DevRef τ sig) ≠ Proc.devRef .tc main_v97_1) _ _).trans (Function.update_of_ne (StableHlo.devRef_ne_of_ne (by decide) : (Proc.devRef .tc main_v91 : DevRef τ sig) ≠ Proc.devRef .tc main_v97_0) _ _)).symm
  | ⟨3, _⟩ =>
    exact (((dat2 (Vin2 m) c).arrAt_in 3 rfl _).trans (A_eq2 (Vin2 m) c 3)).trans ((Function.update_of_ne (StableHlo.devRef_ne_of_ne (by decide) : (Proc.devRef .tc main_v92 : DevRef τ sig) ≠ Proc.devRef .tc main_v97_1) _ _).trans (Function.update_of_ne (StableHlo.devRef_ne_of_ne (by decide) : (Proc.devRef .tc main_v92 : DevRef τ sig) ≠ Proc.devRef .tc main_v97_0) _ _)).symm
  | ⟨4, _⟩ =>
    exact (((dat2 (Vin2 m) c).arrAt_in 4 rfl _).trans (A_eq2 (Vin2 m) c 4)).trans ((Function.update_of_ne (StableHlo.devRef_ne_of_ne (by decide) : (Proc.devRef .tc main_v93 : DevRef τ sig) ≠ Proc.devRef .tc main_v97_1) _ _).trans (Function.update_of_ne (StableHlo.devRef_ne_of_ne (by decide) : (Proc.devRef .tc main_v93 : DevRef τ sig) ≠ Proc.devRef .tc main_v97_0) _ _)).symm
  | ⟨5, _⟩ =>
    exact (((dat2 (Vin2 m) c).arrAt_in 5 rfl _).trans (A_eq2 (Vin2 m) c 5)).trans ((Function.update_of_ne (StableHlo.devRef_ne_of_ne (by decide) : (Proc.devRef .tc main_v94 : DevRef τ sig) ≠ Proc.devRef .tc main_v97_1) _ _).trans (Function.update_of_ne (StableHlo.devRef_ne_of_ne (by decide) : (Proc.devRef .tc main_v94 : DevRef τ sig) ≠ Proc.devRef .tc main_v97_0) _ _)).symm
  | ⟨6, _⟩ =>
    exact (((dat2 (Vin2 m) c).arrAt_in 6 rfl _).trans (A_eq2 (Vin2 m) c 6)).trans ((Function.update_of_ne (StableHlo.devRef_ne_of_ne (by decide) : (Proc.devRef .tc main_v95 : DevRef τ sig) ≠ Proc.devRef .tc main_v97_1) _ _).trans (Function.update_of_ne (StableHlo.devRef_ne_of_ne (by decide) : (Proc.devRef .tc main_v95 : DevRef τ sig) ≠ Proc.devRef .tc main_v97_0) _ _)).symm
  | ⟨7, _⟩ =>
    exact (((dat2 (Vin2 m) c).arrAt_in 7 rfl _).trans (A_eq2 (Vin2 m) c 7)).trans ((Function.update_of_ne (StableHlo.devRef_ne_of_ne (by decide) : (Proc.devRef .tc main_arg16 : DevRef τ sig) ≠ Proc.devRef .tc main_v97_1) _ _).trans (Function.update_of_ne (StableHlo.devRef_ne_of_ne (by decide) : (Proc.devRef .tc main_arg16 : DevRef τ sig) ≠ Proc.devRef .tc main_v97_0) _ _)).symm
  | ⟨8, _⟩ =>
    exact (((dat2 (Vin2 m) c).arrAt_in 8 rfl _).trans (A_eq2 (Vin2 m) c 8)).trans ((Function.update_of_ne (StableHlo.devRef_ne_of_ne (by decide) : (Proc.devRef .tc main_v96 : DevRef τ sig) ≠ Proc.devRef .tc main_v97_1) _ _).trans (Function.update_of_ne (StableHlo.devRef_ne_of_ne (by decide) : (Proc.devRef .tc main_v96 : DevRef τ sig) ≠ Proc.devRef .tc main_v97_0) _ _)).symm
  | ⟨9, _⟩ =>
    exact (((dat2 (Vin2 m) c).arrAt_in 9 rfl _).trans (A_eq2 (Vin2 m) c 9)).trans ((Function.update_of_ne (StableHlo.devRef_ne_of_ne (by decide) : (Proc.devRef .tc main_v4 : DevRef τ sig) ≠ Proc.devRef .tc main_v97_1) _ _).trans (Function.update_of_ne (StableHlo.devRef_ne_of_ne (by decide) : (Proc.devRef .tc main_v4 : DevRef τ sig) ≠ Proc.devRef .tc main_v97_0) _ _)).symm
  | ⟨10, _⟩ =>
    show left2a m c = Function.update (Function.update (Win2 m c) (Proc.devRef .tc main_v97_0) (left2a m c)) (Proc.devRef .tc main_v97_1) (left2b m c) (Proc.devRef .tc main_v97_0)
    rw [Function.update_of_ne (StableHlo.devRef_ne_of_ne (by decide) : (Proc.devRef .tc main_v97_0 : DevRef τ sig) ≠ Proc.devRef .tc main_v97_1), Function.update_self]
  | ⟨11, _⟩ =>
    show left2b m c = Function.update (Function.update (Win2 m c) (Proc.devRef .tc main_v97_0) (left2a m c)) (Proc.devRef .tc main_v97_1) (left2b m c) (Proc.devRef .tc main_v97_1)
    rw [Function.update_self]
  | ⟨_ + 12, h⟩ => exact absurd h (Nat.not_lt.2 (Nat.le_add_left _ _))
theorem hrest2 (c : Dev nD) : ∀ b, b ∉ Finset.univ.image (Pipeline.arrRef spec2) → Vout2 m c b = Vin2 m c b := fun b hb =>
  (Function.update_of_ne (StableHlo.devRef_ne_of_ne (fun e => hb (Finset.mem_image.mpr ⟨11, Finset.mem_univ _, e.symm⟩))) _ _).trans
    (Function.update_of_ne (StableHlo.devRef_ne_of_ne (fun e => hb (Finset.mem_image.mpr ⟨10, Finset.mem_univ _, e.symm⟩))) _ _)

/-! ## The regions as segments

Each region is entered from every unscoped buffer at its entry contents and left at its exit contents: its arrays are taken
out of the unscoped buffers and put back at their final contents; the generator register passes through the region's
invariant; nothing is owed; no kernel has a semaphore of its own. -/

set_option backward.isDefEq.respectTransparency.types false in
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Win0 m c) ∗ R c)
  post c := iprop(StableHlo.held (c : Thread nD τ) (Pipeline.ucRefs τ sig) (Wout0 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Win1 m c) ∗ R c)
  post c := iprop(StableHlo.held (c : Thread nD τ) (Pipeline.ucRefs τ sig) (Wout1 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ L lv 2 fun _ _ => rfl
  pre c := iprop(StableHlo.held (c : Thread nD τ) (Pipeline.ucRefs τ sig) (Win2 m c) ∗ R c)
  post c := iprop(StableHlo.held (c : Thread nD τ) (Pipeline.ucRefs τ sig) (Wout2 m c) ∗ R c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = (dat2 (Vin2 m) c).Φ (Fin.last cfg2.N) from rfl]
    have hgive := hout2 (Vin2 m) c
    unfold Pipeline.ΦA at hgive
    iintro H
    ihave H2 := hgive $$ H
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (Vout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Frame.lean ====
/-
  The frame of the kernel's program: from any memory with zero counters every weakly fair execution of @main terminates,
  nothing faulting, and ends with the eighteen argument arrays as launched. The three kernel regions are the segments of
  the module before this one; the host stretches between them, the chaining of the boundary contents and the reading of
  the arguments off the last contents are the program's generated conditional frame, which asks only for those segments.
-/
import proofs.«409529_j10797547782216_3_alg».proof.Proof.Gen.Kernel.Regions
import proofs.«409529_j10797547782216_3_alg».proof.Proof.K.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Beside the buffers through every item rides the same rest. -/
abbrev restAt : Fin 4 → Dev nD → sProp 𝕄 := fun _ c => R c

-- the conditional frame's implicit arguments are found by unifying its conclusion with this one
set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond (F := F) m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := restAt)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m) (fun c => .rfl) (fun c => by rw [V2_eq]; exact .rfl)
    (reg1 m) (fun c => by rw [V5_eq]; exact .rfl) (fun c => by rw [V6_eq]; exact .rfl)
    (reg2 m) (fun c => by rw [V9_eq]; exact .rfl) (fun c => by rw [V10_eq]; exact .rfl)

end Cert.Kernel.Hand

end
-- ==== Proof.KI.Reg0.lean ====
/- Kernel region 0: a grid of 25 points; at point t the body reads rows [2000 t, 2000 t + 2000) of the
   f32[50000,128] left operand and the whole f32[128,128] right operand, truncates both to bf16, multiplies them
   from a zero accumulator, and writes the f32[2000,128] product to rows [2000 t, 2000 t + 2000) of the result.
   This module is the frame half: each window's block at a point, what the body leaves in the output window's
   buffer as a closed function of the two input blocks, the body's triple, and the pipeline's body obligation. -/
import proofs.«409529_j10797547782216_3_alg».proof.Proof.Gen.KernelIdeal.Launch
import proofs.«409529_j10797547782216_3_alg».proof.Proof.Gen.KernelIdeal.Skeleton
import proofs.«409529_j10797547782216_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- window w's block at point t, read off its array as the region finds it -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the window's block at every point, for any proof data whose array is
    the entry contents and whose body leaves the block in place: the window is fetched at every point, and a
    fetch puts the block in the buffer. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the window's block at every point, under the same two hypotheses:
    its block index never moves, so a point that does not fetch it finds the block the previous point left,
    which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- the whole f32[2000,128] buffer as a rectangle: unit strides, offset zero, the buffer's own extents -/
abbrev rectRows : Rect S2000x128 := Rect.unit (s := S2000x128) ![0, 0] S2000x128.size inb_S2000x128_S2000x128_0_0
/-- the whole f32[128,128] buffer as a rectangle: unit strides, offset zero, the buffer's own extents -/
abbrev rectRhs : Rect S128x128 := Rect.unit (s := S128x128) ![0, 0] S128x128.size inb_S128x128_S128x128_0_0

theorem zero_off2 : (![0, 0] : Fin 2 → Nat) = fun _ => 0 := funext fun a => by fin_cases a <;> rfl

/-! ## What the body leaves in the output window's buffer -/

/-- what the output window's staging buffer holds after the body, from the two input blocks: the View.canon of the one store over Gen.k0_pay1 -/
def out0_2 (x0 : Vec F S2000x128 .f32) (x1 : Vec F S128x128 .f32) : Vec F S2000x128 .f32 :=
  View.canon [⟨rectRows, k0_pay1 (View.ld x0 rectRows) (View.ld x1 rectRhs)⟩]

/-- The one store's rectangle is the whole buffer, so it covers it. -/
theorem cover0_2 (p0 : Vec F S2000x128 .f32) (y : S2000x128.Idx) :
    ∃ pc ∈ ([⟨rectRows, p0⟩] : List (View.Piece (Elt F) S2000x128 .f32)), y ∈ pc.1.set :=
  View.cover_of_tiled [⟨rectRows, p0⟩] S2000x128.size (by rfl) y

/-- the output buffer after the body is the payload itself of the two blocks (the one store covers the buffer from offset 0: View.canon_unit_zero, View.ld_unit_zero) -/
theorem out0_2_eq (x0 : Vec F S2000x128 .f32) (x1 : Vec F S128x128 .f32) : out0_2 (F := F) x0 x1 = k0_pay1 x0 x1 := by
  unfold out0_2
  rw [View.canon_unit_zero (S := S2000x128) zero_off2 inb_S2000x128_S2000x128_0_0,
    View.ld_unit_zero (S := S2000x128) zero_off2 inb_S2000x128_S2000x128_0_0,
    View.ld_unit_zero (S := S128x128) zero_off2 inb_S128x128_S128x128_0_0]

/-! ## The body's triple -/

set_option maxHeartbeats 1000000 in
/-- The kernel body on whole staging memrefs, the two inputs' at read contents x0, x1 and the output's at anything,
    runs to the continuation holding the inputs' as they were and the output's at out0_2 of the inputs: the printed
    function is its skeleton, two whole loads, one dead load of the output buffer, one whole store of the payload. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core c: the arrays as the region finds them; after the body at point t each
    input's buffer at its block and the output's at out0_2 of the two input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t: the invariant, what is owed, and the three windows' current staging
    buffers at what the pipeline left in them, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- Kernel region 1: over a grid of 25 points, point t takes rows [2000 t, 2000 t + 2000) of a 50000×128 array,
   adds a bias row, normalizes by a mean row and a variance row (x − mean) · scale · rsqrt(variance + ε) + shift,
   clamps below at zero, rounds to bf16 and multiplies by a 128×128 matrix (rounded to bf16), accumulating in f32;
   the product is rows [2000 t, 2000 t + 2000) of the result. This module is the frame half: what each window's
   staging buffer holds before and after the body at every point, and the body's triple. -/
import proofs.«409529_j10797547782216_3_alg».proof.Proof.Gen.KernelIdeal.Launch
import proofs.«409529_j10797547782216_3_alg».proof.Proof.Gen.KernelIdeal.Skeleton
import proofs.«409529_j10797547782216_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the entry contents and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the entry contents and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is the entry contents and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is the entry contents and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev rowsRect1 : Rect S2000x128 := Rect.unit (s := S2000x128) ![0, 0] S2000x128.size inb_S2000x128_S2000x128_0_0
abbrev rowRect1 : Rect S1x128 := Rect.unit (s := S1x128) ![0, 0] S1x128.size inb_S1x128_S1x128_0_0
abbrev matRect1 : Rect S128x128 := Rect.unit (s := S128x128) ![0, 0] S128x128.size inb_S128x128_S128x128_0_0

/-! ## What the body leaves in the output window's buffer -/

/-- what the output window's staging buffer holds after the body, from the seven input blocks in window order
    (x0 … x6 = windows 0 … 6): the one store, whole, of the payload over the whole loads. The payload takes the
    loads in the order the body makes them: windows 0, 1, 4, 2, 5, 3, 6. -/
def out1_7 (x0 : Vec F S2000x128 .f32) (x1 x2 x3 x4 x5 : Vec F S1x128 .f32) (x6 : Vec F S128x128 .f32) : Vec F S2000x128 .f32 :=
  View.canon [⟨rowsRect1, k1_pay1 (View.ld x0 rowsRect1) (View.ld x1 rowRect1) (View.ld x4 rowRect1) (View.ld x2 rowRect1)
    (View.ld x5 rowRect1) (View.ld x3 rowRect1) (View.ld x6 matRect1)⟩]

/-- The one store tiles the buffer, so it covers it. -/
theorem cover1_7 (p0 : Vec F S2000x128 .f32) (y : S2000x128.Idx) :
    ∃ pc ∈ ([⟨rowsRect1, p0⟩] : List (View.Piece (Elt F) S2000x128 .f32)), y ∈ pc.1.set :=
  View.cover_of_tiled [⟨rowsRect1, p0⟩] S2000x128.size (by rfl) y

/-! ## The body's triple -/

set_option maxHeartbeats 1000000 in
/-- The kernel body on whole staging memrefs, the inputs' at read contents `x0 … x6` and the output's at anything, runs
    to the continuation holding the inputs' as they were and the output's at `out1_7` of the inputs': the printed
    function is its skeleton, seven whole loads, a load of the output that nothing reads, and one whole store. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S2000x128 .f32) (harg8 : arg8.IsWhole)
    (x0 : Vec F S2000x128 .f32) (x1 x2 x3 x4 x5 : Vec F S1x128 .f32) (x6 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__bn_relu_matmul_kernel i arg1 harg1 arg2 harg2 arg3 harg3 arg4 harg4 arg5 harg5 arg6 harg6 arg7 harg7 arg8 harg8) K := by
  simp only [cc1__bn_relu_matmul_kernel_eq_skeleton]; unfold cc1__bn_relu_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the region on core `c`: the arrays as the region finds them; after the body at point `t` each
    input's buffer at its block and the output's at `out1_7` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- the output buffer after the body is the payload itself of the blocks: a whole load reads the contents, one whole
    store leaves its payload -/
theorem out1_7_eq (x0 : Vec F S2000x128 .f32) (x1 x2 x3 x4 x5 : Vec F S1x128 .f32) (x6 : Vec F S128x128 .f32) :
    out1_7 (F := F) x0 x1 x2 x3 x4 x5 x6 = k1_pay1 x0 x1 x4 x2 x5 x3 x6 := by
  have hz : (![0, 0] : Fin 2 → Nat) = fun _ => 0 := funext fun a => by fin_cases a <;> rfl
  unfold out1_7
  rw [View.canon_unit_zero (S := S2000x128) hz inb_S2000x128_S2000x128_0_0,
    View.ld_unit_zero (S := S2000x128) hz inb_S2000x128_S2000x128_0_0,
    View.ld_unit_zero (S := S128x128) hz inb_S128x128_S128x128_0_0]
  simp only [View.ld_unit_zero (S := S1x128) hz inb_S1x128_S1x128_0_0]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Defs.lean ====
/-
  The pooling region, point by point. At grid point t the kernel reads rows [2000 t, 2000 t + 2000) of the aggregated
  features, normalises and rectifies them (h), takes the attention weight of each row as the logistic of its inner product
  with the attention vector (a), and adds to a 64 x 128 accumulator, kept in a scratch buffer across the points and cleared at
  the first one, the sum over the block's rows of h · a, each row sent to the group its segment id names (a one-hot
  product). At the last point the accumulator's rows are contracted with the classifier vector and shifted by its bias.
  This module states those values as one recursion over the grid position, and the region's invariant that carries the
  accumulator from point to point.
-/
import proofs.«409529_j10797547782216_3_alg».proof.Proof.Gen.KernelIdeal.Launch
import proofs.«409529_j10797547782216_3_alg».proof.Proof.Gen.KernelIdeal.Skeleton
import proofs.«409529_j10797547782216_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of feature rows at point `t`. -/
abbrev rows2 (c : Dev nD) (t : Fin cfg2.N) : Vec F S2000x128 .f32 := iblk2 V c 0 t
/-- The convolution's bias, the normalisation's scale, shift, mean and variance, the attention vector and the classifier
    vector: one row of 128 each, the same at every point. -/
abbrev bias2 (c : Dev nD) (t : Fin cfg2.N) : Vec F S1x128 .f32 := iblk2 V c 1 t
abbrev scale2 (c : Dev nD) (t : Fin cfg2.N) : Vec F S1x128 .f32 := iblk2 V c 2 t
abbrev shift2 (c : Dev nD) (t : Fin cfg2.N) : Vec F S1x128 .f32 := iblk2 V c 3 t
abbrev mean2 (c : Dev nD) (t : Fin cfg2.N) : Vec F S1x128 .f32 := iblk2 V c 4 t
abbrev var2 (c : Dev nD) (t : Fin cfg2.N) : Vec F S1x128 .f32 := iblk2 V c 5 t
abbrev attw2 (c : Dev nD) (t : Fin cfg2.N) : Vec F S1x128 .f32 := iblk2 V c 6 t
abbrev clsw2 (c : Dev nD) (t : Fin cfg2.N) : Vec F S1x128 .f32 := iblk2 V c 7 t
/-- The classifier's bias, one entry. -/
abbrev clsb2 (c : Dev nD) (t : Fin cfg2.N) : Vec F S1x1 .f32 := iblk2 V c 8 t
/-- The block of segment ids at point `t`, one per feature row. -/
abbrev segs2 (c : Dev nD) (t : Fin cfg2.N) : Vec F S2000x1 .i32 := iblk2 V c 9 t

/-! ## What the body computes at a point -/

/-- The rectified, normalised feature rows of the block at point `t`. -/
def hP (c : Dev nD) (t : Fin cfg2.N) : Vec F S2000x128 .f32 :=
  k2_pay4 (rows2 V c t) (bias2 V c t) (mean2 V c t) (scale2 V c t) (var2 V c t) (shift2 V c t)

/-- The attention weights of the block's rows at point `t`: what the body stores into the first output window. -/
def aP (c : Dev nD) (t : Fin cfg2.N) : Vec F S2000x1 .f32 :=
  k2_pay5 (rows2 V c t) (bias2 V c t) (mean2 V c t) (scale2 V c t) (var2 V c t) (shift2 V c t) (attw2 V c t)

/-- The accumulator after the body at position `n`: cleared before the first point's contribution is added, carried
    from the point before otherwise. -/
def accP (c : Dev nD) : (n : ℕ) → n < cfg2.N → Vec F S64x128 .f32
  | 0, h => k2_pay1 (hP V c ⟨0, h⟩) (aP V c ⟨0, h⟩) (segs2 V c ⟨0, h⟩) (k2_pay3 (F := F))
  | n + 1, h => k2_pay1 (hP V c ⟨n + 1, h⟩) (aP V c ⟨n + 1, h⟩) (segs2 V c ⟨n + 1, h⟩) (accP c n (Nat.lt_of_succ_lt h))

theorem accP_zero (c : Dev nD) (h : 0 < cfg2.N) :
    accP V c 0 h = k2_pay1 (hP V c ⟨0, h⟩) (aP V c ⟨0, h⟩) (segs2 V c ⟨0, h⟩) (k2_pay3 (F := F)) := rfl

theorem accP_succ (c : Dev nD) (n : ℕ) (h : n + 1 < cfg2.N) :
    accP V c (n + 1) h = k2_pay1 (hP V c ⟨n + 1, h⟩) (aP V c ⟨n + 1, h⟩) (segs2 V c ⟨n + 1, h⟩) (accP V c n (Nat.lt_of_succ_lt h)) := rfl

/-- The group scores the body stores into the second output window at a point that stores them (the last): the
    accumulator after that point contracted with the classifier vector, plus its bias. -/
def logitsP (c : Dev nD) (t : Fin cfg2.N) : Vec F S64x1 .f32 :=
  k2_pay2 (accP V c t.val t.isLt) (clsw2 V c t) (clsb2 V c t)

/-! ## The region's invariant -/

/-- The core's other scoped buffers — the staging buffers of the two earlier regions —, each whole at some contents. -/
def othersHeld2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg7_1), ((c : Thread nD τ).loc cc1_stg7_1) ↦{fullShare} f))

/-- The region's invariant before position `n`: before the first point every scoped buffer no window stages holds
    anything; afterwards the accumulator's buffer holds what the point before left in it. -/
def PhiS2 (c : Dev nD) : (n : ℕ) → n ≤ cfg2.N → sProp 𝕄
  | 0, _ => Pipeline.ΦA spec2 c
  | n + 1, hn => iprop(othersHeld2 (F := F) c ∗ owns (c : Thread nD τ) (Memref.whole cc2_scratch0) fullShare (accP V c n hn) ∗ ∃ r, prngReg c r)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(othersHeld2 (F := F) c ∗ owns (c : Thread nD τ) (Memref.whole cc2_scratch0) fullShare (accP V c n hn) ∗ ∃ r, prngReg c r) := rfl

theorem PhiS2_pos (c : Dev nD) (n : ℕ) (h : n ≤ cfg2.N) (hz : n ≠ 0) :
    PhiS2 V c n h = iprop(othersHeld2 (F := F) c ∗ owns (c : Thread nD τ) (Memref.whole cc2_scratch0) fullShare (accP V c (n - 1) (by omega)) ∗ ∃ r, prngReg c r) := by
  cases n with
  | zero => exact absurd rfl hz
  | succ n => rfl

/-! ## The region's proof data -/

/-- After the body at point `t`: each input window's buffer still at its block, the first output's at the attention
    weights, the second's at the group scores (consulted only where the body stores them); the invariant carries the
    accumulator; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => aP V c t
    | ⟨11, _⟩ => logitsP V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_10 (c : Dev nD) (t : Fin cfg2.N) : (dat2 V c).after 10 t = aP V c t := by dsimp only [dat2]
theorem after2_11 (c : Dev nD) (t : Fin cfg2.N) : (dat2 V c).after 11 t = logitsP V c t := by dsimp only [dat2]

theorem Phi2_castSucc (c : Dev nD) (t : Fin cfg2.N) :
    (dat2 V c).Φ t.castSucc = PhiS2 V c t.val (Nat.le_of_lt t.isLt) := by
  dsimp only [dat2]; simp only [Fin.coe_castSucc]

theorem Phi2_succ (c : Dev nD) (t : Fin cfg2.N) :
    (dat2 V c).Φ t.succ = PhiS2 V c (t.val + 1) t.isLt := rfl

end Cert.KernelIdeal.Hand

end
-- ==== Proof.KI.Bounds.lean ====
/-
  The kernel's program from launch to return. Its @main is ten items: three kernel regions among stretches of host
  operations. Between two items the TensorCore's unscoped buffers hold known contents: the launch memory, then what each
  host stretch computes from them, then — after a region — the same contents with the region's output arrays at what its
  write-backs leave. This module names those contents and gives each region its proof data at its own entry contents.
-/
import proofs.«409529_j10797547782216_3_alg».proof.Proof.Gen.KernelIdeal.Regions
import proofs.«409529_j10797547782216_3_alg».proof.Proof.KI.Reg0
import proofs.«409529_j10797547782216_3_alg».proof.Proof.KI.Reg1
import proofs.«409529_j10797547782216_3_alg».proof.Proof.KI.Reg2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- Region 0 is entered after the first host stretch. -/
abbrev Win0 (c : Dev nD) : Valuation τ sig (Elt F) := V1 m c
abbrev Vin0 (c : Dev nD) (b : Ref sig .tc) : Buf (Elt F) ((c : Thread nD τ).loc b) := Win0 m c b
/-- What region 0's write-backs leave in its output array: the product of the feature rows with the first weight matrix. -/
def left0 (c : Dev nD) : Buf (Elt F) ((c : Thread nD τ).loc main_v5) := (dat0 (Vin0 m) c).arrAt 2 cfg0.N
/-- After region 0: the entry contents with that array in place. -/
abbrev Wout0 (c : Dev nD) : Valuation τ sig (Elt F) := Function.update (Win0 m c) main_v5 (left0 m c)
abbrev Vout0 (c : Dev nD) (b : Ref sig .tc) : Buf (Elt F) ((c : Thread nD τ).loc b) := Wout0 m c b

/-- Region 1 is entered after the three host stretches that aggregate region 0's output along the edges. A definition, not an
    abbreviation: the stretches' fold stays folded wherever these contents are compared. -/
def Win1 (c : Dev nD) : Valuation τ sig (Elt F) :=
  StableHlo.after hostOps1_2 (StableHlo.after hostOps1_1 (StableHlo.after hostOps1 (Wout0 m c)))
abbrev Vin1 (c : Dev nD) (b : Ref sig .tc) : Buf (Elt F) ((c : Thread nD τ).loc b) := Win1 m c b
/-- What region 1 leaves in its output array. -/
def left1 (c : Dev nD) : Buf (Elt F) ((c : Thread nD τ).loc main_v50) := (dat1 (Vin1 m) c).arrAt 7 cfg1.N
abbrev Wout1 (c : Dev nD) : Valuation τ sig (Elt F) := Function.update (Win1 m c) main_v50 (left1 m c)
abbrev Vout1 (c : Dev nD) (b : Ref sig .tc) : Buf (Elt F) ((c : Thread nD τ).loc b) := Wout1 m c b

/-- Region 2 is entered after the three host stretches that aggregate region 1's output. -/
def Win2 (c : Dev nD) : Valuation τ sig (Elt F) :=
  StableHlo.after hostOps2_2 (StableHlo.after hostOps2_1 (StableHlo.after hostOps2 (Wout1 m c)))
abbrev Vin2 (c : Dev nD) (b : Ref sig .tc) : Buf (Elt F) ((c : Thread nD τ).loc b) := Win2 m c b
/-- What region 2 leaves in its two output arrays: the attention weights and the group scores. -/
def left2a (c : Dev nD) : Buf (Elt F) ((c : Thread nD τ).loc main_v97_0) := (dat2 (Vin2 m) c).arrAt 10 cfg2.N
def left2b (c : Dev nD) : Buf (Elt F) ((c : Thread nD τ).loc main_v97_1) := (dat2 (Vin2 m) c).arrAt 11 cfg2.N
abbrev Wout2 (c : Dev nD) : Valuation τ sig (Elt F) :=
  Function.update (Function.update (Win2 m c) main_v97_0 (left2a m c)) main_v97_1 (left2b m c)
abbrev Vout2 (c : Dev nD) (b : Ref sig .tc) : Buf (Elt F) ((c : Thread nD τ).loc b) := Wout2 m c b

/-- What the regions leave, read where the generated boundary contents read it: after item 1, 5 and 9. -/
def outs : Outs (F := F) := fun J r c => match J with
  | 2 => Wout0 m c r
  | 6 => Wout1 m c r
  | _ => Wout2 m c r

/-- The generated boundary contents, at these choices, are the ones above. -/
theorem V2_eq (c : Dev nD) : V2 m (outs m) c = Wout0 m c := by
  show Function.update (V1 m c) main_v5 (Wout0 m c main_v5) = Wout0 m c
  rw [show Wout0 m c main_v5 = left0 m c from Function.update_self ..]
theorem V5_eq (c : Dev nD) : V5 m (outs m) c = Win1 m c := by
  unfold Win1
  show StableHlo.after hostOps1_2 (StableHlo.after hostOps1_1 (StableHlo.after hostOps1 (V2 m (outs m) c))) = _
  rw [V2_eq]
theorem V6_eq (c : Dev nD) : V6 m (outs m) c = Wout1 m c := by
  show Function.update (V5 m (outs m) c) main_v50 (Wout1 m c main_v50) = Wout1 m c
  rw [V5_eq, show Wout1 m c main_v50 = left1 m c from Function.update_self ..]
theorem V9_eq (c : Dev nD) : V9 m (outs m) c = Win2 m c := by
  unfold Win2
  show StableHlo.after hostOps2_2 (StableHlo.after hostOps2_1 (StableHlo.after hostOps2 (V6 m (outs m) c))) = _
  rw [V6_eq]
theorem V10_eq (c : Dev nD) : V10 m (outs m) c = Wout2 m c := by
  show Function.update (Function.update (V9 m (outs m) c) main_v97_0 (Wout2 m c main_v97_0)) main_v97_1 (Wout2 m c main_v97_1) = Wout2 m c
  rw [V9_eq, show Wout2 m c main_v97_1 = left2b m c from Function.update_self ..,
    show Wout2 m c main_v97_0 = left2a m c from
      (Function.update_of_ne (StableHlo.devRef_ne_of_ne (by decide) : (Proc.devRef .tc main_v97_0 : DevRef τ sig) ≠ Proc.devRef .tc main_v97_1) _ _).trans (Function.update_self ..)]

/-! ## The proof data family and what rides beside the buffers -/

/-- Every region's proof data, each at its own entry contents. -/
def pdats : (p : Fin 3) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨_ + 3, h⟩ => absurd h (Nat.not_lt.2 (Nat.le_add_left _ _))

/-- No core owes another anything: no level is assigned. -/
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)

end Cert.KernelIdeal.Hand

end
-- ==== Proof.KI.Reg2Run.lean ====
/-
  The body of the pooling region as a triple, in each of its three control cases. The body clears the accumulator when
  the grid coordinate is 0, loads the feature rows and the six normalisation and attention vectors, stores the
  attention weights into the first output's buffer, loads the segment ids and the accumulator, stores the accumulator
  with the block's contribution added, and, when the grid coordinate is 24, reads the accumulator back and stores its
  contraction with the classifier vector, shifted by the bias, into the second output's buffer. Every load and store
  is through the whole-buffer rectangle, so a load reads the contents and a store leaves its payload. Each case's
  triple states the contents left explicitly as the payloads of the input contents.
-/
import proofs.«409529_j10797547782216_3_alg».proof.Proof.Gen.KernelIdeal.Launch
import proofs.«409529_j10797547782216_3_alg».proof.Proof.Gen.KernelIdeal.Skeleton
import proofs.«409529_j10797547782216_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form -/

/-- The condition of the clearing branch (the grid coordinate compared with 0), as the body computes it. -/
abbrev cond2_0 (i : grid2.Coords) : Prop := (Scalar.cmpi .ne (Scalar.extui (Scalar.cmpi .eq (BitVec.ofNat 32 (i 0).val) 0#32)) 0#32) = 1#1
/-- The condition of the branch that stores the group scores (the grid coordinate compared with 24). -/
abbrev cond2_1 (i : grid2.Coords) : Prop := k2_cond2 i = 1#1

/-- The first holds at the first point only, -/
theorem hcond2_0 : ∀ t : Fin cfg2.N, cond2_0 (grid2.coords t) ↔ t.val % 25 = 0 :=
  (by decide +kernel : ∀ t : Fin grid2.N, cond2_0 (grid2.coords t) ↔ t.val % 25 = 0)
/-- the second at the last point only. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Whole-buffer loads and stores -/

theorem zeroOffsets2 : (![0, 0] : Fin 2 → Nat) = fun _ => 0 := funext fun a => by fin_cases a <;> rfl

section Whole

variable {sg : RefSig} {κ : Kind} {sp : Space} {S : Shape} {e : EltTy}

/-- A load through the whole-buffer rectangle (unit strides, zero offsets, the buffer's extents) reads the contents. -/
theorem readAt_whole (v : View sg κ sp S e) (f : v.ty.Contents (Elt F)) {off : Fin S.rank → Nat} (hz : off = fun _ => 0)
    (inb : ∀ a, off a + S.size a ≤ S.size a) :
    v.readAt (Elt F) (Rect.unit off S.size inb).toLoadRect f = v.read (Elt F) f :=
  (View.readAt_eq_ld v f _).trans (View.ld_unit_zero hz inb _)

/-- One store through that rectangle leaves its payload, whatever the buffer held: the rectangle covers the buffer. -/
theorem read_store_whole (v : View sg κ sp S e) (f : v.ty.Contents (Elt F)) {off : Fin S.rank → Nat} (hz : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero hz inb y⟩)).trans
    (View.canon_unit_zero hz inb w)

/-- Two such stores leave the later one's payload. -/
theorem read_store_whole₂ (v : View sg κ sp S e) (f : v.ty.Contents (Elt F)) {off : Fin S.rank → Nat} (hz : off = fun _ => 0)
    (inb : ∀ a, off a + S.size a ≤ S.size a) (w w' : S.Idx → Elt F e) :
    v.read (Elt F) (v.writes (Elt F) f [(⟨Rect.unit off S.size inb, w⟩ : View.Piece (Elt F) S e), ⟨Rect.unit off S.size inb, w'⟩]) = w :=
  (View.read_writes_eq_canon v f _ (fun y => ⟨_, List.mem_cons_self, View.mem_set_unit_zero hz inb y⟩)).trans
    (View.canon_cons_unit_zero hz inb w _)

end Whole

/-! ## The body's triple, case by case -/

set_option maxHeartbeats 2000000 in
/-- THE FIRST POINT. The clearing branch is taken, the scoring branch is not. On whole memrefs, the seven inputs of the
    normalisation and the attention and the segment ids at read contents, the first output's and the accumulator's at
    anything, the body runs to the continuation holding the inputs as they were, the first output at the attention
    weights, and the accumulator at the block's contribution added to the cleared accumulator: the accumulator is
    stored whole twice, the later store over what the earlier left (read back through the whole-buffer rectangle). -/
theorem sound_kernel2_A (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S2000x1 .i32) (harg10 : arg10.IsWhole) (arg11 : Memref sig .tc .vmem S2000x1 .f32) (harg11 : arg11.IsWhole) (arg12 : Memref sig .tc .vmem S64x1 .f32) (harg12 : arg12.IsWhole) (arg13 : Memref sig .tc .vmem S64x128 .f32) (harg13 : arg13.IsWhole)
    (hc0 : cond2_0 i) (hc1 : ¬cond2_1 i)
    (x0 : Vec F S2000x128 .f32) (x1 x2 x3 x4 x5 x6 : Vec F S1x128 .f32) (x9 : Vec F S2000x1 .i32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x9
        ∗ (∃ d, owns (c : Thread nD τ) arg11 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x9
            ∗ owns (c : Thread nD τ) arg11 fullShare (k2_pay5 x0 x1 x4 x2 x5 x3 x6)
            ∗ owns (c : Thread nD τ) arg13 fullShare (k2_pay1 (k2_pay4 x0 x1 x4 x2 x5 x3) (k2_pay5 x0 x1 x4 x2 x5 x3 x6) x9 (k2_pay3 (F := F)))) -∗ K ⟨⟩))
      ⊢ wp frame (wpE (defs₀ (F := F)) Variants.none c none) E (cc2__final_kernel i arg1 harg1 arg2 harg2 arg3 harg3 arg4 harg4 arg5 harg5 arg6 harg6 arg7 harg7 arg8 harg8 arg9 harg9 arg10 harg10 arg11 harg11 arg12 harg12 arg13 harg13) K := by
  simp only [cc2__final_kernel_eq_skeleton]; unfold cc2__final_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%d11, %f11, -, H11⟩, ⟨%d13, %f13, -, H13⟩, Hk⟩
  subst hf1; subst hf2; subst hf3; subst hf4; subst hf5; subst hf6; subst hf7; subst hf10
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H10]
  · iexists f10; isplitr; · ipureintro; rfl
    iexact H10
  isplitl [H11]
  · iexists _; isplitr
    swap; · iexact H11
    ipureintro
    refine (read_store_whole _ _ zeroOffsets2 _ _).trans ?_
    dsimp only
    simp only [readAt_whole (S := S2000x128) _ _ zeroOffsets2 inb_S2000x128_S2000x128_0_0, readAt_whole (S := S1x128) _ _ zeroOffsets2 inb_S1x128_S1x128_0_0, readAt_whole (S := S2000x1) _ _ zeroOffsets2 inb_S2000x1_S2000x1_0_0, readAt_whole (S := S64x128) _ _ zeroOffsets2 inb_S64x128_S64x128_0_0, readAt_whole (S := S1x1) _ _ zeroOffsets2 inb_S1x1_S1x1_0_0]
  · iexists _; isplitr
    swap; · iexact H13
    ipureintro
    refine (read_store_whole₂ _ _ zeroOffsets2 _ _ _).trans ?_
    dsimp only
    sl_unfold_words
    simp only [readAt_whole (S := S2000x128) _ _ zeroOffsets2 inb_S2000x128_S2000x128_0_0, readAt_whole (S := S1x128) _ _ zeroOffsets2 inb_S1x128_S1x128_0_0, readAt_whole (S := S2000x1) _ _ zeroOffsets2 inb_S2000x1_S2000x1_0_0, readAt_whole (S := S64x128) _ _ zeroOffsets2 inb_S64x128_S64x128_0_0, readAt_whole (S := S1x1) _ _ zeroOffsets2 inb_S1x1_S1x1_0_0, View.readCov_unit_zero (S := S64x128) _ zeroOffsets2 inb_S64x128_S64x128_0_0]

set_option maxHeartbeats 2000000 in
/-- A MIDDLE POINT. Neither branch is taken. As at the first point, but the accumulator is found at contents `xs` (what
    the point before left) and left at the block's contribution added to them. -/
theorem sound_kernel2_B (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S2000x1 .i32) (harg10 : arg10.IsWhole) (arg11 : Memref sig .tc .vmem S2000x1 .f32) (harg11 : arg11.IsWhole) (arg12 : Memref sig .tc .vmem S64x1 .f32) (harg12 : arg12.IsWhole) (arg13 : Memref sig .tc .vmem S64x128 .f32) (harg13 : arg13.IsWhole)
    (hc0 : ¬cond2_0 i) (hc1 : ¬cond2_1 i)
    (x0 : Vec F S2000x128 .f32) (x1 x2 x3 x4 x5 x6 : Vec F S1x128 .f32) (x9 : Vec F S2000x1 .i32) (xs : Vec F S64x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x9
        ∗ (∃ d, owns (c : Thread nD τ) arg11 fullShare d) ∗ owns (c : Thread nD τ) arg13 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x9
            ∗ owns (c : Thread nD τ) arg11 fullShare (k2_pay5 x0 x1 x4 x2 x5 x3 x6)
            ∗ owns (c : Thread nD τ) arg13 fullShare (k2_pay1 (k2_pay4 x0 x1 x4 x2 x5 x3) (k2_pay5 x0 x1 x4 x2 x5 x3 x6) x9 xs)) -∗ K ⟨⟩))
      ⊢ wp frame (wpE (defs₀ (F := F)) Variants.none c none) E (cc2__final_kernel i arg1 harg1 arg2 harg2 arg3 harg3 arg4 harg4 arg5 harg5 arg6 harg6 arg7 harg7 arg8 harg8 arg9 harg9 arg10 harg10 arg11 harg11 arg12 harg12 arg13 harg13) K := by
  simp only [cc2__final_kernel_eq_skeleton]; unfold cc2__final_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%d11, %f11, -, H11⟩, ⟨%f13, %hf13, H13⟩, Hk⟩
  subst hf1; subst hf2; subst hf3; subst hf4; subst hf5; subst hf6; subst hf7; subst hf10; subst hf13
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H10]
  · iexists f10; isplitr; · ipureintro; rfl
    iexact H10
  isplitl [H11]
  · iexists _; isplitr
    swap; · iexact H11
    ipureintro
    refine (read_store_whole _ _ zeroOffsets2 _ _).trans ?_
    dsimp only
    simp only [readAt_whole (S := S2000x128) _ _ zeroOffsets2 inb_S2000x128_S2000x128_0_0, readAt_whole (S := S1x128) _ _ zeroOffsets2 inb_S1x128_S1x128_0_0, readAt_whole (S := S2000x1) _ _ zeroOffsets2 inb_S2000x1_S2000x1_0_0, readAt_whole (S := S64x128) _ _ zeroOffsets2 inb_S64x128_S64x128_0_0, readAt_whole (S := S1x1) _ _ zeroOffsets2 inb_S1x1_S1x1_0_0]
  · iexists _; isplitr
    swap; · iexact H13
    ipureintro
    refine (read_store_whole _ _ zeroOffsets2 _ _).trans ?_
    dsimp only
    simp only [readAt_whole (S := S2000x128) _ _ zeroOffsets2 inb_S2000x128_S2000x128_0_0, readAt_whole (S := S1x128) _ _ zeroOffsets2 inb_S1x128_S1x128_0_0, readAt_whole (S := S2000x1) _ _ zeroOffsets2 inb_S2000x1_S2000x1_0_0, readAt_whole (S := S64x128) _ _ zeroOffsets2 inb_S64x128_S64x128_0_0, readAt_whole (S := S1x1) _ _ zeroOffsets2 inb_S1x1_S1x1_0_0]

set_option maxHeartbeats 2000000 in
/-- THE LAST POINT. The clearing branch is not taken, the scoring branch is. As at a middle point, and besides, with the
    classifier's vector and bias at read contents and the second output at anything, the second output is left at the
    group scores of the accumulator just stored (read back through the whole-buffer rectangle). -/
theorem sound_kernel2_C (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S2000x1 .i32) (harg10 : arg10.IsWhole) (arg11 : Memref sig .tc .vmem S2000x1 .f32) (harg11 : arg11.IsWhole) (arg12 : Memref sig .tc .vmem S64x1 .f32) (harg12 : arg12.IsWhole) (arg13 : Memref sig .tc .vmem S64x128 .f32) (harg13 : arg13.IsWhole)
    (hc0 : ¬cond2_0 i) (hc1 : cond2_1 i)
    (x0 : Vec F S2000x128 .f32) (x1 x2 x3 x4 x5 x6 x7 : Vec F S1x128 .f32) (x8 : Vec F S1x1 .f32) (x9 : Vec F S2000x1 .i32) (xs : Vec F S64x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ owns (c : Thread nD τ) arg13 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (k2_pay5 x0 x1 x4 x2 x5 x3 x6)
            ∗ owns (c : Thread nD τ) arg12 fullShare (k2_pay2 (k2_pay1 (k2_pay4 x0 x1 x4 x2 x5 x3) (k2_pay5 x0 x1 x4 x2 x5 x3 x6) x9 xs) x7 x8)
            ∗ owns (c : Thread nD τ) arg13 fullShare (k2_pay1 (k2_pay4 x0 x1 x4 x2 x5 x3) (k2_pay5 x0 x1 x4 x2 x5 x3 x6) x9 xs)) -∗ K ⟨⟩))
      ⊢ wp frame (wpE (defs₀ (F := F)) Variants.none c none) E (cc2__final_kernel i arg1 harg1 arg2 harg2 arg3 harg3 arg4 harg4 arg5 harg5 arg6 harg6 arg7 harg7 arg8 harg8 arg9 harg9 arg10 harg10 arg11 harg11 arg12 harg12 arg13 harg13) K := by
  simp only [cc2__final_kernel_eq_skeleton]; unfold cc2__final_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, Hk⟩
  subst hf1; subst hf2; subst hf3; subst hf4; subst hf5; subst hf6; subst hf7; subst hf8; subst hf9; subst hf10; subst hf13
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (read_store_whole _ _ zeroOffsets2 _ _).trans ?_
    dsimp only
    simp only [readAt_whole (S := S2000x128) _ _ zeroOffsets2 inb_S2000x128_S2000x128_0_0, readAt_whole (S := S1x128) _ _ zeroOffsets2 inb_S1x128_S1x128_0_0, readAt_whole (S := S2000x1) _ _ zeroOffsets2 inb_S2000x1_S2000x1_0_0, readAt_whole (S := S64x128) _ _ zeroOffsets2 inb_S64x128_S64x128_0_0, readAt_whole (S := S1x1) _ _ zeroOffsets2 inb_S1x1_S1x1_0_0]
  isplitl [H12]
  · iexists _; isplitr
    swap; · iexact H12
    ipureintro
    refine (read_store_whole _ _ zeroOffsets2 _ _).trans ?_
    dsimp only
    sl_unfold_words
    simp only [readAt_whole (S := S2000x128) _ _ zeroOffsets2 inb_S2000x128_S2000x128_0_0, readAt_whole (S := S1x128) _ _ zeroOffsets2 inb_S1x128_S1x128_0_0, readAt_whole (S := S2000x1) _ _ zeroOffsets2 inb_S2000x1_S2000x1_0_0, readAt_whole (S := S64x128) _ _ zeroOffsets2 inb_S64x128_S64x128_0_0, readAt_whole (S := S1x1) _ _ zeroOffsets2 inb_S1x1_S1x1_0_0, View.readCov_unit_zero (S := S64x128) _ zeroOffsets2 inb_S64x128_S64x128_0_0]
  · iexists _; isplitr
    swap; · iexact H13
    ipureintro
    refine (read_store_whole _ _ zeroOffsets2 _ _).trans ?_
    dsimp only
    simp only [readAt_whole (S := S2000x128) _ _ zeroOffsets2 inb_S2000x128_S2000x128_0_0, readAt_whole (S := S1x128) _ _ zeroOffsets2 inb_S1x128_S1x128_0_0, readAt_whole (S := S2000x1) _ _ zeroOffsets2 inb_S2000x1_S2000x1_0_0, readAt_whole (S := S64x128) _ _ zeroOffsets2 inb_S64x128_S64x128_0_0, readAt_whole (S := S1x1) _ _ zeroOffsets2 inb_S1x1_S1x1_0_0]

end Cert.KernelIdeal.Hand

end
-- ==== Proof.KI.Reg2.lean ====
/-
  The body obligation of the pooling region. At every grid point the body, run on the windows' current staging buffers
  (each input's at its block, the outputs' at anything) and on the region's invariant before the point, leaves every
  input's buffer at its block, the first output's at the attention weights of the block's rows, the second output's
  at the group scores at the last point and as it found it at every other point (there the window is idle and not
  written back), and the invariant after the point: the accumulator's buffer at the recursion's value at the point.
  Three cases by the point — the first (the accumulator is cleared, then updated), a middle one (updated), the last
  (updated, then contracted into the group scores) — each by the body's triple in that case. Before the first point
  the invariant is the class invariant, and after the last it gives the class invariant back.
-/
import proofs.«409529_j10797547782216_3_alg».proof.Proof.Gen.KernelIdeal.Launch
import proofs.«409529_j10797547782216_3_alg».proof.Proof.Gen.KernelIdeal.Skeleton
import proofs.«409529_j10797547782216_3_alg».proof.Proof.Gen.KernelIdeal.Points
import proofs.«409529_j10797547782216_3_alg».proof.Proof.KI.Reg2Defs
import proofs.«409529_j10797547782216_3_alg».proof.Proof.KI.Reg2Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## What the input windows' buffers hold at a point -/

theorem after2_0 (c : Dev nD) (t : Fin cfg2.N) : (dat2 V c).after 0 t = iblk2 V c 0 t := by dsimp only [dat2]
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d

theorem after2_1 (c : Dev nD) (t : Fin cfg2.N) : (dat2 V c).after 1 t = iblk2 V c 1 t := by dsimp only [dat2]
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

theorem after2_2 (c : Dev nD) (t : Fin cfg2.N) : (dat2 V c).after 2 t = iblk2 V c 2 t := by dsimp only [dat2]
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d

theorem after2_3 (c : Dev nD) (t : Fin cfg2.N) : (dat2 V c).after 3 t = iblk2 V c 3 t := by dsimp only [dat2]
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d

theorem after2_4 (c : Dev nD) (t : Fin cfg2.N) : (dat2 V c).after 4 t = iblk2 V c 4 t := by dsimp only [dat2]
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d

theorem after2_5 (c : Dev nD) (t : Fin cfg2.N) : (dat2 V c).after 5 t = iblk2 V c 5 t := by dsimp only [dat2]
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_5 (c : Dev nD) (t : Fin cfg2.N) (d) : (dat2 V c).before 5 t d = iblk2 V c 5 t :=
  before2_5_of V (dat2 V c) (A_eq2 V c 5) (after2_5 V c) t d

theorem after2_6 (c : Dev nD) (t : Fin cfg2.N) : (dat2 V c).after 6 t = iblk2 V c 6 t := by dsimp only [dat2]
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_6 (c : Dev nD) (t : Fin cfg2.N) (d) : (dat2 V c).before 6 t d = iblk2 V c 6 t :=
  before2_6_of V (dat2 V c) (A_eq2 V c 6) (after2_6 V c) t d

theorem after2_7 (c : Dev nD) (t : Fin cfg2.N) : (dat2 V c).after 7 t = iblk2 V c 7 t := by dsimp only [dat2]
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_7 (c : Dev nD) (t : Fin cfg2.N) (d) : (dat2 V c).before 7 t d = iblk2 V c 7 t :=
  before2_7_of V (dat2 V c) (A_eq2 V c 7) (after2_7 V c) t d

theorem after2_8 (c : Dev nD) (t : Fin cfg2.N) : (dat2 V c).after 8 t = iblk2 V c 8 t := by dsimp only [dat2]
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_8 (c : Dev nD) (t : Fin cfg2.N) (d) : (dat2 V c).before 8 t d = iblk2 V c 8 t :=
  before2_8_of V (dat2 V c) (A_eq2 V c 8) (after2_8 V c) t d

theorem after2_9 (c : Dev nD) (t : Fin cfg2.N) : (dat2 V c).after 9 t = iblk2 V c 9 t := by dsimp only [dat2]
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_9 (c : Dev nD) (t : Fin cfg2.N) (d) : (dat2 V c).before 9 t d = iblk2 V c 9 t :=
  before2_9_of V (dat2 V c) (A_eq2 V c 9) (after2_9 V c) t d

/-! ## Where the second output is idle -/

/-- Where the scoring branch is not taken the second output's window is idle, -/
theorem idleAt2_11 : ∀ t : Fin cfg2.N, ¬cond2_1 (grid2.coords t) → cfg2.idle 11 (grid2.coords t) = true := by decide +kernel
/-- and its block is not written back there; -/
theorem noFlush2_11 : ∀ t : Fin cfg2.N, ¬cond2_1 (grid2.coords t) → (cfg2.win 11).flush t = false := by decide +kernel
/-- where it is taken the window is live. -/
theorem liveAt2_11 : ∀ t : Fin cfg2.N, cond2_1 (grid2.coords t) → cfg2.idle 11 (grid2.coords t) = false := by decide +kernel

/-! ## The accumulator's recursion read at a point -/

theorem accP_first (c : Dev nD) (t : Fin cfg2.N) (h0 : t.val = 0) :
    accP V c t.val t.isLt = k2_pay1 (hP V c t) (aP V c t) (segs2 V c t) (k2_pay3 (F := F)) := by
  obtain ⟨n, hn⟩ := t
  cases n with
  | zero => rfl
  | succ n => exact absurd h0 (Nat.succ_ne_zero n)

theorem accP_later (c : Dev nD) (t : Fin cfg2.N) (h0 : t.val ≠ 0) :
    accP V c t.val t.isLt = k2_pay1 (hP V c t) (aP V c t) (segs2 V c t) (accP V c (t.val - 1) (Nat.lt_of_le_of_lt (Nat.sub_le _ _) t.isLt)) := by
  obtain ⟨n, hn⟩ := t
  cases n with
  | zero => exact absurd rfl h0
  | succ n => rfl

/-! ## The class invariant with the accumulator's buffer named -/

/-- The class invariant is the other regions' staging buffers, the accumulator's buffer at some contents, and the
    generator register at some state: the scoped rest listed, its last entry the accumulator's buffer. One direction, -/
theorem PhiA2_open (c : Dev nD) :
    (Pipeline.ΦA spec2 c : sProp 𝕄) ⊢ iprop(othersHeld2 (F := F) c ∗ (∃ d, owns (c : Thread nD τ) (Memref.whole cc2_scratch0) fullShare d) ∗ ∃ r, prngReg c r) := by
  unfold Pipeline.ΦA othersHeld2; rw [scopedRest2_eq]; simp only [owns_whole]
  iintro ⟨⟨H1, H2, H3, H4, H5, H6, H7, H8, H9, H10, H11, H12, H13, H14, H15, H16⟩, Hg⟩
  isplitl [H1 H2 H3 H4 H5 H6 H7 H8 H9 H10 H11 H12 H13 H14 H15]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [H16]; · iexact H16
  iexact Hg

/-- the other, -/
theorem PhiA2_close (c : Dev nD) :
    iprop(othersHeld2 (F := F) c ∗ (∃ d, owns (c : Thread nD τ) (Memref.whole cc2_scratch0) fullShare d) ∗ ∃ r, prngReg c r) ⊢ (Pipeline.ΦA spec2 c : sProp 𝕄) := by
  unfold Pipeline.ΦA othersHeld2; rw [scopedRest2_eq]; simp only [owns_whole]
  iintro ⟨⟨H1, H2, H3, H4, H5, H6, H7, H8, H9, H10, H11, H12, H13, H14, H15⟩, H16, Hg⟩
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iexact Hg

/-- and so the two are equal. -/
theorem PhiA2_eq (c : Dev nD) :
    (Pipeline.ΦA spec2 c : sProp 𝕄) = iprop(othersHeld2 (F := F) c ∗ (∃ d, owns (c : Thread nD τ) (Memref.whole cc2_scratch0) fullShare d) ∗ ∃ r, prngReg c r) :=
  BI.equiv_iff.mp ⟨PhiA2_open c, PhiA2_close c⟩

/-! ## The body obligation, at a generic point -/

/-- What the body is called with at point `t`: the invariant, what is owed, and every window's current staging buffer
    at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d)))

/-- and what it returns: the second output's buffer as found where the window is idle, at the group scores where not. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ (dat2 V c).leavesExact 11 t)

set_option maxHeartbeats 4000000 in
/-- The body at any point. The inputs' buffers hold their blocks; the point is the first, a middle one or the last,
    which decides the two branches; the invariant hands the body the accumulator's buffer (at anything at the first
    point, at what the point before left otherwise) and takes it back at this point's accumulator, which the
    recursion `accP` unfolds to; where the scoring branch is not taken the second output's buffer passes through
    untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).owesAt () t.succ = (dat2 V c).owesAt () t.castSucc from rfl]
  rw [Phi2_succ, PhiS2_succ, Phi2_castSucc]
  rw [after2_0, after2_1, after2_2, after2_3, after2_4, after2_5, after2_6, after2_7, after2_8, after2_9, after2_10]
  have hN : t.val < 25 := lt_of_lt_of_eq t.isLt (show cfg2.N = 25 from N_2)
  by_cases h0 : t.val = 0
  · have hc0 : cond2_0 (grid2.coords t) := (hcond2_0 t).mpr (by omega)
    have hc1 : ¬cond2_1 (grid2.coords t) := fun h => by have := (hcond2_1 t).mp h; omega
    rw [Dat.leavesExact_idle (dat2 V c) 11 t (idleAt2_11 t hc1) (noFlush2_11 t hc1)]
    rw [PhiS2_zero V c _ _ h0, PhiA2_eq, accP_first V c t h0]
    unfold aP hP
    iintro ⟨⟨Hoth, ⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel2_A c Set.univ _ _ _ _ _ _ _ _ _ _ _ _ _ _ _ _ _ _ _ _ _ _ _ _ _ _ _ hc0 hc1 (rows2 V c t) (bias2 V c t) (scale2 V c t) (shift2 V c t) (mean2 V c t) (var2 V c t) (attw2 V c t) (segs2 V c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexists _; iexact H10
    isplitl [HS]; · iexists _; iexact HS
    iintro ⟨H0, H1, H2, H3, H4, H5, H6, H9, H10, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · by_cases h1 : t.val = 24
    · have hc0 : ¬cond2_0 (grid2.coords t) := fun h => by have := (hcond2_0 t).mp h; omega
      have hc1 : cond2_1 (grid2.coords t) := (hcond2_1 t).mpr (by omega)
      rw [show (dat2 V c).leavesExact 11 t = owns (c : Thread nD τ) (st2_11 t) fullShare ((dat2 V c).after 11 t) from by
        unfold Dat.leavesExact; rw [liveAt2_11 t hc1], after2_11]
      unfold logitsP
      rw [PhiS2_pos V c _ _ h0, accP_later V c t h0]
      unfold aP hP
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (sound_kernel2_C c Set.univ _ _ _ _ _ _ _ _ _ _ _ _ _ _ _ _ _ _ _ _ _ _ _ _ _ _ _ hc0 hc1 (rows2 V c t) (bias2 V c t) (scale2 V c t) (shift2 V c t) (mean2 V c t) (var2 V c t) (attw2 V c t) (clsw2 V c t) (clsb2 V c t) (segs2 V c t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS]; · iexact HS
      iintro ⟨H0, H1, H2, H3, H4, H5, H6, H7, H8, H9, H10, H11, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · have hc0 : ¬cond2_0 (grid2.coords t) := fun h => by have := (hcond2_0 t).mp h; omega
      have hc1 : ¬cond2_1 (grid2.coords t) := fun h => by have := (hcond2_1 t).mp h; omega
      rw [Dat.leavesExact_idle (dat2 V c) 11 t (idleAt2_11 t hc1) (noFlush2_11 t hc1)]
      rw [PhiS2_pos V c _ _ h0, accP_later V c t h0]
      unfold aP hP
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (sound_kernel2_B c Set.univ _ _ _ _ _ _ _ _ _ _ _ _ _ _ _ _ _ _ _ _ _ _ _ _ _ _ _ hc0 hc1 (rows2 V c t) (bias2 V c t) (scale2 V c t) (shift2 V c t) (mean2 V c t) (var2 V c t) (attw2 V c t) (segs2 V c t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H9]; · iexact H9
      isplitl [H10]; · iexists _; iexact H10
      isplitl [HS]; · iexact HS
      iintro ⟨H0, H1, H2, H3, H4, H5, H6, H9, H10, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 (F := F) V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega), PhiA2_eq]
  iintro ⟨Hoth, HS, Hg⟩
  isplitl [Hoth]; · iexact Hoth
  isplitl [HS]; · iexists _; iexact HS
  iexact Hg

end Cert.KernelIdeal.Hand

end
-- ==== Proof.KI.Whole.lean ====
/-
  The kernel's program from launch to return. Its @main is ten items: three kernel regions among stretches of host
  operations. Between two items the TensorCore's unscoped buffers hold known contents: the launch memory, then what each
  host stretch computes from them, then — after a region — the same contents with the region's output arrays at what its
  write-backs leave. This module states each region as a segment entered from and left at those contents, and concludes that every
  execution ends with the arguments as launched.
-/
import proofs.«409529_j10797547782216_3_alg».proof.Proof.Gen.KernelIdeal.Regions
import proofs.«409529_j10797547782216_3_alg».proof.Proof.KI.Bounds
import proofs.«409529_j10797547782216_3_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Each region's arrays at its exit -/

/-- An array of region 0 holds, at its exit, what the exit contents say: the two inputs as entered, the output as left. -/
theorem hF0 (c : Dev nD) (w : Fin cfg0.W) : (pdats m 0 c).arrAt w cfg0.N = Vout0 m c (Pipeline.arrRef spec0 w) := by
  match w with
  | ⟨0, _⟩ =>
    exact (((dat0 (Vin0 m) c).arrAt_in 0 rfl _).trans (A_eq0 (Vin0 m) c 0)).trans (Function.update_of_ne (StableHlo.devRef_ne_of_ne (by decide) : (Proc.devRef .tc main_arg0 : DevRef τ sig) ≠ Proc.devRef .tc main_v5) _ _).symm
  | ⟨1, _⟩ =>
    exact (((dat0 (Vin0 m) c).arrAt_in 1 rfl _).trans (A_eq0 (Vin0 m) c 1)).trans (Function.update_of_ne (StableHlo.devRef_ne_of_ne (by decide) : (Proc.devRef .tc main_arg3 : DevRef τ sig) ≠ Proc.devRef .tc main_v5) _ _).symm
  | ⟨2, _⟩ =>
    show left0 m c = Function.update (Win0 m c) (Proc.devRef .tc main_v5) (left0 m c) (Proc.devRef .tc main_v5)
    rw [Function.update_self]
  | ⟨_ + 3, h⟩ => exact absurd h (Nat.not_lt.2 (Nat.le_add_left _ _))
/-- Every other buffer is as entered. -/
theorem hrest0 (c : Dev nD) : ∀ b, b ∉ Finset.univ.image (Pipeline.arrRef spec0) → Vout0 m c b = Vin0 m c b := fun b hb =>
  Function.update_of_ne (StableHlo.devRef_ne_of_ne (fun e => hb (Finset.mem_image.mpr ⟨2, Finset.mem_univ _, e.symm⟩))) _ _

set_option maxHeartbeats 4000000 in
/-- Region 1: its seven inputs as entered, its output as left. -/
theorem hF1 (c : Dev nD) (w : Fin cfg1.W) : (pdats m 1 c).arrAt w cfg1.N = Vout1 m c (Pipeline.arrRef spec1 w) := by
  match w with
  | ⟨0, _⟩ =>
    exact (((dat1 (Vin1 m) c).arrAt_in 0 rfl _).trans (A_eq1 (Vin1 m) c 0)).trans (Function.update_of_ne (StableHlo.devRef_ne_of_ne (by decide) : (Proc.devRef .tc main_v44 : DevRef τ sig) ≠ Proc.devRef .tc main_v50) _ _).symm
  | ⟨1, _⟩ =>
    exact (((dat1 (Vin1 m) c).arrAt_in 1 rfl _).trans (A_eq1 (Vin1 m) c 1)).trans (Function.update_of_ne (StableHlo.devRef_ne_of_ne (by decide) : (Proc.devRef .tc main_v45 : DevRef τ sig) ≠ Proc.devRef .tc main_v50) _ _).symm
  | ⟨2, _⟩ =>
    exact (((dat1 (Vin1 m) c).arrAt_in 2 rfl _).trans (A_eq1 (Vin1 m) c 2)).trans (Function.update_of_ne (StableHlo.devRef_ne_of_ne (by decide) : (Proc.devRef .tc main_v46 : DevRef τ sig) ≠ Proc.devRef .tc main_v50) _ _).symm
  | ⟨3, _⟩ =>
    exact (((dat1 (Vin1 m) c).arrAt_in 3 rfl _).trans (A_eq1 (Vin1 m) c 3)).trans (Function.update_of_ne (StableHlo.devRef_ne_of_ne (by decide) : (Proc.devRef .tc main_v47 : DevRef τ sig) ≠ Proc.devRef .tc main_v50) _ _).symm
  | ⟨4, _⟩ =>
    exact (((dat1 (Vin1 m) c).arrAt_in 4 rfl _).trans (A_eq1 (Vin1 m) c 4)).trans (Function.update_of_ne (StableHlo.devRef_ne_of_ne (by decide) : (Proc.devRef .tc main_v48 : DevRef τ sig) ≠ Proc.devRef .tc main_v50) _ _).symm
  | ⟨5, _⟩ =>
    exact (((dat1 (Vin1 m) c).arrAt_in 5 rfl _).trans (A_eq1 (Vin1 m) c 5)).trans (Function.update_of_ne (StableHlo.devRef_ne_of_ne (by decide) : (Proc.devRef .tc main_v49 : DevRef τ sig) ≠ Proc.devRef .tc main_v50) _ _).symm
  | ⟨6, _⟩ =>
    exact (((dat1 (Vin1 m) c).arrAt_in 6 rfl _).trans (A_eq1 (Vin1 m) c 6)).trans (Function.update_of_ne (StableHlo.devRef_ne_of_ne (by decide) : (Proc.devRef .tc main_arg9 : DevRef τ sig) ≠ Proc.devRef .tc main_v50) _ _).symm
  | ⟨7, _⟩ =>
    show left1 m c = Function.update (Win1 m c) (Proc.devRef .tc main_v50) (left1 m c) (Proc.devRef .tc main_v50)
    rw [Function.update_self]
  | ⟨_ + 8, h⟩ => exact absurd h (Nat.not_lt.2 (Nat.le_add_left _ _))
theorem hrest1 (c : Dev nD) : ∀ b, b ∉ Finset.univ.image (Pipeline.arrRef spec1) → Vout1 m c b = Vin1 m c b := fun b hb =>
  Function.update_of_ne (StableHlo.devRef_ne_of_ne (fun e => hb (Finset.mem_image.mpr ⟨7, Finset.mem_univ _, e.symm⟩))) _ _

set_option maxHeartbeats 8000000 in
/-- Region 2: its ten inputs as entered, its two outputs as left. -/
theorem hF2 (c : Dev nD) (w : Fin cfg2.W) : (pdats m 2 c).arrAt w cfg2.N = Vout2 m c (Pipeline.arrRef spec2 w) := by
  match w with
  | ⟨0, _⟩ =>
    exact (((dat2 (Vin2 m) c).arrAt_in 0 rfl _).trans (A_eq2 (Vin2 m) c 0)).trans ((Function.update_of_ne (StableHlo.devRef_ne_of_ne (by decide) : (Proc.devRef .tc main_v89 : DevRef τ sig) ≠ Proc.devRef .tc main_v97_1) _ _).trans (Function.update_of_ne (StableHlo.devRef_ne_of_ne (by decide) : (Proc.devRef .tc main_v89 : DevRef τ sig) ≠ Proc.devRef .tc main_v97_0) _ _)).symm
  | ⟨1, _⟩ =>
    exact (((dat2 (Vin2 m) c).arrAt_in 1 rfl _).trans (A_eq2 (Vin2 m) c 1)).trans ((Function.update_of_ne (StableHlo.devRef_ne_of_ne (by decide) : (Proc.devRef .tc main_v90 : DevRef τ sig) ≠ Proc.devRef .tc main_v97_1) _ _).trans (Function.update_of_ne (StableHlo.devRef_ne_of_ne (by decide) : (Proc.devRef .tc main_v90 : DevRef τ sig) ≠ Proc.devRef .tc main_v97_0) _ _)).symm
  | ⟨2, _⟩ =>
    exact (((dat2 (Vin2 m) c).arrAt_in 2 rfl _).trans (A_eq2 (Vin2 m) c 2)).trans ((Function.update_of_ne (StableHlo.devRef_ne_of_ne (by decide) : (Proc.devRef .tc main_v91 : DevRef τ sig) ≠ Proc.devRef .tc main_v97_1) _ _).trans (Function.update_of_ne (StableHlo.devRef_ne_of_ne (by decide) : (Proc.devRef .tc main_v91 : DevRef τ sig) ≠ Proc.devRef .tc main_v97_0) _ _)).symm
  | ⟨3, _⟩ =>
    exact (((dat2 (Vin2 m) c).arrAt_in 3 rfl _).trans (A_eq2 (Vin2 m) c 3)).trans ((Function.update_of_ne (StableHlo.devRef_ne_of_ne (by decide) : (Proc.devRef .tc main_v92 : DevRef τ sig) ≠ Proc.devRef .tc main_v97_1) _ _).trans (Function.update_of_ne (StableHlo.devRef_ne_of_ne (by decide) : (Proc.devRef .tc main_v92 : DevRef τ sig) ≠ Proc.devRef .tc main_v97_0) _ _)).symm
  | ⟨4, _⟩ =>
    exact (((dat2 (Vin2 m) c).arrAt_in 4 rfl _).trans (A_eq2 (Vin2 m) c 4)).trans ((Function.update_of_ne (StableHlo.devRef_ne_of_ne (by decide) : (Proc.devRef .tc main_v93 : DevRef τ sig) ≠ Proc.devRef .tc main_v97_1) _ _).trans (Function.update_of_ne (StableHlo.devRef_ne_of_ne (by decide) : (Proc.devRef .tc main_v93 : DevRef τ sig) ≠ Proc.devRef .tc main_v97_0) _ _)).symm
  | ⟨5, _⟩ =>
    exact (((dat2 (Vin2 m) c).arrAt_in 5 rfl _).trans (A_eq2 (Vin2 m) c 5)).trans ((Function.update_of_ne (StableHlo.devRef_ne_of_ne (by decide) : (Proc.devRef .tc main_v94 : DevRef τ sig) ≠ Proc.devRef .tc main_v97_1) _ _).trans (Function.update_of_ne (StableHlo.devRef_ne_of_ne (by decide) : (Proc.devRef .tc main_v94 : DevRef τ sig) ≠ Proc.devRef .tc main_v97_0) _ _)).symm
  | ⟨6, _⟩ =>
    exact (((dat2 (Vin2 m) c).arrAt_in 6 rfl _).trans (A_eq2 (Vin2 m) c 6)).trans ((Function.update_of_ne (StableHlo.devRef_ne_of_ne (by decide) : (Proc.devRef .tc main_v95 : DevRef τ sig) ≠ Proc.devRef .tc main_v97_1) _ _).trans (Function.update_of_ne (StableHlo.devRef_ne_of_ne (by decide) : (Proc.devRef .tc main_v95 : DevRef τ sig) ≠ Proc.devRef .tc main_v97_0) _ _)).symm
  | ⟨7, _⟩ =>
    exact (((dat2 (Vin2 m) c).arrAt_in 7 rfl _).trans (A_eq2 (Vin2 m) c 7)).trans ((Function.update_of_ne (StableHlo.devRef_ne_of_ne (by decide) : (Proc.devRef .tc main_arg16 : DevRef τ sig) ≠ Proc.devRef .tc main_v97_1) _ _).trans (Function.update_of_ne (StableHlo.devRef_ne_of_ne (by decide) : (Proc.devRef .tc main_arg16 : DevRef τ sig) ≠ Proc.devRef .tc main_v97_0) _ _)).symm
  | ⟨8, _⟩ =>
    exact (((dat2 (Vin2 m) c).arrAt_in 8 rfl _).trans (A_eq2 (Vin2 m) c 8)).trans ((Function.update_of_ne (StableHlo.devRef_ne_of_ne (by decide) : (Proc.devRef .tc main_v96 : DevRef τ sig) ≠ Proc.devRef .tc main_v97_1) _ _).trans (Function.update_of_ne (StableHlo.devRef_ne_of_ne (by decide) : (Proc.devRef .tc main_v96 : DevRef τ sig) ≠ Proc.devRef .tc main_v97_0) _ _)).symm
  | ⟨9, _⟩ =>
    exact (((dat2 (Vin2 m) c).arrAt_in 9 rfl _).trans (A_eq2 (Vin2 m) c 9)).trans ((Function.update_of_ne (StableHlo.devRef_ne_of_ne (by decide) : (Proc.devRef .tc main_v4 : DevRef τ sig) ≠ Proc.devRef .tc main_v97_1) _ _).trans (Function.update_of_ne (StableHlo.devRef_ne_of_ne (by decide) : (Proc.devRef .tc main_v4 : DevRef τ sig) ≠ Proc.devRef .tc main_v97_0) _ _)).symm
  | ⟨10, _⟩ =>
    show left2a m c = Function.update (Function.update (Win2 m c) (Proc.devRef .tc main_v97_0) (left2a m c)) (Proc.devRef .tc main_v97_1) (left2b m c) (Proc.devRef .tc main_v97_0)
    rw [Function.update_of_ne (StableHlo.devRef_ne_of_ne (by decide) : (Proc.devRef .tc main_v97_0 : DevRef τ sig) ≠ Proc.devRef .tc main_v97_1), Function.update_self]
  | ⟨11, _⟩ =>
    show left2b m c = Function.update (Function.update (Win2 m c) (Proc.devRef .tc main_v97_0) (left2a m c)) (Proc.devRef .tc main_v97_1) (left2b m c) (Proc.devRef .tc main_v97_1)
    rw [Function.update_self]
  | ⟨_ + 12, h⟩ => exact absurd h (Nat.not_lt.2 (Nat.le_add_left _ _))
theorem hrest2 (c : Dev nD) : ∀ b, b ∉ Finset.univ.image (Pipeline.arrRef spec2) → Vout2 m c b = Vin2 m c b := fun b hb =>
  (Function.update_of_ne (StableHlo.devRef_ne_of_ne (fun e => hb (Finset.mem_image.mpr ⟨11, Finset.mem_univ _, e.symm⟩))) _ _).trans
    (Function.update_of_ne (StableHlo.devRef_ne_of_ne (fun e => hb (Finset.mem_image.mpr ⟨10, Finset.mem_univ _, e.symm⟩))) _ _)

/-! ## The regions as segments

Each region is entered from every unscoped buffer at its entry contents and left at its exit contents: its arrays are taken
out of the unscoped buffers and put back at their final contents; the generator register passes through the region's
invariant; nothing is owed; no kernel has a semaphore of its own. -/

set_option backward.isDefEq.respectTransparency.types false in
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Win0 m c) ∗ R c)
  post c := iprop(StableHlo.held (c : Thread nD τ) (Pipeline.ucRefs τ sig) (Wout0 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Win1 m c) ∗ R c)
  post c := iprop(StableHlo.held (c : Thread nD τ) (Pipeline.ucRefs τ sig) (Wout1 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ L lv 2 fun _ _ => rfl
  pre c := iprop(StableHlo.held (c : Thread nD τ) (Pipeline.ucRefs τ sig) (Win2 m c) ∗ R c)
  post c := iprop(StableHlo.held (c : Thread nD τ) (Pipeline.ucRefs τ sig) (Wout2 m c) ∗ R c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = (dat2 (Vin2 m) c).Φ (Fin.last cfg2.N) from rfl]
    have hgive := hout2 (Vin2 m) c
    unfold Pipeline.ΦA at hgive
    iintro H
    ihave H2 := hgive $$ H
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (Vout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
/-
  The frame of the kernel's program: from any memory with zero counters every weakly fair execution of @main terminates,
  nothing faulting, and ends with the eighteen argument arrays as launched. The three kernel regions are the segments of
  the module before this one; the host stretches between them, the chaining of the boundary contents and the reading of
  the arguments off the last contents are the program's generated conditional frame, which asks only for those segments.
-/
import proofs.«409529_j10797547782216_3_alg».proof.Proof.Gen.KernelIdeal.Regions
import proofs.«409529_j10797547782216_3_alg».proof.Proof.KI.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Beside the buffers through every item rides the same rest. -/
abbrev restAt : Fin 4 → Dev nD → sProp 𝕄 := fun _ c => R c

-- the conditional frame's implicit arguments are found by unifying its conclusion with this one
set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond (F := F) m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := restAt)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m) (fun c => .rfl) (fun c => by rw [V2_eq]; exact .rfl)
    (reg1 m) (fun c => by rw [V5_eq]; exact .rfl) (fun c => by rw [V6_eq]; exact .rfl)
    (reg2 m) (fun c => by rw [V9_eq]; exact .rfl) (fun c => by rw [V10_eq]; exact .rfl)

end Cert.KernelIdeal.Hand

end
-- ==== Proof.KI.RunVals.lean ====
/-
  The kernel's program run from launch to return, with its two results read. From any memory with zero counters every
  weakly fair execution of @main on the TensorCores terminates, and in every final memory the group scores' array
  holds what the pooling region's write-backs leave in it, the attention weights' array likewise, and every argument
  array holds its launch contents. The run is the ten items of @main in order: each host stretch carries every
  unscoped buffer from one boundary's contents to the next, each kernel region from its entry contents to its exit
  contents; the last boundary's contents are read against the final memory, the two results where the last region
  put them, the arguments where no item writes.
-/
import proofs.«409529_j10797547782216_3_alg».proof.Proof.KI.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The last boundary's contents at the results -/

/-- An unscoped TensorCore buffer is among the buffers every boundary holds. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- After the last item the group scores' array holds what the pooling region left in it, -/
theorem V10_scores (c : Dev nD) : V10 m (outs m) c main_v97_1 = left2b m c := by
  rw [V10_eq]; exact Function.update_self ..
/-- and the attention weights' array what it left there. -/
theorem V10_weights (c : Dev nD) : V10 m (outs m) c main_v97_0 = left2a m c := by
  rw [V10_eq]
  exact (Function.update_of_ne (StableHlo.devRef_ne_of_ne (by decide) : (Proc.devRef .tc main_v97_0 : DevRef τ sig) ≠ Proc.devRef .tc main_v97_1) _ _).trans (Function.update_self ..)

/-! ## The items chained: each region is entered from the boundary before it and left at the one after it -/

theorem hpre0 (c : Dev nD) : iprop(StableHlo.held (c : Thread nD τ) (Pipeline.ucRefs τ sig) (V1 m c) ∗ R c) ⊢ (reg0 m).pre c := .rfl
theorem hpost0 (c : Dev nD) : (reg0 m).post c ⊢ iprop(StableHlo.held (c : Thread nD τ) (Pipeline.ucRefs τ sig) (V2 m (outs m) c) ∗ R c) := by
  rw [V2_eq]; exact .rfl
theorem hpre1 (c : Dev nD) : iprop(StableHlo.held (c : Thread nD τ) (Pipeline.ucRefs τ sig) (V5 m (outs m) c) ∗ R c) ⊢ (reg1 m).pre c := by
  rw [V5_eq]; exact .rfl
theorem hpost1 (c : Dev nD) : (reg1 m).post c ⊢ iprop(StableHlo.held (c : Thread nD τ) (Pipeline.ucRefs τ sig) (V6 m (outs m) c) ∗ R c) := by
  rw [V6_eq]; exact .rfl
theorem hpre2 (c : Dev nD) : iprop(StableHlo.held (c : Thread nD τ) (Pipeline.ucRefs τ sig) (V9 m (outs m) c) ∗ R c) ⊢ (reg2 m).pre c := by
  rw [V9_eq]; exact .rfl
/-- What rides beside the buffers ends owing nothing. -/
theorem hpost2 (c : Dev nD) : (reg2 m).post c
    ⊢ iprop(StableHlo.held (c : Thread nD τ) (Pipeline.ucRefs τ sig) (V10 m (outs m) c) ∗ ∃ W, owes (c : Thread nD τ) (0 : CellTallies nD τ sig Unit) W) := by
  rw [V10_eq]
  show iprop(StableHlo.held (c : Thread nD τ) (Pipeline.ucRefs τ sig) (Wout2 m c) ∗ R c) ⊢ _
  iintro ⟨Hh, -, HO⟩
  isplitl [Hh]; · iexact Hh
  iexact HO

/-- @main's items as segments: the host stretches between the boundary contents, the three regions' records. -/
abbrev segsHand (c : Dev nD) : List (Seg (pcfgs (F := F)) adm (pdats m) () defs₀ Variants.none L lv) :=
  segs m (outs m) Variants.none L lv (fun _ => R) () (pdats m) (reg0 m) (reg1 m) (reg2 m) c

/-! ## The run -/

set_option backward.isDefEq.respectTransparency.types false in
set_option maxHeartbeats 4000000 in
/-- THE VALUE RUN: every weakly fair execution of @main from memory `m` with zero counters terminates, and every final
    memory has the two result arrays at what the pooling region left and every argument as launched. -/
theorem run_vals (ρ : Dev nD → PrngReg) :
    θ_run defs (onTc (τ := τ) (main (F := F))) ⟨m, fun _ => 0, ρ⟩ (fun r => ∀ c : Dev nD,
      r.2.mem ((c.tc : Thread nD τ).loc main_v97_1) = left2b m c
      ∧ r.2.mem ((c.tc : Thread nD τ).loc main_v97_0) = left2a m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine Pipeline.θ_run_regions_kit_dev (pcfgs (F := F)) adm (pdats m) () cellOf_inj emb₁ defs₀ Variants.none L lv m ρ main
    (segsHand m)
    (fun c Q => by
      rewrite [main_chain c, Seg.run_eq_chain,
        show (segsHand m c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()) ] from rfl]
      exact .rfl)
    (fun c => by simp only [segsHand, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V10 m (outs m) c))
    (hch := fun c => ⟨.rfl, hpre0 m c, hpost0 m c, .rfl, .rfl, hpre1 m c, hpost1 m c, .rfl, .rfl, hpre2 m c, hpost2 m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨Hh, HSI⟩
      unfold StableHlo.held
      imodintro
      iapply (pointsTo_read_all (Pipeline.ucRefs τ sig) (fun b => (((c : Thread nD τ)).1, b)) (V10 m (outs m) c) s')
      isplitl [Hh] <;> iassumption)
    (hQ := fun s h c =>
      ⟨(h c _ (mem_ucRefs main_v97_1 (by decide))).trans (V10_scores m c),
        (h c _ (mem_ucRefs main_v97_0 (by decide))).trans (V10_weights m c),
        (h c _ (mem_ucRefs main_arg0 (by decide))).trans (V10_main_arg0 m (outs m) c),
        (h c _ (mem_ucRefs main_arg1 (by decide))).trans (V10_main_arg1 m (outs m) c),
        (h c _ (mem_ucRefs main_arg2 (by decide))).trans (V10_main_arg2 m (outs m) c),
        (h c _ (mem_ucRefs main_arg3 (by decide))).trans (V10_main_arg3 m (outs m) c),
        (h c _ (mem_ucRefs main_arg4 (by decide))).trans (V10_main_arg4 m (outs m) c),
        (h c _ (mem_ucRefs main_arg5 (by decide))).trans (V10_main_arg5 m (outs m) c),
        (h c _ (mem_ucRefs main_arg6 (by decide))).trans (V10_main_arg6 m (outs m) c),
        (h c _ (mem_ucRefs main_arg7 (by decide))).trans (V10_main_arg7 m (outs m) c),
        (h c _ (mem_ucRefs main_arg8 (by decide))).trans (V10_main_arg8 m (outs m) c),
        (h c _ (mem_ucRefs main_arg9 (by decide))).trans (V10_main_arg9 m (outs m) c),
        (h c _ (mem_ucRefs main_arg10 (by decide))).trans (V10_main_arg10 m (outs m) c),
        (h c _ (mem_ucRefs main_arg11 (by decide))).trans (V10_main_arg11 m (outs m) c),
        (h c _ (mem_ucRefs main_arg12 (by decide))).trans (V10_main_arg12 m (outs m) c),
        (h c _ (mem_ucRefs main_arg13 (by decide))).trans (V10_main_arg13 m (outs m) c),
        (h c _ (mem_ucRefs main_arg14 (by decide))).trans (V10_main_arg14 m (outs m) c),
        (h c _ (mem_ucRefs main_arg15 (by decide))).trans (V10_main_arg15 m (outs m) c),
        (h c _ (mem_ucRefs main_arg16 (by decide))).trans (V10_main_arg16 m (outs m) c),
        (h c _ (mem_ucRefs main_arg17 (by decide))).trans (V10_main_arg17 m (outs m) c)⟩)

/-- THE FRAME, read off the same run: every argument ends as launched. -/
theorem frame_hand (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2.2) (run_vals m ρ)

end Cert.KernelIdeal.Hand

end
-- ==== Proof.KIV.Forms.lean ====
/-
  The scalar forms both programs compute, on the extended reals: one feature entry through the convolution's bias, the
  batch normalisation (mean, scale, variance plus ε, shift) and the rectifier; and the attention weight of a feature row,
  the logistic of its inner product with the attention vector. The value lemmas of the kernel's regions and of the
  reference's stages are stated over these, so that the two sides meet in one term.
-/
import Idealize.ShloMosaic.PureOps.Ideal
import Idealize.ShloMosaic.PureOps.Ideal.Laws
import Idealize.ShloMosaic.Lib.ValueIdx

noncomputable section

namespace Cert.Forms

open Idealize.ShloMosaic

/-- The normalisation's ε, the word both programs spell. -/
abbrev eps : EReal := Ideal.ofBits .f32 0x3727C5AC#32

/-- The rectifier's floor, the zero word both programs spell. -/
abbrev zeroW : EReal := Ideal.ofBits .f32 0x00000000#32

/-- One feature entry `a` through the bias `b`, the normalisation by mean `mu`, scale `g`, variance `var` and shift
    `be`, and the rectifier: max (((a + b) - mu) · g · rsqrt (var + ε) + be) 0, in the order both programs associate it. -/
def bnrelu (a b mu g var be : EReal) : EReal :=
  max ((a + b - mu) * g * Ideal.rsqrt (var + eps) + be) zeroW

/-- The attention weight of a feature row `h` against the attention vector `aw`. -/
def attn (h aw : Fin 128 → EReal) : EReal := Ideal.logistic (∑ k : Fin 128, h k * aw k)

end Cert.Forms

end
-- ==== Proof.KIV.Val0.lean ====
/- Kernel region 0 on the extended reals: the result array after the region is the matrix product of the
   f32[50000,128] left argument and the f32[128,128] right argument as the region finds them, entry by entry:
   entry (r, j) is the sum over k of left (r, k) times right (k, j). Point t of the grid writes rows
   [2000 t, 2000 t + 2000) of that product, and the 25 points' row blocks cover the array. -/
import proofs.«409529_j10797547782216_3_alg».proof.Proof.KI.Reg0
import proofs.«409529_j10797547782216_3_alg».proof.Proof.KIV.Forms
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The body's payload at an index: one entry of a [2000,128] × [128,128] product -/

/-- The left operand's index at output index i and contraction index q: row i 0, -/
theorem lhs_rowsProd_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- column the contraction coordinate. -/
theorem lhs_rowsProd_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's: row the contraction coordinate, -/
theorem rhs_rowsProd_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- column i 1. -/
theorem rhs_rowsProd_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The payload at entry (p, q): the narrowing to bf16 is the identity on the extended reals, the accumulator is
    zero, so the entry is the sum over k of x0 (p, k) · x1 (k, q). -/
theorem rowsProd_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_rowsProd_0 _ _
    | ⟨1, _⟩ => exact (lhs_rowsProd_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_rowsProd_0 _ _).trans hk
    | ⟨1, _⟩ => exact rhs_rowsProd_1 _ _)
  rw [el, er]
  rfl

/-! ## From blocks to the array -/

/-- The matrix product of a [50000,128] array and a [128,128] array, entry by entry. -/
def matProd (a : S50000x128.Idx → Elt Ideal .f32) (b : S128x128.Idx → Elt Ideal .f32) : S50000x128.Idx → Elt Ideal .f32 :=
  fun i => ∑ k : Fin 128, a (ix2 (⟨(i 0).val, idx2_lt0 i⟩ : Fin 50000) k) * b (ix2 k (⟨(i 1).val, idx2_lt1 i⟩ : Fin 128))

theorem matProd_apply (a : S50000x128.Idx → Elt Ideal .f32) (b : S128x128.Idx → Elt Ideal .f32) (r : Fin 50000) (j : Fin 128) :
    matProd a b (ix2 r j) = ∑ k : Fin 128, a (ix2 r k) * b (ix2 k j) := rfl

/-- The block indices over the grid: the left operand's and the result's row block is the point's number, every
    column block is 0, the right operand's block is (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The payload of the two blocks at point t, at a block index y, is the product's entry at row 2000 t + y 0,
    column y 1. -/
theorem rowsProd_blocks (c : Dev nD) (t : Fin cfg0.N) (y : S2000x128.Idx) :
    k0_pay1 (F := Ideal) (iblk0 V c 0 t) (iblk0 V c 1 t) y
      = matProd (V c main_arg0) (V c main_arg3) (((cfg0.win 2).blk t).view.emb y) := by
  obtain ⟨p, q, rfl⟩ : ∃ (p : Fin 2000) (q : Fin 128), y = ix2 p q := ⟨y 0, y 1, eq_ix2 y⟩
  refine (rowsProd_apply _ _ p q).trans ?_
  obtain ⟨e0, e1, e2, e3, e4, e5⟩ := blockIdx0 t
  unfold matProd
  refine Finset.sum_congr rfl fun k _ => ?_
  have h0 : (iblk0 V c 0 t : Vec Ideal S2000x128 .f32) (ix2 p k)
      = (V c main_arg0 : S50000x128.Idx → Elt Ideal .f32) (ix2 (⟨((((cfg0.win 2).blk t).view.emb (ix2 p q)) 0).val, idx2_lt0 _⟩ : Fin 50000) k) := by
    show (V c main_arg0 : S50000x128.Idx → Elt Ideal .f32) (((cfg0.win 0).blk t).view.emb (ix2 p k)) = _
    congr 1
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : (iblk0 V c 1 t : Vec Ideal S128x128 .f32) (ix2 k q)
      = (V c main_arg3 : S128x128.Idx → Elt Ideal .f32) (ix2 k (⟨((((cfg0.win 2).blk t).view.emb (ix2 p q)) 1).val, idx2_lt1 _⟩ : Fin 128)) := by
    show (V c main_arg3 : S128x128.Idx → Elt Ideal .f32) (((cfg0.win 1).blk t).view.emb (ix2 k q)) = _
    congr 1
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- What point t writes back is block t of the product of the two argument arrays as the region finds them. -/
theorem flushed0_2_eq (c : Dev nD) (t : Fin cfg0.N) :
    (dat0 (F := Ideal) V c).flushed 2 t = ((cfg0.win 2).blk t).view.read (Elt Ideal) (matProd (V c main_arg0) (V c main_arg3)) := by
  show (cfg0.win 2).cut (grid0.coords t) ((dat0 (F := Ideal) V c).after 2 t) = _
  rw [after0_2, out0_2_eq]
  funext y
  exact rowsProd_blocks V c t y

/-- An index of the result array is in point t's block iff each coordinate is in the block's range on its axis. -/
theorem mem_blk0_2 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v5).slice (win0_2.rect t)).set ↔ _
  rw [View.set_slice_whole, Rect.mem_set_unit]
  exact Iff.rfl

/-- Row r of the array is in the block of point r / 2000: the 25 row blocks of 2000 rows cover the 50000 rows. -/
theorem cover0_2_rows (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have hN : cfg0.N = 25 := by decide
  let t : Fin cfg0.N := ⟨(i 0).val / 2000, by rw [hN]; omega⟩
  obtain ⟨e0, e1, e2, e3, e4, e5⟩ := blockIdx0 t
  have ht : t.val = (i 0).val / 2000 := rfl
  refine ⟨t, flush0_2 t, ?_⟩
  rw [mem_blk0_2]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the region is the matrix product of the two argument arrays as the region finds them. -/
theorem final0 (c : Dev nD) : (dat0 (F := Ideal) V c).arrAt 2 cfg0.N = matProd (V c main_arg0) (V c main_arg3) :=
  (dat0 (F := Ideal) V c).arrAt_eq_of_cover 2 (matProd (V c main_arg0) (V c main_arg3)) (fun t _ => flushed0_2_eq V c t) cover0_2_rows

/-- Entry by entry. -/
theorem final0_apply (c : Dev nD) (r : Fin 50000) (j : Fin 128) :
    @Eq (Elt Ideal .f32) ((dat0 (F := Ideal) V c).arrAt 2 cfg0.N (ix2 r j))
      (∑ k : Fin 128, @HMul.hMul (Elt Ideal .f32) (Elt Ideal .f32) (Elt Ideal .f32) instHMul (V c main_arg0 (ix2 r k)) (V c main_arg3 (ix2 k j))) :=
  (congrFun (final0 V c) (ix2 r j)).trans (matProd_apply (V c main_arg0) (V c main_arg3) r j)

end Cert.KernelIdeal.Hand

end
-- ==== Proof.KIV.Val1.lean ====
/- The value of kernel region 1 on the extended reals: after its 25 points the result array holds, at (r, j), the inner
   product over k of the normalized, rectified feature entry (r, k) with the matrix entry (k, j). The payload is read at
   an index, each block is read off its array, and the blocks written back tile the array. -/
import proofs.«409529_j10797547782216_3_alg».proof.Proof.KI.Reg1
import proofs.«409529_j10797547782216_3_alg».proof.Proof.KIV.Forms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.ShloMosaic.Pipeline (Dat Cfg Window)

/-! ## The product's operand indices: row (p, ·) of the left operand against column (·, j) of the right -/

theorem lhs_prod1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_prod1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_prod1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_prod1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-! ## The payload at an index -/

/-- Entry (p, j) of the body's payload: the inner product over k of the normalized, rectified row entry (p, k) with
    the matrix entry (k, j). The roundings to bf16 are the identity on the extended reals, and the accumulator is zero. -/
theorem k1_pay1_apply (x0 : Vec Ideal S2000x128 .f32) (b mu g var be : Vec Ideal S1x128 .f32) (w : Vec Ideal S128x128 .f32)
    (p : Fin 2000) (j : Fin 128) :
    k1_pay1 x0 b mu g var be w (ix2 p j)
      = ∑ k : Fin 128, Cert.Forms.bnrelu (x0 (ix2 p k)) (b (ix2 0 k)) (mu (ix2 0 k)) (g (ix2 0 k)) (var (ix2 0 k)) (be (ix2 0 k)) * w (ix2 k j) := by
  unfold k1_pay1
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p j) ((contrEquiv1 dot_S2000x128_S128x128_S2000x128_1_0_0_1_n_n 128 rfl rfl).symm k) = ix2 p k := funext fun a => Fin.ext (by
    match a with
    | ⟨0, _⟩ => exact lhs_prod1_0 _ _
    | ⟨1, _⟩ => exact (lhs_prod1_1 _ _).trans hk)
  have er : dot_S2000x128_S128x128_S2000x128_1_0_0_1_n_n.rhsIdx (ix2 p j) ((contrEquiv1 dot_S2000x128_S128x128_S2000x128_1_0_0_1_n_n 128 rfl rfl).symm k) = ix2 k j := funext fun a => Fin.ext (by
    match a with
    | ⟨0, _⟩ => exact (rhs_prod1_0 _ _).trans hk
    | ⟨1, _⟩ => exact rhs_prod1_1 _ _)
  rw [el, er]
  simp only [shapeCast_self]
  rw [truncf_apply, truncf_apply, maximumf_apply, addf_apply, mulf_apply, mulf_apply, subf_apply, addf_apply,
    broadcastTo_1b_ab_apply, broadcastTo_1b_ab_apply, broadcastTo_1b_ab_apply, broadcastTo_1b_ab_apply, broadcastTo_1b_ab_apply]
  rfl

/-! ## The region's result as one function of the arrays -/

/-- Entry (r, j) of the result: the inner product over k of the normalized, rectified entry (r, k) of the feature array
    with entry (k, j) of the matrix; the five rows are the bias, the mean, the scale, the variance and the shift. -/
def bnreluProd (a : S50000x128.Idx → EReal) (b mu g var be : S1x128.Idx → EReal) (w : S128x128.Idx → EReal) :
    S50000x128.Idx → EReal :=
  fun i => ∑ k : Fin 128, Cert.Forms.bnrelu (a (ix2 (i 0 : Fin 50000) k)) (b (ix2 (0 : Fin 1) k)) (mu (ix2 (0 : Fin 1) k)) (g (ix2 (0 : Fin 1) k))
    (var (ix2 (0 : Fin 1) k)) (be (ix2 (0 : Fin 1) k)) * w (ix2 k (i 1 : Fin 128))

/-- The body's payload at (p, j) is the result at an index i of the array, when the loaded blocks read the arrays'
    entries the result names there: row p of the feature block is row i₀ of the array, the matrix block's column j is
    column i₁, the five row blocks are the rows. -/
theorem payload_eq_result (a : S50000x128.Idx → EReal) (b mu g var be : S1x128.Idx → EReal) (w : S128x128.Idx → EReal)
    (x0 : Vec Ideal S2000x128 .f32) (x1 x2 x3 x4 x5 : Vec Ideal S1x128 .f32) (x6 : Vec Ideal S128x128 .f32)
    (i : S50000x128.Idx) (p : Fin 2000) (j : Fin 128)
    (h0 : ∀ k : Fin 128, x0 (ix2 p k) = a (ix2 (i 0 : Fin 50000) k))
    (h1 : ∀ k : Fin 128, x1 (ix2 (0 : Fin 1) k) = b (ix2 (0 : Fin 1) k))
    (h2 : ∀ k : Fin 128, x2 (ix2 (0 : Fin 1) k) = g (ix2 (0 : Fin 1) k))
    (h3 : ∀ k : Fin 128, x3 (ix2 (0 : Fin 1) k) = be (ix2 (0 : Fin 1) k))
    (h4 : ∀ k : Fin 128, x4 (ix2 (0 : Fin 1) k) = mu (ix2 (0 : Fin 1) k))
    (h5 : ∀ k : Fin 128, x5 (ix2 (0 : Fin 1) k) = var (ix2 (0 : Fin 1) k))
    (h6 : ∀ k : Fin 128, x6 (ix2 k j) = w (ix2 k (i 1 : Fin 128))) :
    k1_pay1 x0 x1 x4 x2 x5 x3 x6 (ix2 p j) = bnreluProd a b mu g var be w i := by
  rw [k1_pay1_apply]
  unfold bnreluProd
  refine Finset.sum_congr rfl fun k _ => ?_
  rw [h0 k, h1 k, h2 k, h3 k, h4 k, h5 k, h6 k]

variable (V : (c : Dev nD) → (b : Ref sig .tc) → Buf (Elt Ideal) ((c : Thread nD τ).loc b))

/-- The result of the region on core `c`, of the arrays as the region finds them. -/
abbrev result1 (c : Dev nD) : S50000x128.Idx → EReal :=
  bnreluProd (V c main_v44) (V c main_v45) (V c main_v48) (V c main_v46) (V c main_v49) (V c main_v47) (V c main_arg9)

/-! ## From blocks to the array -/

/-- The windows' block indices, decided over the grid: the feature rows and the result rows are at block t, every
    other window stays at block 0. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of the feature block at point t is row 2000 t + p of the array. -/
theorem rows_read1 (c : Dev nD) (t : Fin cfg1.N) (i : S50000x128.Idx) (p : Fin 2000) (k : Fin 128)
    (hi : (i 0).val = t.val * 2000 + p.val) :
    iblk1 V c 0 t (ix2 p k) = V c main_v44 (ix2 (i 0 : Fin 50000) k) := by
  obtain ⟨e00, e01, e10, e11, e20, e21, e30, e31, e40, e41, e50, e51, e60, e61, e70, e71⟩ := index_facts1 t
  show V c main_v44 (((cfg1.win 0).blk t).view.emb (ix2 p k)) = V c main_v44 (ix2 (i 0 : Fin 50000) k)
  refine congrArg (V c main_v44) (funext fun a => Fin.ext ?_)
  match a with
  | ⟨0, _⟩ => show win1_0.index t (0 : Fin 2) * 2000 + 1 * p.val = (i 0).val; omega
  | ⟨1, _⟩ => show win1_0.index t (1 : Fin 2) * 128 + 1 * k.val = k.val; omega

theorem row_read1_1 (c : Dev nD) (t : Fin cfg1.N) (k : Fin 128) :
    iblk1 V c 1 t (ix2 (0 : Fin 1) k) = V c main_v45 (ix2 (0 : Fin 1) k) := by
  obtain ⟨e00, e01, e10, e11, e20, e21, e30, e31, e40, e41, e50, e51, e60, e61, e70, e71⟩ := index_facts1 t
  show V c main_v45 (((cfg1.win 1).blk t).view.emb (ix2 (0 : Fin 1) k)) = V c main_v45 (ix2 (0 : Fin 1) k)
  refine congrArg (V c main_v45) (funext fun a => Fin.ext ?_)
  match a with
  | ⟨0, _⟩ => show win1_1.index t (0 : Fin 2) * 1 + 1 * 0 = 0; omega
  | ⟨1, _⟩ => show win1_1.index t (1 : Fin 2) * 128 + 1 * k.val = k.val; omega

theorem row_read1_2 (c : Dev nD) (t : Fin cfg1.N) (k : Fin 128) :
    iblk1 V c 2 t (ix2 (0 : Fin 1) k) = V c main_v46 (ix2 (0 : Fin 1) k) := by
  obtain ⟨e00, e01, e10, e11, e20, e21, e30, e31, e40, e41, e50, e51, e60, e61, e70, e71⟩ := index_facts1 t
  show V c main_v46 (((cfg1.win 2).blk t).view.emb (ix2 (0 : Fin 1) k)) = V c main_v46 (ix2 (0 : Fin 1) k)
  refine congrArg (V c main_v46) (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

theorem row_read1_3 (c : Dev nD) (t : Fin cfg1.N) (k : Fin 128) :
    iblk1 V c 3 t (ix2 (0 : Fin 1) k) = V c main_v47 (ix2 (0 : Fin 1) k) := by
  obtain ⟨e00, e01, e10, e11, e20, e21, e30, e31, e40, e41, e50, e51, e60, e61, e70, e71⟩ := index_facts1 t
  show V c main_v47 (((cfg1.win 3).blk t).view.emb (ix2 (0 : Fin 1) k)) = V c main_v47 (ix2 (0 : Fin 1) k)
  refine congrArg (V c main_v47) (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

theorem row_read1_4 (c : Dev nD) (t : Fin cfg1.N) (k : Fin 128) :
    iblk1 V c 4 t (ix2 (0 : Fin 1) k) = V c main_v48 (ix2 (0 : Fin 1) k) := by
  obtain ⟨e00, e01, e10, e11, e20, e21, e30, e31, e40, e41, e50, e51, e60, e61, e70, e71⟩ := index_facts1 t
  show V c main_v48 (((cfg1.win 4).blk t).view.emb (ix2 (0 : Fin 1) k)) = V c main_v48 (ix2 (0 : Fin 1) k)
  refine congrArg (V c main_v48) (funext fun a => Fin.ext ?_)
  match a with
  | ⟨0, _⟩ => show win1_4.index t (0 : Fin 2) * 1 + 1 * 0 = 0; omega
  | ⟨1, _⟩ => show win1_4.index t (1 : Fin 2) * 128 + 1 * k.val = k.val; omega

theorem row_read1_5 (c : Dev nD) (t : Fin cfg1.N) (k : Fin 128) :
    iblk1 V c 5 t (ix2 (0 : Fin 1) k) = V c main_v49 (ix2 (0 : Fin 1) k) := by
  obtain ⟨e00, e01, e10, e11, e20, e21, e30, e31, e40, e41, e50, e51, e60, e61, e70, e71⟩ := index_facts1 t
  show V c main_v49 (((cfg1.win 5).blk t).view.emb (ix2 (0 : Fin 1) k)) = V c main_v49 (ix2 (0 : Fin 1) k)
  refine congrArg (V c main_v49) (funext fun a => Fin.ext ?_)
  match a with
  | ⟨0, _⟩ => show win1_5.index t (0 : Fin 2) * 1 + 1 * 0 = 0; omega
  | ⟨1, _⟩ => show win1_5.index t (1 : Fin 2) * 128 + 1 * k.val = k.val; omega

/-- The matrix block is the matrix. -/
theorem matrix_read1 (c : Dev nD) (t : Fin cfg1.N) (k j : Fin 128) :
    iblk1 V c 6 t (ix2 k j) = V c main_arg9 (ix2 k j) := by
  obtain ⟨e00, e01, e10, e11, e20, e21, e30, e31, e40, e41, e50, e51, e60, e61, e70, e71⟩ := index_facts1 t
  show V c main_arg9 (((cfg1.win 6).blk t).view.emb (ix2 k j)) = V c main_arg9 (ix2 k j)
  refine congrArg (V c main_arg9) (funext fun a => Fin.ext ?_)
  match a with
  | ⟨0, _⟩ => show win1_6.index t (0 : Fin 2) * 128 + 1 * k.val = k.val; omega
  | ⟨1, _⟩ => show win1_6.index t (1 : Fin 2) * 128 + 1 * j.val = j.val; omega

/-- What point t writes back is block t of the result. -/
theorem flushed1_7_eq (c : Dev nD) (t : Fin cfg1.N) :
    (dat1 (F := Ideal) V c).flushed 7 t = ((cfg1.win 7).blk t).view.read (Elt Ideal) (result1 V c) := by
  show (cfg1.win 7).cut (grid1.coords t) ((dat1 V c).after 7 t) = _
  rw [after1_7, out1_7_eq]
  obtain ⟨e00, e01, e10, e11, e20, e21, e30, e31, e40, e41, e50, e51, e60, e61, e70, e71⟩ := index_facts1 t
  funext y
  obtain ⟨p, j, rfl⟩ : ∃ (p : Fin 2000) (j : Fin 128), y = ix2 p j := ⟨y 0, y 1, eq_ix2 y⟩
  show k1_pay1 (iblk1 V c 0 t) (iblk1 V c 1 t) (iblk1 V c 4 t) (iblk1 V c 2 t) (iblk1 V c 5 t) (iblk1 V c 3 t) (iblk1 V c 6 t) (ix2 p j)
    = result1 V c (((cfg1.win 7).blk t).view.emb (ix2 p j))
  have hr : ((((cfg1.win 7).blk t).view.emb (ix2 p j)) 0).val = t.val * 2000 + p.val := by
    show win1_7.index t (0 : Fin 2) * 2000 + 1 * p.val = _; omega
  have hc : ((((cfg1.win 7).blk t).view.emb (ix2 p j)) 1 : Fin 128) = j := Fin.ext (by
    show win1_7.index t (1 : Fin 2) * 128 + 1 * j.val = _; omega)
  refine payload_eq_result (V c main_v44) (V c main_v45) (V c main_v48) (V c main_v46) (V c main_v49) (V c main_v47) (V c main_arg9)
    (iblk1 V c 0 t) (iblk1 V c 1 t) (iblk1 V c 2 t) (iblk1 V c 3 t) (iblk1 V c 4 t) (iblk1 V c 5 t) (iblk1 V c 6 t)
    (((cfg1.win 7).blk t).view.emb (ix2 p j)) p j
    (fun k => rows_read1 V c t _ p k hr) (row_read1_1 V c t) (row_read1_2 V c t) (row_read1_3 V c t) (row_read1_4 V c t) (row_read1_5 V c t)
    (fun k => ?_)
  rw [hc]
  exact matrix_read1 V c t k j

/-- An index of the array is in point t's block iff each coordinate is in the block's range on its axis. -/
theorem mem_blk1_7 (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v50).slice (win1_7.rect t)).set ↔ _
  rw [View.set_slice_whole, Rect.mem_set_unit]
  exact Iff.rfl

/-- Every row r of the array is in the block of point r / 2000, which is written back. -/
theorem rows_covered1 (i : S50000x128.Idx) :
    ∃ t : Fin cfg1.N, (cfg1.win 7).flush t = true ∧ i ∈ ((cfg1.win 7).blk t).view.set := by
  have hi0 : (i 0).val < 50000 := idx2_lt0 i
  have hi1 : (i 1).val < 128 := idx2_lt1 i
  have hN : (i 0).val / 2000 < cfg1.N := by show _ < grid1.N; rw [N_1]; omega
  obtain ⟨e00, e01, e10, e11, e20, e21, e30, e31, e40, e41, e50, e51, e60, e61, e70, e71⟩ := index_facts1 ⟨(i 0).val / 2000, hN⟩
  refine ⟨⟨(i 0).val / 2000, hN⟩, flush1_7 _, ?_⟩
  rw [mem_blk1_7]
  intro a
  match a with
  | ⟨0, _⟩ =>
    show win1_7.index ⟨(i 0).val / 2000, hN⟩ (0 : Fin 2) * 2000 ≤ (i 0).val ∧ (i 0).val < win1_7.index ⟨(i 0).val / 2000, hN⟩ (0 : Fin 2) * 2000 + 2000
    rw [e70]; show (i 0).val / 2000 * 2000 ≤ (i 0).val ∧ (i 0).val < (i 0).val / 2000 * 2000 + 2000; omega
  | ⟨1, _⟩ =>
    show win1_7.index ⟨(i 0).val / 2000, hN⟩ (1 : Fin 2) * 128 ≤ (i 1).val ∧ (i 1).val < win1_7.index ⟨(i 0).val / 2000, hN⟩ (1 : Fin 2) * 128 + 128
    rw [e71]; omega

/-- The result array after the region: the result function of the arrays the region found. -/
theorem final1 (c : Dev nD) : (dat1 (F := Ideal) V c).arrAt 7 cfg1.N = result1 V c :=
  (dat1 (F := Ideal) V c).arrAt_eq_of_cover 7 (result1 V c) (fun t _ => flushed1_7_eq V c t) rows_covered1

/-- Entry (r, j) of the result array after the region. -/
theorem final1_apply (c : Dev nD) (r : Fin 50000) (j : Fin 128) :
    (dat1 (F := Ideal) V c).arrAt 7 cfg1.N (ix2 r j)
      = ∑ k : Fin 128, Cert.Forms.bnrelu (V c main_v44 (ix2 r k)) (V c main_v45 (ix2 0 k)) (V c main_v48 (ix2 0 k)) (V c main_v46 (ix2 0 k)) (V c main_v49 (ix2 0 k)) (V c main_v47 (ix2 0 k)) * V c main_arg9 (ix2 k j) := by
  rw [final1]
  rfl

end Cert.KernelIdeal.Hand

end
-- ==== Proof.KIV.HostSide.lean ====
/-
  The host stretches of the kernel's program between its three kernel regions, read as values.

  Between two regions the TensorCore's buffers are the launch memory pushed through the host operations of @main, with
  what a region leaves put in at its result array. Three kinds of facts are read off that fold here.
  (1) The graph aggregation. Both stretches that follow a region compute, from the region's f32[50000,128] result hw and
  the i32[2,1600000] edge list ei, the same array: with s and d the two rows of ei each followed by the self loops
  0 … 49999, deg the count of every node among d, dinv = deg^(-1/2) where deg > 0 and 0 elsewhere, and
  w e = dinv (s e) · dinv (d e), the rows hw (s e) · w e scattered and added at rows d e of a zero array. It is named
  ONCE, as aggK hw ei, a term of host operations that is never opened: the reference program spells the same operations,
  so its two aggregation stages are aggK of its own feature arrays by unfolding names only.
  (2) The arrays a region reads that a host operation made from an argument: a vector f32[128] set as a row f32[1,128]
  (row entry (0, k) is entry k), the column f32[128,1] transposed (entry (0, k) is entry (k, 0)), the one-entry vector set
  as a 1 × 1 array, and the segment ids i32[50000] set as a column.
  (3) The arguments a region reads directly: no host operation and no region writes them, so they hold their launch
  contents.
-/
import proofs.«409529_j10797547782216_3_alg».proof.Proof.Gen.KernelIdeal.Regions
import proofs.«409529_j10797547782216_3_alg».proof.Proof.KIV.ReadC
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

/-! ## The aggregation, stage by stage -/

/-- Row 0 of the edge list, as a vector. -/
def rowK0 (ei : IVec S2x1600000 32) : IVec S1600000 32 :=
  shapeCast S1600000 (extractStridedSlice S1x1600000 ![0, 0] ei slices_S2x1600000_S1x1600000_0_0) shapeCasts_S1x1600000_S1600000

/-- Row 1 of the edge list, as a vector. -/
def rowK1 (ei : IVec S2x1600000 32) : IVec S1600000 32 :=
  shapeCast S1600000 (extractStridedSlice S1x1600000 ![1, 0] ei slices_S2x1600000_S1x1600000_1_0) shapeCasts_S1x1600000_S1600000

/-- An edge row followed by the 50000 self loops 0 … 49999. -/
def catK (r : IVec S1600000 32) : IVec S1650000 32 :=
  concatenate S1650000 0 [⟨S1600000, r⟩, ⟨S50000, iotaInDim S50000 32 0⟩] concatenates_S1600000_S50000_S1650000_d0

/-- The sources: row 0 of the edge list with the self loops. -/
def srcK (ei : IVec S2x1600000 32) : IVec S1650000 32 := catK (rowK0 ei)

/-- The targets: row 1 of the edge list with the self loops. -/
def dstK (ei : IVec S2x1600000 32) : IVec S1650000 32 := catK (rowK1 ei)

/-- The degree of every node: ones scattered and added along the targets d. -/
def degK (d : IVec S1650000 32) : FVec Ideal S50000 .f32 :=
  Host.scatterAdd scatter_S50000_S1650000x1_S1650000_n_0_0_1
    (broadcastInDim S50000 ![] bcast_S_S50000 (constant (F := Ideal) S_ .f32 0x00000000#32))
    (broadcastInDim S1650000x1 ![0] bcast_S1650000_S1650000x1_0 d)
    (broadcastInDim S1650000 ![] bcast_S_S1650000 (constant (F := Ideal) S_ .f32 0x3F800000#32))

/-- The degrees' positivity mask. -/
def posK (d : IVec S1650000 32) : IVec S50000 1 :=
  cmpf .ogt (degK d) (broadcastInDim S50000 ![] bcast_S_S50000 (constant (F := Ideal) S_ .f32 0x00000000#32))

/-- The node weights, from the positivity mask p, the degrees' inverse square roots r and the zero word z:
    r where p holds, zero elsewhere. -/
def dinvK (p : IVec S50000 1) (r : FVec Ideal S50000 .f32) (z : FVec Ideal S_ .f32) : FVec Ideal S50000 .f32 :=
  select p r (broadcastInDim S50000 ![] bcast_S_S50000 (id z))

/-- The node weights of the target list d: deg^(-1/2) where the degree is positive, zero elsewhere. -/
def dinvOf (d : IVec S1650000 32) : FVec Ideal S50000 .f32 :=
  dinvK (posK d) (Host.rsqrt (degK d)) (constant (F := Ideal) S_ .f32 0x00000000#32)

/-- A node index normalised (a negative index counts from the end) and set as a column of gather / scatter indices. -/
def normK (i : IVec S1650000 32) : IVec S1650000x1 32 :=
  broadcastInDim S1650000x1 ![0] bcast_S1650000_S1650000x1_0
    (select (cmpi .slt i (broadcastInDim S1650000 ![] bcast_S_S1650000 (constantI S_ 32 0#32)))
      (addi i (broadcastInDim S1650000 ![] bcast_S_S1650000 (constantI S_ 32 50000#32))) i)

/-- The edge weights dinv[src] · dinv[dst]. -/
def coefK (s d : IVec S1650000 32) (dinv : FVec Ideal S50000 .f32) : FVec Ideal S1650000 .f32 :=
  mulf (Host.gather gather_S50000_S1650000x1_S1650000_n_0_n_n_0_1_1 dinv (normK s))
    (Host.gather gather_S50000_S1650000x1_S1650000_n_0_n_n_0_1_1 dinv (normK d))

/-- The aggregation of hw over the edges (s, d) with node weights dinv: rows of hw gathered at the sources, scaled by the
    edge weights, scattered and added at the targets. -/
def aggT (hw : FVec Ideal S50000x128 .f32) (s d : IVec S1650000 32) (dinv : FVec Ideal S50000 .f32) : FVec Ideal S50000x128 .f32 :=
  Host.scatterAdd scatter_S50000x128_S1650000x1_S1650000x128_1_0_0_1
    (broadcastInDim S50000x128 ![] bcast_S_S50000x128 (constant (F := Ideal) S_ .f32 0x00000000#32))
    (broadcastInDim S1650000x1 ![0] bcast_S1650000_S1650000x1_0 d)
    (mulf (Host.gather gather_S50000x128_S1650000x1_S1650000x128_1_0_n_n_0_1_1128 hw (normK s))
      (broadcastInDim S1650000x128 ![0, 1] bcast_S1650000x1_S1650000x128_0_1
        (broadcastInDim S1650000x1 ![0] bcast_S1650000_S1650000x1_0 (coefK s d dinv))))

/-- the graph aggregation of a feature array hw along the edge list ei, as the kernel's program spells it: ONE term of host operations -/
def aggK (hw : Vec Ideal S50000x128 .f32) (ei : Vec Ideal S2x1600000 .i32) : Vec Ideal S50000x128 .f32 :=
  aggT hw (srcK ei) (dstK ei) (dinvOf (dstK ei))

/-! ## Each stretch over any contents W: what it leaves in the buffers the aggregation passes through -/

section Stretches

variable (W : Valuation τ sig (Elt Ideal))

/-- The first stretch sets the edge list's rows as vectors -/
theorem s0_v1 : StableHlo.after (hostOps0 (F := Ideal)) W main_v1 = rowK0 (W main_arg1) := by
  after_results; rfl
theorem s0_v3 : StableHlo.after (hostOps0 (F := Ideal)) W main_v3 = rowK1 (W main_arg1) := by
  after_results; rfl
/-- and the segment ids as a column. -/
theorem s0_v4 : StableHlo.after (hostOps0 (F := Ideal)) W main_v4
    = fun i => shapeCast S50000x1 (W main_arg2 : IVec S50000 32) shapeCasts_S50000_S50000x1 i := by
  after_results; rfl

/-- After region 0: the sources, the targets, the positivity mask, the inverse square roots and the zero word. -/
theorem s1_v7 : StableHlo.after (hostOps1 (F := Ideal)) W main_v7 = catK (W main_v1) := by
  after_results_simp; rfl
theorem s1_v8 : StableHlo.after (hostOps1 (F := Ideal)) W main_v8 = catK (W main_v3) := by
  after_results_simp; rfl
theorem s1_v14 : StableHlo.after (hostOps1 (F := Ideal)) W main_v14 = posK (catK (W main_v3)) := by
  after_results_simp; rfl
theorem s1_v15 : StableHlo.after (hostOps1 (F := Ideal)) W main_v15 = Host.rsqrt (degK (catK (W main_v3))) := by
  after_results_simp; rfl
theorem s1_cst2 : StableHlo.after (hostOps1 (F := Ideal)) W main_cst_2 = constant (F := Ideal) S_ .f32 0x00000000#32 := by
  after_results_simp
/-- The masked choice of the node weights. -/
theorem s1_1_v16 : StableHlo.after (hostOps1_1 (F := Ideal)) W main_v16 = dinvK (W main_v14) (W main_v15) (W main_cst_2) := by
  after_results; rfl
/-- The aggregation proper -/
theorem s1_2_v44 : StableHlo.after (hostOps1_2 (F := Ideal)) W main_v44 = aggT (W main_v5) (W main_v7) (W main_v8) (W main_v16) := by
  after_results_simp; rfl
/-- and the five parameter vectors set as rows. -/
theorem s1_2_v45 : StableHlo.after (hostOps1_2 (F := Ideal)) W main_v45
    = fun i => shapeCast S1x128 (W main_arg4 : FVec Ideal S128 .f32) shapeCasts_S128_S1x128 i := by
  after_results_simp; rfl
theorem s1_2_v46 : StableHlo.after (hostOps1_2 (F := Ideal)) W main_v46
    = fun i => shapeCast S1x128 (W main_arg5 : FVec Ideal S128 .f32) shapeCasts_S128_S1x128 i := by
  after_results_simp; rfl
theorem s1_2_v47 : StableHlo.after (hostOps1_2 (F := Ideal)) W main_v47
    = fun i => shapeCast S1x128 (W main_arg6 : FVec Ideal S128 .f32) shapeCasts_S128_S1x128 i := by
  after_results_simp; rfl
theorem s1_2_v48 : StableHlo.after (hostOps1_2 (F := Ideal)) W main_v48
    = fun i => shapeCast S1x128 (W main_arg7 : FVec Ideal S128 .f32) shapeCasts_S128_S1x128 i := by
  after_results_simp; rfl
theorem s1_2_v49 : StableHlo.after (hostOps1_2 (F := Ideal)) W main_v49
    = fun i => shapeCast S1x128 (W main_arg8 : FVec Ideal S128 .f32) shapeCasts_S128_S1x128 i := by
  after_results_simp; rfl

/-- After region 1 the same, under the second stretch's names. -/
theorem s2_v52 : StableHlo.after (hostOps2 (F := Ideal)) W main_v52 = catK (W main_v1) := by
  after_results_simp; rfl
theorem s2_v53 : StableHlo.after (hostOps2 (F := Ideal)) W main_v53 = catK (W main_v3) := by
  after_results_simp; rfl
theorem s2_v59 : StableHlo.after (hostOps2 (F := Ideal)) W main_v59 = posK (catK (W main_v3)) := by
  after_results_simp; rfl
theorem s2_v60 : StableHlo.after (hostOps2 (F := Ideal)) W main_v60 = Host.rsqrt (degK (catK (W main_v3))) := by
  after_results_simp; rfl
theorem s2_cst12 : StableHlo.after (hostOps2 (F := Ideal)) W main_cst_12 = constant (F := Ideal) S_ .f32 0x00000000#32 := by
  after_results_simp
theorem s2_1_v61 : StableHlo.after (hostOps2_1 (F := Ideal)) W main_v61 = dinvK (W main_v59) (W main_v60) (W main_cst_12) := by
  after_results; rfl
theorem s2_2_v89 : StableHlo.after (hostOps2_2 (F := Ideal)) W main_v89 = aggT (W main_v50) (W main_v52) (W main_v53) (W main_v61) := by
  after_results_simp; rfl
/-- The second aggregation's parameter rows, the transposed column and the one-entry array. -/
theorem s2_2_v90 : StableHlo.after (hostOps2_2 (F := Ideal)) W main_v90
    = fun i => shapeCast S1x128 (W main_arg10 : FVec Ideal S128 .f32) shapeCasts_S128_S1x128 i := by
  after_results_simp; rfl
theorem s2_2_v91 : StableHlo.after (hostOps2_2 (F := Ideal)) W main_v91
    = fun i => shapeCast S1x128 (W main_arg11 : FVec Ideal S128 .f32) shapeCasts_S128_S1x128 i := by
  after_results_simp; rfl
theorem s2_2_v92 : StableHlo.after (hostOps2_2 (F := Ideal)) W main_v92
    = fun i => shapeCast S1x128 (W main_arg12 : FVec Ideal S128 .f32) shapeCasts_S128_S1x128 i := by
  after_results_simp; rfl
theorem s2_2_v93 : StableHlo.after (hostOps2_2 (F := Ideal)) W main_v93
    = fun i => shapeCast S1x128 (W main_arg13 : FVec Ideal S128 .f32) shapeCasts_S128_S1x128 i := by
  after_results_simp; rfl
theorem s2_2_v94 : StableHlo.after (hostOps2_2 (F := Ideal)) W main_v94
    = fun i => shapeCast S1x128 (W main_arg14 : FVec Ideal S128 .f32) shapeCasts_S128_S1x128 i := by
  after_results_simp; rfl
theorem s2_2_v95 : StableHlo.after (hostOps2_2 (F := Ideal)) W main_v95
    = transpose S1x128 [1, 0] (W main_arg15 : FVec Ideal S128x1 .f32) transposes_S128x1_S1x128_1_0 := by
  after_results_simp
theorem s2_2_v96 : StableHlo.after (hostOps2_2 (F := Ideal)) W main_v96
    = fun i => shapeCast S1x1 (W main_arg17 : FVec Ideal S1 .f32) shapeCasts_S1_S1x1 i := by
  after_results_simp; rfl

end Stretches

/-! ## The valuations between the items -/

variable (m : (ℓ : Loc nD τ sig) → Buf (Elt Ideal) ℓ) (outs : Outs (F := Ideal))

/-- A buffer that no stretch up to region 1's entry writes, and that region 0 does not change, holds its launch contents there. -/
theorem V5_keep (c : Dev nD) (r : Ref sig .tc) (h0 : r ∉ hostOps0_W) (hr0 : r ∉ ([main_v5] : List (Ref sig .tc)))
    (h1 : r ∉ hostOps1_W) (h2 : r ∉ hostOps1_1_W) (h3 : r ∉ hostOps1_2_W) :
    V5 m outs c r = m ((c : Thread nD τ).loc r) :=
  (V5_of m outs c r h3).trans <| (V4_of m outs c r h2).trans <| (V3_of m outs c r h1).trans <| (V2_of m outs c r hr0).trans <|
    (V1_of m c r h0).trans rfl

/-- A buffer that no stretch from region 1's entry to region 2's writes, and that region 1 does not change, holds at
    region 2's entry what it held at region 1's. -/
theorem V9_keep (c : Dev nD) (r : Ref sig .tc) (hr1 : r ∉ ([main_v50] : List (Ref sig .tc)))
    (h1 : r ∉ hostOps2_W) (h2 : r ∉ hostOps2_1_W) (h3 : r ∉ hostOps2_2_W) :
    V9 m outs c r = V5 m outs c r :=
  (V9_of m outs c r h3).trans <| (V8_of m outs c r h2).trans <| (V7_of m outs c r h1).trans (V6_of m outs c r hr1)

/-- The edge list's rows, set as vectors by the first stretch, are not written again. -/
theorem V2_v1 (c : Dev nD) : V2 m outs c main_v1 = rowK0 (m ((c : Thread nD τ).loc main_arg1)) :=
  (V2_of m outs c main_v1 (by decide)).trans (s0_v1 (V0 m c))
theorem V2_v3 (c : Dev nD) : V2 m outs c main_v3 = rowK1 (m ((c : Thread nD τ).loc main_arg1)) :=
  (V2_of m outs c main_v3 (by decide)).trans (s0_v3 (V0 m c))
theorem V6_v1 (c : Dev nD) : V6 m outs c main_v1 = rowK0 (m ((c : Thread nD τ).loc main_arg1)) :=
  (V6_of m outs c main_v1 (by decide)).trans <| (V5_of m outs c main_v1 (by decide)).trans <| (V4_of m outs c main_v1 (by decide)).trans <|
    (V3_of m outs c main_v1 (by decide)).trans (V2_v1 m outs c)
theorem V6_v3 (c : Dev nD) : V6 m outs c main_v3 = rowK1 (m ((c : Thread nD τ).loc main_arg1)) :=
  (V6_of m outs c main_v3 (by decide)).trans <| (V5_of m outs c main_v3 (by decide)).trans <| (V4_of m outs c main_v3 (by decide)).trans <|
    (V3_of m outs c main_v3 (by decide)).trans (V2_v3 m outs c)

/-- Region 1 enters with the aggregation of region 0's result along the launch edge list. -/
theorem V5_v44 (c : Dev nD) : V5 m outs c main_v44 = aggK (V2 m outs c main_v5) (m ((c : Thread nD τ).loc main_arg1)) := by
  have e44 : V5 m outs c main_v44 = aggT (V4 m outs c main_v5) (V4 m outs c main_v7) (V4 m outs c main_v8) (V4 m outs c main_v16) :=
    s1_2_v44 (V4 m outs c)
  have e5 : V4 m outs c main_v5 = V2 m outs c main_v5 := (V4_of m outs c main_v5 (by decide)).trans (V3_of m outs c main_v5 (by decide))
  have e7 : V4 m outs c main_v7 = srcK (m ((c : Thread nD τ).loc main_arg1)) :=
    (V4_of m outs c main_v7 (by decide)).trans ((s1_v7 (V2 m outs c)).trans (congrArg catK (V2_v1 m outs c)))
  have e8 : V4 m outs c main_v8 = dstK (m ((c : Thread nD τ).loc main_arg1)) :=
    (V4_of m outs c main_v8 (by decide)).trans ((s1_v8 (V2 m outs c)).trans (congrArg catK (V2_v3 m outs c)))
  have e14 : V3 m outs c main_v14 = posK (dstK (m ((c : Thread nD τ).loc main_arg1))) :=
    (s1_v14 (V2 m outs c)).trans (congrArg (fun r => posK (catK r)) (V2_v3 m outs c))
  have e15 : V3 m outs c main_v15 = Host.rsqrt (degK (dstK (m ((c : Thread nD τ).loc main_arg1)))) :=
    (s1_v15 (V2 m outs c)).trans (congrArg (fun r => Host.rsqrt (degK (catK r))) (V2_v3 m outs c))
  have e16 : V4 m outs c main_v16 = dinvOf (dstK (m ((c : Thread nD τ).loc main_arg1))) := by
    refine (s1_1_v16 (V3 m outs c)).trans ?_
    have ec : V3 m outs c main_cst_2 = constant (F := Ideal) S_ .f32 0x00000000#32 := s1_cst2 (V2 m outs c)
    rw [e14, e15, ec]; rfl
  rw [e44, e5, e7, e8, e16]; rfl

/-- Region 2 enters with the aggregation of region 1's result along the same edge list. -/
theorem V9_v89 (c : Dev nD) : V9 m outs c main_v89 = aggK (V6 m outs c main_v50) (m ((c : Thread nD τ).loc main_arg1)) := by
  have e89 : V9 m outs c main_v89 = aggT (V8 m outs c main_v50) (V8 m outs c main_v52) (V8 m outs c main_v53) (V8 m outs c main_v61) :=
    s2_2_v89 (V8 m outs c)
  have e50 : V8 m outs c main_v50 = V6 m outs c main_v50 := (V8_of m outs c main_v50 (by decide)).trans (V7_of m outs c main_v50 (by decide))
  have e52 : V8 m outs c main_v52 = srcK (m ((c : Thread nD τ).loc main_arg1)) :=
    (V8_of m outs c main_v52 (by decide)).trans ((s2_v52 (V6 m outs c)).trans (congrArg catK (V6_v1 m outs c)))
  have e53 : V8 m outs c main_v53 = dstK (m ((c : Thread nD τ).loc main_arg1)) :=
    (V8_of m outs c main_v53 (by decide)).trans ((s2_v53 (V6 m outs c)).trans (congrArg catK (V6_v3 m outs c)))
  have e59 : V7 m outs c main_v59 = posK (dstK (m ((c : Thread nD τ).loc main_arg1))) :=
    (s2_v59 (V6 m outs c)).trans (congrArg (fun r => posK (catK r)) (V6_v3 m outs c))
  have e60 : V7 m outs c main_v60 = Host.rsqrt (degK (dstK (m ((c : Thread nD τ).loc main_arg1)))) :=
    (s2_v60 (V6 m outs c)).trans (congrArg (fun r => Host.rsqrt (degK (catK r))) (V6_v3 m outs c))
  have e61 : V8 m outs c main_v61 = dinvOf (dstK (m ((c : Thread nD τ).loc main_arg1))) := by
    refine (s2_1_v61 (V7 m outs c)).trans ?_
    have ec : V7 m outs c main_cst_12 = constant (F := Ideal) S_ .f32 0x00000000#32 := s2_cst12 (V6 m outs c)
    rw [e59, e60, ec]; rfl
  rw [e89, e50, e52, e53, e61]; rfl

/-- region 0's inputs are the launch arguments -/
theorem V1_arg (c : Dev nD) : V1 m c main_arg0 = m ((c : Thread nD τ).loc main_arg0) ∧ V1 m c main_arg3 = m ((c : Thread nD τ).loc main_arg3) :=
  ⟨(V1_of m c main_arg0 (by decide)).trans rfl, (V1_of m c main_arg3 (by decide)).trans rfl⟩

/-- A vector f32[128] set as a row f32[1,128]: entry (0, k) of the row is entry k of the vector. -/
theorem row_apply (x : FVec Ideal S128 .f32) (k : Fin 128) :
    shapeCast S1x128 x shapeCasts_S128_S1x128 (ix2 0 k) = x (ix1 k) :=
  shapeCast_a_1a_apply x shapeCasts_S128_S1x128 0 k

/-- Region 1's parameter rows are the launch vectors main_arg4 … main_arg8. -/
theorem V5_row (c : Dev nD) (k : Fin 128) :
    V5 m outs c main_v45 (ix2 0 k) = m ((c : Thread nD τ).loc main_arg4) (ix1 k)
    ∧ V5 m outs c main_v46 (ix2 0 k) = m ((c : Thread nD τ).loc main_arg5) (ix1 k)
    ∧ V5 m outs c main_v47 (ix2 0 k) = m ((c : Thread nD τ).loc main_arg6) (ix1 k)
    ∧ V5 m outs c main_v48 (ix2 0 k) = m ((c : Thread nD τ).loc main_arg7) (ix1 k)
    ∧ V5 m outs c main_v49 (ix2 0 k) = m ((c : Thread nD τ).loc main_arg8) (ix1 k) := by
  have a4 : V4 m outs c main_arg4 = m ((c : Thread nD τ).loc main_arg4) :=
    (V4_of m outs c main_arg4 (by decide)).trans <| (V3_of m outs c main_arg4 (by decide)).trans <| (V2_of m outs c main_arg4 (by decide)).trans <| (V1_of m c main_arg4 (by decide)).trans rfl
  have a5 : V4 m outs c main_arg5 = m ((c : Thread nD τ).loc main_arg5) :=
    (V4_of m outs c main_arg5 (by decide)).trans <| (V3_of m outs c main_arg5 (by decide)).trans <| (V2_of m outs c main_arg5 (by decide)).trans <| (V1_of m c main_arg5 (by decide)).trans rfl
  have a6 : V4 m outs c main_arg6 = m ((c : Thread nD τ).loc main_arg6) :=
    (V4_of m outs c main_arg6 (by decide)).trans <| (V3_of m outs c main_arg6 (by decide)).trans <| (V2_of m outs c main_arg6 (by decide)).trans <| (V1_of m c main_arg6 (by decide)).trans rfl
  have a7 : V4 m outs c main_arg7 = m ((c : Thread nD τ).loc main_arg7) :=
    (V4_of m outs c main_arg7 (by decide)).trans <| (V3_of m outs c main_arg7 (by decide)).trans <| (V2_of m outs c main_arg7 (by decide)).trans <| (V1_of m c main_arg7 (by decide)).trans rfl
  have a8 : V4 m outs c main_arg8 = m ((c : Thread nD τ).loc main_arg8) :=
    (V4_of m outs c main_arg8 (by decide)).trans <| (V3_of m outs c main_arg8 (by decide)).trans <| (V2_of m outs c main_arg8 (by decide)).trans <| (V1_of m c main_arg8 (by decide)).trans rfl
  refine ⟨?_, ?_, ?_, ?_, ?_⟩
  · exact (congrFun (s1_2_v45 (V4 m outs c)) (ix2 0 k)).trans ((row_apply _ k).trans (congrFun a4 (ix1 k)))
  · exact (congrFun (s1_2_v46 (V4 m outs c)) (ix2 0 k)).trans ((row_apply _ k).trans (congrFun a5 (ix1 k)))
  · exact (congrFun (s1_2_v47 (V4 m outs c)) (ix2 0 k)).trans ((row_apply _ k).trans (congrFun a6 (ix1 k)))
  · exact (congrFun (s1_2_v48 (V4 m outs c)) (ix2 0 k)).trans ((row_apply _ k).trans (congrFun a7 (ix1 k)))
  · exact (congrFun (s1_2_v49 (V4 m outs c)) (ix2 0 k)).trans ((row_apply _ k).trans (congrFun a8 (ix1 k)))

/-- Region 1's second matrix is the launch argument. -/
theorem V5_arg9 (c : Dev nD) : V5 m outs c main_arg9 = m ((c : Thread nD τ).loc main_arg9) :=
  V5_keep m outs c main_arg9 (by decide) (by decide) (by decide) (by decide) (by decide)

/-- An argument at the last stretch's entry holds its launch contents. -/
theorem V8_keep (c : Dev nD) (r : Ref sig .tc) (h0 : r ∉ hostOps0_W) (hr0 : r ∉ ([main_v5] : List (Ref sig .tc)))
    (h1 : r ∉ hostOps1_W) (h2 : r ∉ hostOps1_1_W) (h3 : r ∉ hostOps1_2_W) (hr1 : r ∉ ([main_v50] : List (Ref sig .tc)))
    (h4 : r ∉ hostOps2_W) (h5 : r ∉ hostOps2_1_W) :
    V8 m outs c r = m ((c : Thread nD τ).loc r) :=
  (V8_of m outs c r h5).trans <| (V7_of m outs c r h4).trans <| (V6_of m outs c r hr1).trans (V5_keep m outs c r h0 hr0 h1 h2 h3)

/-- Region 2's parameter rows are the launch vectors main_arg10 … main_arg14, and its attention row is the launch
    column main_arg15 transposed. -/
theorem V9_row (c : Dev nD) (k : Fin 128) :
    V9 m outs c main_v90 (ix2 0 k) = m ((c : Thread nD τ).loc main_arg10) (ix1 k)
    ∧ V9 m outs c main_v91 (ix2 0 k) = m ((c : Thread nD τ).loc main_arg11) (ix1 k)
    ∧ V9 m outs c main_v92 (ix2 0 k) = m ((c : Thread nD τ).loc main_arg12) (ix1 k)
    ∧ V9 m outs c main_v93 (ix2 0 k) = m ((c : Thread nD τ).loc main_arg13) (ix1 k)
    ∧ V9 m outs c main_v94 (ix2 0 k) = m ((c : Thread nD τ).loc main_arg14) (ix1 k)
    ∧ V9 m outs c main_v95 (ix2 0 k) = m ((c : Thread nD τ).loc main_arg15) (ix2 k 0) := by
  have a10 : V8 m outs c main_arg10 = m ((c : Thread nD τ).loc main_arg10) :=
    V8_keep m outs c main_arg10 (by decide) (by decide) (by decide) (by decide) (by decide) (by decide) (by decide) (by decide)
  have a11 : V8 m outs c main_arg11 = m ((c : Thread nD τ).loc main_arg11) :=
    V8_keep m outs c main_arg11 (by decide) (by decide) (by decide) (by decide) (by decide) (by decide) (by decide) (by decide)
  have a12 : V8 m outs c main_arg12 = m ((c : Thread nD τ).loc main_arg12) :=
    V8_keep m outs c main_arg12 (by decide) (by decide) (by decide) (by decide) (by decide) (by decide) (by decide) (by decide)
  have a13 : V8 m outs c main_arg13 = m ((c : Thread nD τ).loc main_arg13) :=
    V8_keep m outs c main_arg13 (by decide) (by decide) (by decide) (by decide) (by decide) (by decide) (by decide) (by decide)
  have a14 : V8 m outs c main_arg14 = m ((c : Thread nD τ).loc main_arg14) :=
    V8_keep m outs c main_arg14 (by decide) (by decide) (by decide) (by decide) (by decide) (by decide) (by decide) (by decide)
  have a15 : V8 m outs c main_arg15 = m ((c : Thread nD τ).loc main_arg15) :=
    V8_keep m outs c main_arg15 (by decide) (by decide) (by decide) (by decide) (by decide) (by decide) (by decide) (by decide)
  refine ⟨?_, ?_, ?_, ?_, ?_, ?_⟩
  · exact (congrFun (s2_2_v90 (V8 m outs c)) (ix2 0 k)).trans ((row_apply _ k).trans (congrFun a10 (ix1 k)))
  · exact (congrFun (s2_2_v91 (V8 m outs c)) (ix2 0 k)).trans ((row_apply _ k).trans (congrFun a11 (ix1 k)))
  · exact (congrFun (s2_2_v92 (V8 m outs c)) (ix2 0 k)).trans ((row_apply _ k).trans (congrFun a12 (ix1 k)))
  · exact (congrFun (s2_2_v93 (V8 m outs c)) (ix2 0 k)).trans ((row_apply _ k).trans (congrFun a13 (ix1 k)))
  · exact (congrFun (s2_2_v94 (V8 m outs c)) (ix2 0 k)).trans ((row_apply _ k).trans (congrFun a14 (ix1 k)))
  · exact (congrFun (s2_2_v95 (V8 m outs c)) (ix2 0 k)).trans
      ((transpose_ix2_apply (V8 m outs c main_arg15 : FVec Ideal S128x1 .f32) transposes_S128x1_S1x128_1_0 0 k).trans (congrFun a15 (ix2 k 0)))

/-- Region 2's pooling inputs: the launch argument main_arg16, the one-entry vector main_arg17 as a 1 × 1 array, and the
    segment ids main_arg2 as a column (set by the first stretch and not written again). -/
theorem V9_misc (c : Dev nD) :
    V9 m outs c main_arg16 = m ((c : Thread nD τ).loc main_arg16)
    ∧ V9 m outs c main_v96 (ix2 0 0) = m ((c : Thread nD τ).loc main_arg17) (ix1 0)
    ∧ ∀ j : Fin 50000, V9 m outs c main_v4 (ix2 j 0) = m ((c : Thread nD τ).loc main_arg2) (ix1 j) := by
  have a17 : V8 m outs c main_arg17 = m ((c : Thread nD τ).loc main_arg17) :=
    V8_keep m outs c main_arg17 (by decide) (by decide) (by decide) (by decide) (by decide) (by decide) (by decide) (by decide)
  have e4 : V9 m outs c main_v4 = fun i => shapeCast S50000x1 (m ((c : Thread nD τ).loc main_arg2) : IVec S50000 32) shapeCasts_S50000_S50000x1 i :=
    (V9_keep m outs c main_v4 (by decide) (by decide) (by decide) (by decide)).trans <| (V5_of m outs c main_v4 (by decide)).trans <|
      (V4_of m outs c main_v4 (by decide)).trans <| (V3_of m outs c main_v4 (by decide)).trans <| (V2_of m outs c main_v4 (by decide)).trans
        (s0_v4 (V0 m c))
  refine ⟨?_, ?_, fun j => ?_⟩
  · exact (V9_keep m outs c main_arg16 (by decide) (by decide) (by decide) (by decide)).trans
      (V5_keep m outs c main_arg16 (by decide) (by decide) (by decide) (by decide) (by decide))
  · exact (congrFun (s2_2_v96 (V8 m outs c)) (ix2 0 0)).trans
      ((shapeCast_a_1a_apply (V8 m outs c main_arg17 : FVec Ideal S1 .f32) shapeCasts_S1_S1x1 0 0).trans (congrFun a17 (ix1 0)))
  · refine (congrFun e4 (ix2 j 0)).trans ?_
    exact shapeCast_apply _ shapeCasts_S50000_S50000x1 (ix2 j 0) (ix1 j) (by
      rw [Shape.rowMajor_val_one, Shape.rowMajor_val_two]
      show j.val = j.val * 1 + 0
      omega)

/-! ## The reference spells the same aggregation -/

section Reference

open Cert.ReferenceIdeal.ReadC

/-- The reference's sources and targets are the kernel's: the same slices, reshapes and concatenation with the self loops. -/
theorem ref_src (x1 : (⟨Cert.ReferenceIdeal.S2x1600000, .i32⟩ : BufTy).Contents (Elt Ideal)) :
    val_main_v6 (F := Ideal) x1 = srcK x1 := rfl
theorem ref_dst (x1 : (⟨Cert.ReferenceIdeal.S2x1600000, .i32⟩ : BufTy).Contents (Elt Ideal)) :
    val_main_v7 (F := Ideal) x1 = dstK x1 := rfl

/-- the reference spells the same aggregation -/
theorem ref_v43_eq (x0 : (⟨Cert.ReferenceIdeal.S50000x128, .f32⟩ : BufTy).Contents (Elt Ideal))
    (x1 : (⟨Cert.ReferenceIdeal.S2x1600000, .i32⟩ : BufTy).Contents (Elt Ideal))
    (x3 : (⟨Cert.ReferenceIdeal.S128x128, .f32⟩ : BufTy).Contents (Elt Ideal)) :
    val_main_v43 (F := Ideal) x0 x1 x3 = aggK (val_main_v4 (F := Ideal) x0 x3) x1 := by
  unfold val_main_v43 val_main_v40 val_main_v37
  generalize val_main_v4 (F := Ideal) x0 x3 = hw
  rfl

/-- and again on its second layer's features. -/
theorem ref_v102_eq (x0 : (⟨Cert.ReferenceIdeal.S50000x128, .f32⟩ : BufTy).Contents (Elt Ideal))
    (x1 : (⟨Cert.ReferenceIdeal.S2x1600000, .i32⟩ : BufTy).Contents (Elt Ideal))
    (x3 : (⟨Cert.ReferenceIdeal.S128x128, .f32⟩ : BufTy).Contents (Elt Ideal))
    (x4 x5 x6 x7 x8 : (⟨Cert.ReferenceIdeal.S128, .f32⟩ : BufTy).Contents (Elt Ideal))
    (x9 : (⟨Cert.ReferenceIdeal.S128x128, .f32⟩ : BufTy).Contents (Elt Ideal)) :
    val_main_v102 (F := Ideal) x0 x1 x3 x4 x5 x6 x7 x8 x9 = aggK (val_main_v63 (F := Ideal) x0 x1 x3 x4 x5 x6 x7 x8 x9) x1 := by
  unfold val_main_v102 val_main_v99 val_main_v96
  generalize val_main_v63 (F := Ideal) x0 x1 x3 x4 x5 x6 x7 x8 x9 = hw
  rfl

end Reference

end Cert.KernelIdeal.Hand

end
-- ==== Proof.KIV.RefForms.lean ====
/-
  The reference's stages read at an index, in the scalar forms of Forms.lean. The reference is a chain of whole-array
  operations; each stage read at entry (r, k) is a scalar expression of the stages before it at entries determined by
  (r, k). Here: the first dense layer x · W1 as a sum over the contraction index; the first normalisation and rectifier
  as the form bnrelu of the aggregated entry and the six per-feature parameters at k; the second dense layer as a sum
  over the rectified entries of row r; the second normalisation and rectifier likewise; and the attention weight of row r
  as the form attn (the logistic of the inner product of row r with the attention vector). The aggregation stages
  (gathers and scatter-adds along the edges) are carried as they stand.
-/
import proofs.«409529_j10797547782216_3_alg».proof.Proof.KIV.ReadC
import proofs.«409529_j10797547782216_3_alg».proof.Proof.KIV.Forms
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefSide

open Cert.ReferenceIdeal Cert.ReferenceIdeal.ReadC Idealize.ShloMosaic Idealize.ShloMosaic.ValueIdx

/-- The f32 word of 1.0 is the extended real 1. -/
theorem ofBits_one_f32 : Ideal.ofBits .f32 0x3F800000#32 = 1 := by
  simp [Ideal.ofBits, Ideal.ieee]
  rw [← EReal.coe_mul, ← EReal.coe_one]
  norm_num

/-! ## Index equations

A per-feature vector f32[128] reaches entry (r, k) of a [50000,128] array through two broadcasts, [128] → [1,128] →
[50000,128]; composed, they read the vector at k. A contraction over the shared axis reads the left operand at (r, q) and
the right operand at (q, j). -/

theorem row_v44_v45 (r : Fin 50000) (k : Fin 128) : idx_main_v44 (idx_main_v45 (ix2 r k)) = ix1 k :=
  funext fun a => Fin.ext (by match a with | ⟨0, _⟩ => rfl)
theorem row_v47_v48 (r : Fin 50000) (k : Fin 128) : idx_main_v47 (idx_main_v48 (ix2 r k)) = ix1 k :=
  funext fun a => Fin.ext (by match a with | ⟨0, _⟩ => rfl)
theorem row_v50_v51 (r : Fin 50000) (k : Fin 128) : idx_main_v50 (idx_main_v51 (ix2 r k)) = ix1 k :=
  funext fun a => Fin.ext (by match a with | ⟨0, _⟩ => rfl)
theorem row_v56_v57 (r : Fin 50000) (k : Fin 128) : idx_main_v56 (idx_main_v57 (ix2 r k)) = ix1 k :=
  funext fun a => Fin.ext (by match a with | ⟨0, _⟩ => rfl)
theorem row_v59_v60 (r : Fin 50000) (k : Fin 128) : idx_main_v59 (idx_main_v60 (ix2 r k)) = ix1 k :=
  funext fun a => Fin.ext (by match a with | ⟨0, _⟩ => rfl)
theorem row_v103_v104 (r : Fin 50000) (k : Fin 128) : idx_main_v103 (idx_main_v104 (ix2 r k)) = ix1 k :=
  funext fun a => Fin.ext (by match a with | ⟨0, _⟩ => rfl)
theorem row_v106_v107 (r : Fin 50000) (k : Fin 128) : idx_main_v106 (idx_main_v107 (ix2 r k)) = ix1 k :=
  funext fun a => Fin.ext (by match a with | ⟨0, _⟩ => rfl)
theorem row_v109_v110 (r : Fin 50000) (k : Fin 128) : idx_main_v109 (idx_main_v110 (ix2 r k)) = ix1 k :=
  funext fun a => Fin.ext (by match a with | ⟨0, _⟩ => rfl)
theorem row_v115_v116 (r : Fin 50000) (k : Fin 128) : idx_main_v115 (idx_main_v116 (ix2 r k)) = ix1 k :=
  funext fun a => Fin.ext (by match a with | ⟨0, _⟩ => rfl)
theorem row_v118_v119 (r : Fin 50000) (k : Fin 128) : idx_main_v118 (idx_main_v119 (ix2 r k)) = ix1 k :=
  funext fun a => Fin.ext (by match a with | ⟨0, _⟩ => rfl)

theorem lidx_v4_ix (r : Fin 50000) (j : Fin 128) (k : Fin 128) : lidx_main_v4 (ix2 r j) k = ix2 r k :=
  funext fun a => Fin.ext (by match a with | ⟨0, _⟩ => rfl | ⟨1, _⟩ => rfl)
theorem ridx_v4_ix (r : Fin 50000) (j : Fin 128) (k : Fin 128) : ridx_main_v4 (ix2 r j) k = ix2 k j :=
  funext fun a => Fin.ext (by match a with | ⟨0, _⟩ => rfl | ⟨1, _⟩ => rfl)
theorem lidx_v63_ix (r : Fin 50000) (j : Fin 128) (k : Fin 128) : lidx_main_v63 (ix2 r j) k = ix2 r k :=
  funext fun a => Fin.ext (by match a with | ⟨0, _⟩ => rfl | ⟨1, _⟩ => rfl)
theorem ridx_v63_ix (r : Fin 50000) (j : Fin 128) (k : Fin 128) : ridx_main_v63 (ix2 r j) k = ix2 k j :=
  funext fun a => Fin.ext (by match a with | ⟨0, _⟩ => rfl | ⟨1, _⟩ => rfl)
theorem lidx_v122_ix (r : Fin 50000) (k : Fin 128) : lidx_main_v122 (ix2 r 0) k = ix2 r k :=
  funext fun a => Fin.ext (by match a with | ⟨0, _⟩ => rfl | ⟨1, _⟩ => rfl)
theorem ridx_v122_ix (r : Fin 50000) (k : Fin 128) : ridx_main_v122 (ix2 r 0) k = ix2 k 0 :=
  funext fun a => Fin.ext (by match a with | ⟨0, _⟩ => rfl | ⟨1, _⟩ => rfl)

/-! ## The stages -/

/-- The first dense layer: entry (r, j) of x · W1 is the sum over k of x (r, k) · W1 (k, j). -/
theorem ref_v4_apply (x0 : (⟨S50000x128, .f32⟩ : BufTy).Contents (Elt Ideal)) (x3 : (⟨S128x128, .f32⟩ : BufTy).Contents (Elt Ideal)) (r : Fin 50000) (j : Fin 128) :
    val_main_v4 (F := Ideal) x0 x3 (ix2 r j) = ∑ k : Fin 128, x0 (ix2 r k) * x3 (ix2 k j) := by
  rw [val_main_v4_apply]
  simp only [lidx_v4_ix, ridx_v4_ix]

/-- The first normalisation and rectifier: entry (r, k) is the form bnrelu of the aggregated entry (r, k), the bias, the
    running mean, the scale, the running variance and the shift at feature k. -/
theorem ref_v62_apply (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 x5 x6 x7 x8 : (⟨S128, .f32⟩ : BufTy).Contents (Elt Ideal)) (r : Fin 50000) (k : Fin 128) :
    val_main_v62 (F := Ideal) x0 x1 x3 x4 x5 x6 x7 x8 (ix2 r k) = Cert.Forms.bnrelu (val_main_v43 (F := Ideal) x0 x1 x3 (ix2 r k)) (x4 (ix1 k)) (x7 (ix1 k)) (x5 (ix1 k)) (x8 (ix1 k)) (x6 (ix1 k)) := by
  rw [val_main_v62_apply, val_main_v61_apply, val_main_v58_apply, val_main_v52_apply, val_main_v49_apply, val_main_v46_apply,
    val_main_v45_apply, val_main_v44_apply, val_main_v48_apply, val_main_v47_apply, val_main_v51_apply, val_main_v50_apply,
    val_main_v57_apply, val_main_v56_apply, val_main_v55_apply, val_main_v54_apply, val_main_v53_apply, val_main_cst_9_apply,
    val_main_v60_apply, val_main_v59_apply, val_main_call1_v0_apply, val_main_call1_cst_apply]
  simp only [row_v44_v45, row_v47_v48, row_v50_v51, row_v56_v57, row_v59_v60, Ideal.addf_def, Ideal.subf_def, Ideal.mulf_def,
    Ideal.maximumf_def, Ideal.hostUnary_rsqrt_def, Ideal.ofBits_def, Cert.Forms.bnrelu]

/-- The second dense layer: entry (r, j) is the sum over k of the rectified entry (r, k) times W2 (k, j). -/
theorem ref_v63_apply (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 x5 x6 x7 x8 : (⟨S128, .f32⟩ : BufTy).Contents (Elt Ideal)) (x9 : (⟨S128x128, .f32⟩ : BufTy).Contents (Elt Ideal)) (r : Fin 50000) (j : Fin 128) :
    val_main_v63 (F := Ideal) x0 x1 x3 x4 x5 x6 x7 x8 x9 (ix2 r j) = ∑ k : Fin 128, val_main_v62 (F := Ideal) x0 x1 x3 x4 x5 x6 x7 x8 (ix2 r k) * x9 (ix2 k j) := by
  rw [val_main_v63_apply]
  simp only [lidx_v63_ix, ridx_v63_ix]

/-- The second normalisation and rectifier: entry (r, k) is the form bnrelu of the second aggregated entry (r, k) and the
    second layer's bias, running mean, scale, running variance and shift at feature k. -/
theorem ref_v121_apply (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (r : Fin 50000) (k : Fin 128) :
    val_main_v121 (F := Ideal) x0 x1 x3 x4 x5 x6 x7 x8 x9 x10 x11 x12 x13 x14 (ix2 r k) = Cert.Forms.bnrelu (val_main_v102 (F := Ideal) x0 x1 x3 x4 x5 x6 x7 x8 x9 (ix2 r k)) (x10 (ix1 k)) (x13 (ix1 k)) (x11 (ix1 k)) (x14 (ix1 k)) (x12 (ix1 k)) := by
  rw [val_main_v121_apply, val_main_v120_apply, val_main_v117_apply, val_main_v111_apply, val_main_v108_apply, val_main_v105_apply,
    val_main_v104_apply, val_main_v103_apply, val_main_v107_apply, val_main_v106_apply, val_main_v110_apply, val_main_v109_apply,
    val_main_v116_apply, val_main_v115_apply, val_main_v114_apply, val_main_v113_apply, val_main_v112_apply, val_main_cst_21_apply,
    val_main_v119_apply, val_main_v118_apply, val_main_call3_v0_apply, val_main_call3_cst_apply]
  simp only [row_v103_v104, row_v106_v107, row_v109_v110, row_v115_v116, row_v118_v119, Ideal.addf_def, Ideal.subf_def, Ideal.mulf_def,
    Ideal.maximumf_def, Ideal.hostUnary_rsqrt_def, Ideal.ofBits_def, Cert.Forms.bnrelu]

/-- The attention weight of row r: negate, exponential, add one, divide one by it, of the inner product of the rectified
    row r with the attention vector, is the logistic of that inner product. -/
theorem ref_v128_apply (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S128x1, .f32⟩ : BufTy).Contents (Elt Ideal)) (r : Fin 50000) :
    val_main_v128 (F := Ideal) x0 x1 x3 x4 x5 x6 x7 x8 x9 x10 x11 x12 x13 x14 x15 (ix2 r 0) = Cert.Forms.attn (fun k => val_main_v121 (F := Ideal) x0 x1 x3 x4 x5 x6 x7 x8 x9 x10 x11 x12 x13 x14 (ix2 r k)) (fun k => x15 (ix2 k 0)) := by
  rw [val_main_v128_apply, val_main_v127_apply, val_main_cst_23_apply, val_main_v126_apply, val_main_v125_apply, val_main_cst_22_apply,
    val_main_v124_apply, val_main_v123_apply, val_main_v122_apply]
  simp only [lidx_v122_ix, ridx_v122_ix, Ideal.addf_def, Ideal.negf_def, Ideal.hostNegf_def, Ideal.hostUnary_exp_def, Ideal.hostDivf_def,
    Ideal.ofBits_def, ofBits_one_f32, Cert.Forms.attn, Ideal.logistic]

end Cert.ReferenceIdeal.RefSide

end
-- ==== Proof.KIV.Bridge1.lean ====
/- The kernel program's first two regions compute the reference's stages, on the extended reals. Region 0 leaves the
   product of the features with the first weight matrix; the host operations between the regions aggregate it along
   the edges; region 1 leaves the product of the normalized, rectified aggregate with the second weight matrix; the
   host operations after it aggregate that along the edges. Each is the reference's array of the same stage, as a
   function of the program's arguments. -/
import proofs.«409529_j10797547782216_3_alg».proof.Proof.KI.Bounds
import proofs.«409529_j10797547782216_3_alg».proof.Proof.KIV.Val0
import proofs.«409529_j10797547782216_3_alg».proof.Proof.KIV.Val1
import proofs.«409529_j10797547782216_3_alg».proof.Proof.KIV.HostSide
import proofs.«409529_j10797547782216_3_alg».proof.Proof.KIV.RefForms
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx Cert.ReferenceIdeal.RefSide

variable (m : (ℓ : Loc nD τ sig) → Buf (Elt Ideal) ℓ)

/-! ## The program's arguments on core `c` -/

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)
abbrev arg4 (c : Dev nD) := m ((c : Thread nD τ).loc main_arg4)
abbrev arg5 (c : Dev nD) := m ((c : Thread nD τ).loc main_arg5)
abbrev arg6 (c : Dev nD) := m ((c : Thread nD τ).loc main_arg6)
abbrev arg7 (c : Dev nD) := m ((c : Thread nD τ).loc main_arg7)
abbrev arg8 (c : Dev nD) := m ((c : Thread nD τ).loc main_arg8)
abbrev arg9 (c : Dev nD) := m ((c : Thread nD τ).loc main_arg9)
abbrev arg10 (c : Dev nD) := m ((c : Thread nD τ).loc main_arg10)
abbrev arg11 (c : Dev nD) := m ((c : Thread nD τ).loc main_arg11)
abbrev arg12 (c : Dev nD) := m ((c : Thread nD τ).loc main_arg12)
abbrev arg13 (c : Dev nD) := m ((c : Thread nD τ).loc main_arg13)
abbrev arg14 (c : Dev nD) := m ((c : Thread nD τ).loc main_arg14)
abbrev arg15 (c : Dev nD) := m ((c : Thread nD τ).loc main_arg15)
abbrev arg16 (c : Dev nD) := m ((c : Thread nD τ).loc main_arg16)
abbrev arg17 (c : Dev nD) := m ((c : Thread nD τ).loc main_arg17)

/-! ## Region 0 is the first dense layer -/

/-- The array region 0 leaves is the reference's first product, features times the first weight matrix. -/
theorem left0_eq (c : Dev nD) : left0 m c = Cert.ReferenceIdeal.ReadC.val_main_v4 (F := Ideal) (arg0 m c) (arg3 m c) := by
  funext i
  obtain ⟨r, j, rfl⟩ : ∃ (r : Fin 50000) (j : Fin 128), i = ix2 r j := ⟨i 0, i 1, eq_ix2 i⟩
  have h0 : Vin0 m c main_arg0 = arg0 m c := (V1_arg m c).1
  have h3 : Vin0 m c main_arg3 = arg3 m c := (V1_arg m c).2
  refine (final0_apply (Vin0 m) c r j).trans ?_
  rw [h0, h3]
  exact (ref_v4_apply (arg0 m c) (arg3 m c) r j).symm

/-- What region 1 reads as its feature array is the reference's first aggregation, of that product along the edges. -/
theorem in1_agg (c : Dev nD) : Vin1 m c main_v44 = Cert.ReferenceIdeal.ReadC.val_main_v43 (F := Ideal) (arg0 m c) (arg1 m c) (arg3 m c) := by
  have h5 : Vin1 m c main_v44 = V5 m (outs m) c main_v44 := (congrFun (V5_eq m c) main_v44).symm
  have h2 : V2 m (outs m) c main_v5 = left0 m c := (congrFun (V2_eq m c) main_v5).trans (Function.update_self _ _ _)
  rw [h5, V5_v44, h2, left0_eq, ref_v43_eq]

/-! ## Region 1 is the first normalisation, the rectifier and the second dense layer -/

/-- The array region 1 leaves is the reference's second product: the normalized, rectified first aggregation times
    the second weight matrix. -/
theorem left1_eq (c : Dev nD) : left1 m c = Cert.ReferenceIdeal.ReadC.val_main_v63 (F := Ideal) (arg0 m c) (arg1 m c) (arg3 m c) (arg4 m c) (arg5 m c) (arg6 m c) (arg7 m c) (arg8 m c) (arg9 m c) := by
  funext i
  obtain ⟨r, j, rfl⟩ : ∃ (r : Fin 50000) (j : Fin 128), i = ix2 r j := ⟨i 0, i 1, eq_ix2 i⟩
  have e5 : ∀ b : Ref sig .tc, Vin1 m c b = V5 m (outs m) c b := fun b => (congrFun (V5_eq m c) b).symm
  refine (final1_apply (Vin1 m) c r j).trans ?_
  refine ((ref_v63_apply (arg0 m c) (arg1 m c) (arg3 m c) (arg4 m c) (arg5 m c) (arg6 m c) (arg7 m c) (arg8 m c) (arg9 m c) r j).trans ?_).symm
  refine Finset.sum_congr rfl fun k _ => ?_
  obtain ⟨r45, r46, r47, r48, r49⟩ := V5_row m (outs m) c k
  have e44 : Vin1 m c main_v44 (ix2 r k) = Cert.ReferenceIdeal.ReadC.val_main_v43 (F := Ideal) (arg0 m c) (arg1 m c) (arg3 m c) (ix2 r k) := congrFun (in1_agg m c) (ix2 r k)
  have e45 : Vin1 m c main_v45 (ix2 0 k) = arg4 m c (ix1 k) := (congrFun (e5 main_v45) (ix2 0 k)).trans r45
  have e46 : Vin1 m c main_v46 (ix2 0 k) = arg5 m c (ix1 k) := (congrFun (e5 main_v46) (ix2 0 k)).trans r46
  have e47 : Vin1 m c main_v47 (ix2 0 k) = arg6 m c (ix1 k) := (congrFun (e5 main_v47) (ix2 0 k)).trans r47
  have e48 : Vin1 m c main_v48 (ix2 0 k) = arg7 m c (ix1 k) := (congrFun (e5 main_v48) (ix2 0 k)).trans r48
  have e49 : Vin1 m c main_v49 (ix2 0 k) = arg8 m c (ix1 k) := (congrFun (e5 main_v49) (ix2 0 k)).trans r49
  have e9 : Vin1 m c main_arg9 (ix2 k j) = arg9 m c (ix2 k j) := congrFun ((e5 main_arg9).trans (V5_arg9 m (outs m) c)) (ix2 k j)
  rw [ref_v62_apply, e44, e45, e46, e47, e48, e49, e9]

/-- What region 2 reads as its feature array is the reference's second aggregation, of that product along the edges. -/
theorem in2_agg (c : Dev nD) : Vin2 m c main_v89 = Cert.ReferenceIdeal.ReadC.val_main_v102 (F := Ideal) (arg0 m c) (arg1 m c) (arg3 m c) (arg4 m c) (arg5 m c) (arg6 m c) (arg7 m c) (arg8 m c) (arg9 m c) := by
  have h9 : Vin2 m c main_v89 = V9 m (outs m) c main_v89 := (congrFun (V9_eq m c) main_v89).symm
  have h6 : V6 m (outs m) c main_v50 = left1 m c := (congrFun (V6_eq m c) main_v50).trans (Function.update_self _ _ _)
  rw [h9, V9_v89, h6, left1_eq, ref_v102_eq]

end Cert.KernelIdeal.Hand

end
-- ==== Proof.KIV.Val2a.lean ====
/-
  The pooling region read at an index. At grid point t the kernel's blocks are rows [2000 t, 2000 t + 2000) of the
  aggregated features and of the segment ids, and the whole of each parameter row (bias, scale, shift, mean, variance,
  attention vector, classifier vector and bias). Entry (r, k) of the rectified, normalised block is the scalar form
  bnrelu of entry (2000 t + r, k) of the features and the k-th entries of the parameter rows; the attention weight of
  row r of the block is the logistic of the inner product of that row with the attention vector, a sum over the 128
  lanes. The output blocks of attention weights tile the array of 50000 rows, each point writing its own 2000 rows, so
  after the last point row j of the array holds the attention weight of feature row j.
-/
import proofs.«409529_j10797547782216_3_alg».proof.Proof.KI.Reg2Defs
import proofs.«409529_j10797547782216_3_alg».proof.Proof.KIV.Forms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The closed forms -/

/-- Row r of the block at point t is row 2000 t + r of the array. -/
def rowOf (t : Fin cfg2.N) (r : Fin 2000) : Fin 50000 := ⟨2000 * t.val + r.val, by have := t.isLt; have h : cfg2.N = 25 := Gen.N_2; have := r.isLt; omega⟩

/-- Entry (j, k) of the rectified, normalised features: the scalar form of entry (j, k) of the aggregated features and the
    k-th entries of the bias, mean, scale, variance and shift rows. -/
def feat2 (c : Dev nD) (j : Fin 50000) (k : Fin 128) : EReal :=
  Cert.Forms.bnrelu (V c main_v89 (ix2 j k)) (V c main_v90 (ix2 0 k)) (V c main_v93 (ix2 0 k)) (V c main_v91 (ix2 0 k)) (V c main_v94 (ix2 0 k)) (V c main_v92 (ix2 0 k))

/-- The attention weight of feature row j: the logistic of its inner product with the attention vector. -/
def att2 (c : Dev nD) (j : Fin 50000) : EReal := Cert.Forms.attn (feat2 V c j) (fun k => V c main_v95 (ix2 0 k))

/-! ## The windows' blocks at an index -/

/-- The index maps over the grid: the feature rows, the segment ids and the attention weights move with the point along
    the rows; every parameter row stays at block 0. -/
theorem idx2_facts : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0)
    ∧ (win2_10.index t (0 : Fin 2) = t.val ∧ win2_10.index t (1 : Fin 2) = 0) :=
  (by decide +kernel : ∀ t : Fin grid2.N, _)

/-- Each block read at an index is its array read at the block's offset plus the index: 2000 t rows down for the three
    row-blocked windows, no offset for the parameter rows. -/
theorem rows2_apply (c : Dev nD) (t : Fin cfg2.N) (r : Fin 2000) (k : Fin 128) :
    rows2 V c t (ix2 r k) = V c main_v89 (ix2 (rowOf t r) k) := by
  show V c main_v89 (((cfg2.win 0).blk t).view.emb (ix2 r k)) = V c main_v89 (ix2 (rowOf t r) k)
  obtain ⟨⟨e0, e1⟩, -⟩ := idx2_facts t
  congr 1
  funext a; apply Fin.ext
  match a with
  | ⟨0, _⟩ => show win2_0.index t (0 : Fin 2) * 2000 + 1 * r.val = 2000 * t.val + r.val; omega
  | ⟨1, _⟩ => show win2_0.index t (1 : Fin 2) * 128 + 1 * k.val = k.val; omega

theorem bias2_apply (c : Dev nD) (t : Fin cfg2.N) (k : Fin 128) :
    bias2 V c t (ix2 0 k) = V c main_v90 (ix2 0 k) := by
  show V c main_v90 (((cfg2.win 1).blk t).view.emb (ix2 0 k)) = V c main_v90 (ix2 0 k)
  obtain ⟨-, ⟨e0, e1⟩, -⟩ := idx2_facts t
  congr 1
  funext a; apply Fin.ext
  match a with
  | ⟨0, _⟩ => show win2_1.index t (0 : Fin 2) * 1 + 1 * 0 = 0; omega
  | ⟨1, _⟩ => show win2_1.index t (1 : Fin 2) * 128 + 1 * k.val = k.val; omega

theorem scale2_apply (c : Dev nD) (t : Fin cfg2.N) (k : Fin 128) :
    scale2 V c t (ix2 0 k) = V c main_v91 (ix2 0 k) := by
  show V c main_v91 (((cfg2.win 2).blk t).view.emb (ix2 0 k)) = V c main_v91 (ix2 0 k)
  obtain ⟨-, -, ⟨e0, e1⟩, -⟩ := idx2_facts t
  congr 1
  funext a; apply Fin.ext
  match a with
  | ⟨0, _⟩ => show win2_2.index t (0 : Fin 2) * 1 + 1 * 0 = 0; omega
  | ⟨1, _⟩ => show win2_2.index t (1 : Fin 2) * 128 + 1 * k.val = k.val; omega

theorem shift2_apply (c : Dev nD) (t : Fin cfg2.N) (k : Fin 128) :
    shift2 V c t (ix2 0 k) = V c main_v92 (ix2 0 k) := by
  show V c main_v92 (((cfg2.win 3).blk t).view.emb (ix2 0 k)) = V c main_v92 (ix2 0 k)
  obtain ⟨-, -, -, ⟨e0, e1⟩, -⟩ := idx2_facts t
  congr 1
  funext a; apply Fin.ext
  match a with
  | ⟨0, _⟩ => show win2_3.index t (0 : Fin 2) * 1 + 1 * 0 = 0; omega
  | ⟨1, _⟩ => show win2_3.index t (1 : Fin 2) * 128 + 1 * k.val = k.val; omega

theorem mean2_apply (c : Dev nD) (t : Fin cfg2.N) (k : Fin 128) :
    mean2 V c t (ix2 0 k) = V c main_v93 (ix2 0 k) := by
  show V c main_v93 (((cfg2.win 4).blk t).view.emb (ix2 0 k)) = V c main_v93 (ix2 0 k)
  obtain ⟨-, -, -, -, ⟨e0, e1⟩, -⟩ := idx2_facts t
  congr 1
  funext a; apply Fin.ext
  match a with
  | ⟨0, _⟩ => show win2_4.index t (0 : Fin 2) * 1 + 1 * 0 = 0; omega
  | ⟨1, _⟩ => show win2_4.index t (1 : Fin 2) * 128 + 1 * k.val = k.val; omega

theorem var2_apply (c : Dev nD) (t : Fin cfg2.N) (k : Fin 128) :
    var2 V c t (ix2 0 k) = V c main_v94 (ix2 0 k) := by
  show V c main_v94 (((cfg2.win 5).blk t).view.emb (ix2 0 k)) = V c main_v94 (ix2 0 k)
  obtain ⟨-, -, -, -, -, ⟨e0, e1⟩, -⟩ := idx2_facts t
  congr 1
  funext a; apply Fin.ext
  match a with
  | ⟨0, _⟩ => show win2_5.index t (0 : Fin 2) * 1 + 1 * 0 = 0; omega
  | ⟨1, _⟩ => show win2_5.index t (1 : Fin 2) * 128 + 1 * k.val = k.val; omega

theorem attw2_apply (c : Dev nD) (t : Fin cfg2.N) (k : Fin 128) :
    attw2 V c t (ix2 0 k) = V c main_v95 (ix2 0 k) := by
  show V c main_v95 (((cfg2.win 6).blk t).view.emb (ix2 0 k)) = V c main_v95 (ix2 0 k)
  obtain ⟨-, -, -, -, -, -, ⟨e0, e1⟩, -⟩ := idx2_facts t
  congr 1
  funext a; apply Fin.ext
  match a with
  | ⟨0, _⟩ => show win2_6.index t (0 : Fin 2) * 1 + 1 * 0 = 0; omega
  | ⟨1, _⟩ => show win2_6.index t (1 : Fin 2) * 128 + 1 * k.val = k.val; omega

theorem clsw2_apply (c : Dev nD) (t : Fin cfg2.N) (k : Fin 128) :
    clsw2 V c t (ix2 0 k) = V c main_arg16 (ix2 0 k) := by
  show V c main_arg16 (((cfg2.win 7).blk t).view.emb (ix2 0 k)) = V c main_arg16 (ix2 0 k)
  obtain ⟨-, -, -, -, -, -, -, ⟨e0, e1⟩, -⟩ := idx2_facts t
  congr 1
  funext a; apply Fin.ext
  match a with
  | ⟨0, _⟩ => show win2_7.index t (0 : Fin 2) * 1 + 1 * 0 = 0; omega
  | ⟨1, _⟩ => show win2_7.index t (1 : Fin 2) * 128 + 1 * k.val = k.val; omega

theorem clsb2_apply (c : Dev nD) (t : Fin cfg2.N) :
    clsb2 V c t (ix2 0 0) = V c main_v96 (ix2 0 0) := by
  show V c main_v96 (((cfg2.win 8).blk t).view.emb (ix2 0 0)) = V c main_v96 (ix2 0 0)
  obtain ⟨-, -, -, -, -, -, -, -, ⟨e0, e1⟩, -⟩ := idx2_facts t
  congr 1
  funext a; apply Fin.ext
  match a with
  | ⟨0, _⟩ => show win2_8.index t (0 : Fin 2) * 1 + 1 * 0 = 0; omega
  | ⟨1, _⟩ => show win2_8.index t (1 : Fin 2) * 1 + 1 * 0 = 0; omega

theorem segs2_apply (c : Dev nD) (t : Fin cfg2.N) (r : Fin 2000) :
    segs2 V c t (ix2 r 0) = V c main_v4 (ix2 (rowOf t r) 0) := by
  show V c main_v4 (((cfg2.win 9).blk t).view.emb (ix2 r 0)) = V c main_v4 (ix2 (rowOf t r) 0)
  obtain ⟨-, -, -, -, -, -, -, -, -, ⟨e0, e1⟩, -⟩ := idx2_facts t
  congr 1
  funext a; apply Fin.ext
  match a with
  | ⟨0, _⟩ => show win2_9.index t (0 : Fin 2) * 2000 + 1 * r.val = 2000 * t.val + r.val; omega
  | ⟨1, _⟩ => show win2_9.index t (1 : Fin 2) * 1 + 1 * 0 = 0; omega

/-! ## The layout steps the body takes, at an index -/

/-- A vector of length a cast to a column [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The body's two values at an index, over any blocks -/

section Pay
variable (x : Vec Ideal S2000x128 .f32) (b mu g var be aw : Vec Ideal S1x128 .f32)

/-- Entry (r, k) of the rectified, normalised block: every step is pointwise, the parameter rows broadcast over the
    block's rows. -/
theorem pay4_apply (r : Fin 2000) (k : Fin 128) :
    k2_pay4 x b mu g var be (ix2 r k)
      = Cert.Forms.bnrelu (x (ix2 r k)) (b (ix2 0 k)) (mu (ix2 0 k)) (g (ix2 0 k)) (var (ix2 0 k)) (be (ix2 0 k)) := by
  unfold k2_pay4 Cert.Forms.bnrelu
  simp only [shapeCast_self]
  simp only [maximumf_apply, addf_apply, mulf_apply, subf_apply, broadcast_apply, broadcastTo_1b_ab_apply]
  rfl

/-- The sum along the lanes of a [2000, 128] block, at row r: the sum over k of its entries (r, k). -/
theorem lane_sum (v : FVec Ideal S2000x128 .f32) (hφ : FKind.Formats .f32) (hacc : (0x00000000#32 : BitVec 32) = 0x00000000#32) (r : Fin 2000) :
    multiReduction .add [1] S2000 v 0x00000000#32 reduces_S2000x128_S2000 hφ hacc (ix1 r) = ∑ k : Fin 128, v (ix2 r k) := by
  refine (Ideal.multiReduction_add_single v 0x00000000#32 reduces_S2000x128_S2000 hφ hacc (ix1 r)).trans ?_
  show ∑ k : Fin 128, _ = _
  refine Finset.sum_congr rfl fun k _ => congrArg v ?_
  funext a; apply Fin.ext
  match a with
  | ⟨0, _⟩ => rfl
  | ⟨1, _⟩ => rfl

/-- The attention weight of row r of the block: the logistic of the lane sum of the row times the attention vector. -/
theorem pay5_apply (r : Fin 2000) :
    k2_pay5 x b mu g var be aw (ix2 r 0)
      = Cert.Forms.attn (fun k => Cert.Forms.bnrelu (x (ix2 r k)) (b (ix2 0 k)) (mu (ix2 0 k)) (g (ix2 0 k)) (var (ix2 0 k)) (be (ix2 0 k)))
          (fun k => aw (ix2 0 k)) := by
  unfold k2_pay5 Cert.Forms.attn
  simp only [shapeCast_self]
  show Ideal.logistic (shapeCast S2000x1 _ _ (ix2 r 0)) = _
  rw [shapeCast_a_a1_apply, lane_sum]
  congr 1
  refine Finset.sum_congr rfl fun k _ => ?_
  rw [mulf_apply, pay4_apply, broadcastTo_1b_ab_apply]
end Pay

/-! ## The body's two values at a point, over the arrays -/

theorem hP_apply (c : Dev nD) (t : Fin cfg2.N) (r : Fin 2000) (k : Fin 128) : hP V c t (ix2 r k) = feat2 V c (rowOf t r) k := by
  unfold hP feat2
  rw [pay4_apply, rows2_apply, bias2_apply, mean2_apply, scale2_apply, var2_apply, shift2_apply]

theorem aP_apply (c : Dev nD) (t : Fin cfg2.N) (r : Fin 2000) : aP V c t (ix2 r 0) = att2 V c (rowOf t r) := by
  unfold aP att2 feat2
  rw [pay5_apply]
  simp only [rows2_apply, bias2_apply, mean2_apply, scale2_apply, var2_apply, shift2_apply, attw2_apply]

/-! ## The attention weights as one array -/

/-- An index of the array of attention weights is in point t's block iff each coordinate is in the block's range. -/
theorem mem_blk2_10 (t : Fin cfg2.N) (i : S50000x1.Idx) :
    i ∈ ((cfg2.win 10).blk t).view.set ↔ ∀ a : Fin 2, win2_10.index t a * S2000x1.size a ≤ (i a).val ∧ (i a).val < win2_10.index t a * S2000x1.size a + S2000x1.size a := by
  show i ∈ ((View.whole main_v97_0).slice (win2_10.rect t)).set ↔ _
  rw [View.set_slice_whole, Rect.mem_set_unit]
  exact Iff.rfl

/-- What point t writes back is block t of the column whose row j holds the attention weight of feature row j. -/
theorem flushed2_10_eq (c : Dev nD) (t : Fin cfg2.N) :
    (dat2 (F := Ideal) V c).flushed 10 t = ((cfg2.win 10).blk t).view.read (Elt Ideal) (fun i : S50000x1.Idx => att2 V c (i 0)) := by
  show (cfg2.win 10).cut (grid2.coords t) ((dat2 (F := Ideal) V c).after 10 t) = _
  rw [after2_10]
  funext j
  revert j
  show ∀ j : S2000x1.Idx, aP V c t j = att2 V c ((((cfg2.win 10).blk t).view.emb j) 0)
  intro j
  obtain ⟨r, u, rfl⟩ : ∃ (r : Fin 2000) (u : Fin 1), j = ix2 r u := ⟨j 0, j 1, eq_ix2 j⟩
  obtain rfl : u = 0 := Fin.ext (by omega)
  rw [aP_apply]
  congr 1
  obtain ⟨-, -, -, -, -, -, -, -, -, -, ⟨e0, e1⟩⟩ := idx2_facts t
  apply Fin.ext
  show 2000 * t.val + r.val = win2_10.index t (0 : Fin 2) * 2000 + 1 * r.val
  omega

/-- Every row of the array is in some point's block: row j in that of point j / 2000. -/
theorem cover2_10 (i : S50000x1.Idx) : ∃ t : Fin cfg2.N, (cfg2.win 10).flush t = true ∧ i ∈ ((cfg2.win 10).blk t).view.set := by
  have hi0 : (i 0).val < 50000 := (i 0).isLt
  have hi1 : (i 1).val < 1 := (i 1).isLt
  have hN : cfg2.N = 25 := Gen.N_2
  refine ⟨⟨(i 0).val / 2000, by omega⟩, flush2_10 _, ?_⟩
  rw [mem_blk2_10]
  obtain ⟨-, -, -, -, -, -, -, -, -, -, ⟨e0, e1⟩⟩ := idx2_facts ⟨(i 0).val / 2000, by omega⟩
  intro a
  match a with
  | ⟨0, _⟩ =>
    show win2_10.index ⟨(i 0).val / 2000, _⟩ (0 : Fin 2) * 2000 ≤ (i 0).val ∧ (i 0).val < win2_10.index ⟨(i 0).val / 2000, _⟩ (0 : Fin 2) * 2000 + 2000
    rw [e0]; show (i 0).val / 2000 * 2000 ≤ (i 0).val ∧ (i 0).val < (i 0).val / 2000 * 2000 + 2000
    omega
  | ⟨1, _⟩ =>
    show win2_10.index ⟨(i 0).val / 2000, _⟩ (1 : Fin 2) * 1 ≤ (i 1).val ∧ (i 1).val < win2_10.index ⟨(i 0).val / 2000, _⟩ (1 : Fin 2) * 1 + 1
    rw [e1]; omega

/-- The array of attention weights after the run. -/
theorem final_att (c : Dev nD) :
    (dat2 (F := Ideal) V c).arrAt 10 cfg2.N = fun i : S50000x1.Idx => att2 V c (i 0) :=
  (dat2 (F := Ideal) V c).arrAt_eq_of_cover 10 _ (fun t _ => flushed2_10_eq V c t) cover2_10

theorem final_att_apply (c : Dev nD) (j : Fin 50000) : (dat2 (F := Ideal) V c).arrAt 10 cfg2.N (ix2 j 0) = att2 V c j := by
  rw [final_att]

end Cert.KernelIdeal.Hand

end
-- ==== Proof.KIV.PoolMath.lean ====
import Mathlib.Algebra.BigOperators.Fin
import Mathlib.Algebra.BigOperators.Group.Finset.Basic
import Mathlib.Data.Fintype.BigOperators
import Mathlib.Logic.Equiv.Fin.Basic
import Mathlib.Data.EReal.Basic

/-!
Sums over blocks and over filtered index sets.

A sum over 50000 rows, read as 25 consecutive blocks of 2000 rows, is the double sum over
(block, row in block).  A sum weighted by a 0/1 indicator is the sum over the indices where the
indicator is 1.  Prefix sums over the first blocks grow one block at a time.
-/

open BigOperators

namespace Cert.PoolMath

/-- The row index `2000 * t + r` runs over `Fin 50000` exactly once as `(t, r)` runs over
`Fin 25 × Fin 2000`: this is the division-with-remainder bijection. -/
theorem sum_blocks {M : Type} [AddCommMonoid M] (f : Fin 50000 → M) :
    ∑ t : Fin 25, ∑ r : Fin 2000, f ⟨2000 * t.val + r.val, by omega⟩ = ∑ j : Fin 50000, f j := by
  rw [← Equiv.sum_comp (finProdFinEquiv : Fin 25 × Fin 2000 ≃ Fin 50000) f, Fintype.sum_prod_type]
  refine Finset.sum_congr rfl fun t _ => Finset.sum_congr rfl fun r _ => ?_
  congr 1
  apply Fin.ext
  simp only [finProdFinEquiv_apply_val]
  omega

/-- Multiplying by a 0/1 indicator keeps the terms where the predicate holds and turns the other
terms into `0` (on the extended reals `0 * x = 0` for every `x`). -/
theorem sum_indicator_mul {n : Nat} (p : Fin n → Prop) [DecidablePred p] (x : Fin n → EReal) :
    ∑ j : Fin n, (if p j then (1 : EReal) else 0) * x j = ∑ j ∈ Finset.univ.filter p, x j := by
  rw [Finset.sum_filter]
  refine Finset.sum_congr rfl fun j _ => ?_
  by_cases hj : p j
  · rw [if_pos hj, if_pos hj, one_mul]
  · rw [if_neg hj, if_neg hj, zero_mul]

/-- The indices `≤ n + 1` are the indices `≤ n` together with the new index `n + 1`. -/
theorem sum_points_le_succ {M : Type} [AddCommMonoid M] (f : Fin 25 → M) (n : Nat)
    (hn : n + 1 < 25) :
    ∑ t ∈ Finset.univ.filter (fun t : Fin 25 => t.val ≤ n + 1), f t
      = (∑ t ∈ Finset.univ.filter (fun t : Fin 25 => t.val ≤ n), f t) + f ⟨n + 1, hn⟩ := by
  have hset : Finset.univ.filter (fun t : Fin 25 => t.val ≤ n + 1)
      = insert (⟨n + 1, hn⟩ : Fin 25) (Finset.univ.filter (fun t : Fin 25 => t.val ≤ n)) := by
    ext t
    simp only [Finset.mem_filter, Finset.mem_univ, true_and, Finset.mem_insert, Fin.ext_iff]
    omega
  have hnot : (⟨n + 1, hn⟩ : Fin 25) ∉ Finset.univ.filter (fun t : Fin 25 => t.val ≤ n) := by
    simp only [Finset.mem_filter, Finset.mem_univ, true_and]
    omega
  rw [hset, Finset.sum_insert hnot, add_comm]

/-- Only the index `0` is `≤ 0`. -/
theorem sum_points_le_zero {M : Type} [AddCommMonoid M] (f : Fin 25 → M) :
    ∑ t ∈ Finset.univ.filter (fun t : Fin 25 => t.val ≤ 0), f t = f ⟨0, by decide⟩ := by
  have hset : Finset.univ.filter (fun t : Fin 25 => t.val ≤ 0) = {(⟨0, by decide⟩ : Fin 25)} := by
    ext t
    simp only [Finset.mem_filter, Finset.mem_univ, true_and, Finset.mem_singleton, Fin.ext_iff]
    omega
  rw [hset, Finset.sum_singleton]

/-- Every index of `Fin 25` is `≤ 24`. -/
theorem sum_points_le_last {M : Type} [AddCommMonoid M] (f : Fin 25 → M) :
    ∑ t ∈ Finset.univ.filter (fun t : Fin 25 => t.val ≤ 24), f t = ∑ t : Fin 25, f t := by
  have hset : Finset.univ.filter (fun t : Fin 25 => t.val ≤ 24) = Finset.univ := by
    ext t
    simp only [Finset.mem_filter, Finset.mem_univ, true_and, iff_true]
    omega
  rw [hset]

/-- A 32-bit word is the numeral `g < 64` exactly when its signed reading is `g`: the numeral is
below `2 ^ 31`, so signed and unsigned readings agree there, and a word is determined by its
unsigned reading. -/
theorem bv_eq_ofNat_iff_toInt (b : BitVec 32) (g : Fin 64) :
    b = BitVec.ofNat 32 g.val ↔ b.toInt = (g.val : ℤ) := by
  have hb : b.toNat < 2 ^ 32 := b.isLt
  have hg : g.val < 64 := g.isLt
  constructor
  · intro h
    have hn : b.toNat = g.val := by
      rw [h, BitVec.toNat_ofNat]
      omega
    rw [BitVec.toInt_eq_toNat_cond, hn]
    split <;> omega
  · intro h
    apply BitVec.eq_of_toNat_eq
    rw [BitVec.toNat_ofNat]
    rw [BitVec.toInt_eq_toNat_cond] at h
    split at h <;> omega

/-- Two pointwise equivalent predicates select the same indices. -/
theorem sum_filter_congr_prop {n : Nat} {M : Type} [AddCommMonoid M] (p q : Fin n → Prop)
    [DecidablePred p] [DecidablePred q] (h : ∀ j, p j ↔ q j) (x : Fin n → M) :
    ∑ j ∈ Finset.univ.filter p, x j = ∑ j ∈ Finset.univ.filter q, x j := by
  have hset : Finset.univ.filter p = Finset.univ.filter q :=
    Finset.filter_congr fun j _ => h j
  rw [hset]

end Cert.PoolMath
-- ==== Proof.KIV.Val2b.lean ====
/-
  The pooling region at an index. Each grid point t adds to entry (g, k) of a 64 x 128 accumulator the sum, over the rows
  r of its block whose segment id is g, of the rectified feature h(r, k) times the attention weight a(r): the kernel writes
  this as a product contracting the rows of a 0/1 matrix (entry (r, g) is 1 exactly when row r's segment id is g) with the
  weighted block. The accumulator starts at zero, the 25 blocks of 2000 rows tile the 50000 rows, so after the last point
  entry (g, k) is the sum over ALL rows whose segment id is g of feature times weight: the pooled features. At the last
  point the body contracts each row of the accumulator with the classifier vector along the 128 lanes and adds the bias;
  the second output's window is the whole 64 x 1 array, written back at that point only, so the array after the run holds
  these group scores.
-/
import proofs.«409529_j10797547782216_3_alg».proof.Proof.KI.Reg2Defs
import proofs.«409529_j10797547782216_3_alg».proof.Proof.KIV.Val2a
import proofs.«409529_j10797547782216_3_alg».proof.Proof.KIV.PoolMath
import proofs.«409529_j10797547782216_3_alg».proof.Proof.KIV.Forms
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The one-hot product's operand indices

The product contracts axis 0 of both operands: at output entry (g, k) and contraction position r the left operand is read
at (r, g) and the right at (r, k). -/

theorem lhs_pool_0 (i : S64x128.Idx) (q : dot_S2000x64_S2000x128_S64x128_0_0_1_1_n_n.contr.Idx) :
    (dot_S2000x64_S2000x128_S64x128_0_0_1_1_n_n.lhsIdx i q 0).val = (q ⟨0, by decide⟩).val :=
  dot_S2000x64_S2000x128_S64x128_0_0_1_1_n_n.lhsIdx_val_of_single rfl i q
theorem lhs_pool_1 (i : S64x128.Idx) (q : dot_S2000x64_S2000x128_S64x128_0_0_1_1_n_n.contr.Idx) :
    (dot_S2000x64_S2000x128_S64x128_0_0_1_1_n_n.lhsIdx i q 1).val = (i 0).val := by
  unfold DotDims.lhsIdx
  rw [dif_neg (show ¬(1 : Fin S2000x64.rank) ∈ dot_S2000x64_S2000x128_S64x128_0_0_1_1_n_n.lhsBatch by decide), dif_pos (show (1 : Fin S2000x64.rank) ∈ dot_S2000x64_S2000x128_S64x128_0_0_1_1_n_n.lhsNonContracting by decide)]
  rfl
theorem rhs_pool_0 (i : S64x128.Idx) (q : dot_S2000x64_S2000x128_S64x128_0_0_1_1_n_n.contr.Idx) :
    (dot_S2000x64_S2000x128_S64x128_0_0_1_1_n_n.rhsIdx i q 0).val = (q ⟨0, by decide⟩).val :=
  dot_S2000x64_S2000x128_S64x128_0_0_1_1_n_n.rhsIdx_val_of_single rfl i q
theorem rhs_pool_1 (i : S64x128.Idx) (q : dot_S2000x64_S2000x128_S64x128_0_0_1_1_n_n.contr.Idx) :
    (dot_S2000x64_S2000x128_S64x128_0_0_1_1_n_n.rhsIdx i q 1).val = (i 1).val := by
  unfold DotDims.rhsIdx
  rw [dif_neg (show ¬(1 : Fin S2000x128.rank) ∈ dot_S2000x64_S2000x128_S64x128_0_0_1_1_n_n.rhsBatch by decide), dif_pos (show (1 : Fin S2000x128.rank) ∈ dot_S2000x64_S2000x128_S64x128_0_0_1_1_n_n.rhsNonContracting by decide)]
  rfl

/-! ## The body's three values at an index, over any blocks -/

/-- A column [a,1] copied along the lanes to [a,b], read at (p, c): the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The accumulator step at an index: the one-hot product adds to entry (g, k) the sum over the block's rows whose segment
    id is g of h · a. Both roundings to the narrower format are the identity on the extended reals, the 0/1 matrix's entry
    is the comparison of the row's segment id with the lane number g, and the literal words 1.0 and 0.0 are the reals 1, 0. -/
theorem pay1_apply (h : Vec Ideal S2000x128 .f32) (a : Vec Ideal S2000x1 .f32) (s : Vec Ideal S2000x1 .i32) (acc : Vec Ideal S64x128 .f32) (g : Fin 64) (k : Fin 128) :
    k2_pay1 (F := Ideal) h a s acc (ix2 g k) = acc (ix2 g k) + ∑ r : Fin 2000, (if s (ix2 r 0) = BitVec.ofNat 32 g.val then (1 : EReal) else 0) * (h (ix2 r k) * a (ix2 r 0)) := by
  unfold k2_pay1
  simp only [shapeCast_self, matmul]
  rw [addf_apply, Ideal.matmul_constant_zero_apply, ← Equiv.sum_comp (contrEquiv1 dot_S2000x64_S2000x128_S64x128_0_0_1_1_n_n 2000 rfl rfl).symm]
  congr 1
  refine Finset.sum_congr rfl fun r _ => ?_
  have hk := contrEquiv1_symm_val dot_S2000x64_S2000x128_S64x128_0_0_1_1_n_n 2000 rfl rfl r
  have el : dot_S2000x64_S2000x128_S64x128_0_0_1_1_n_n.lhsIdx (ix2 g k) ((contrEquiv1 dot_S2000x64_S2000x128_S64x128_0_0_1_1_n_n 2000 rfl rfl).symm r) = (ix2 r g : S2000x64.Idx) := funext fun a => Fin.ext (by
    match a with
    | ⟨0, _⟩ => exact (lhs_pool_0 _ _).trans hk
    | ⟨1, _⟩ => exact lhs_pool_1 _ _)
  have er : dot_S2000x64_S2000x128_S64x128_0_0_1_1_n_n.rhsIdx (ix2 g k) ((contrEquiv1 dot_S2000x64_S2000x128_S64x128_0_0_1_1_n_n 2000 rfl rfl).symm r) = (ix2 r k : S2000x128.Idx) := funext fun a => Fin.ext (by
    match a with
    | ⟨0, _⟩ => exact (rhs_pool_0 _ _).trans hk
    | ⟨1, _⟩ => exact rhs_pool_1 _ _)
  rw [el, er]
  simp only [truncf_apply, select_apply, mulf_apply, broadcast_apply]
  rw [broadcastTo_a1_ab_apply a broadcasts_S2000x1_S2000x128 r k]
  congr 1
  show Scalar.select (IntOp.cmpi .eq (broadcastTo S2000x64 s broadcasts_S2000x1_S2000x64 (ix2 r g))
      (broadcastTo S2000x64 (iota Kind.tc S1x64 32 [1] iota_S1x64_d1_w32) broadcasts_S1x64_S2000x64 (ix2 r g)))
    (Ideal.ofBits .f32 0x3F800000#32) (Ideal.ofBits .f32 0x00000000#32) = _
  rw [broadcastTo_a1_ab_apply s broadcasts_S2000x1_S2000x64 r g, broadcastTo_1b_ab_apply _ broadcasts_S1x64_S2000x64 r g,
    iota_single_apply, Ideal.ofBits_one_f32, Ideal.ofBits_zero_f32]
  show Scalar.select (IntOp.cmpi .eq (s (ix2 r 0)) (BitVec.ofNat 32 g.val)) (1 : EReal) 0 = _
  unfold Scalar.select
  by_cases hs : s (ix2 r 0) = BitVec.ofNat 32 g.val
  · rw [if_pos hs]; exact if_pos (IntOp.cmpi_eq.mpr hs)
  · rw [if_neg hs]; exact if_neg (fun h => hs (IntOp.cmpi_eq.mp h))

/-- The cleared accumulator is zero at every entry. -/
theorem pay3_apply (i : S64x128.Idx) : (k2_pay3 (F := Ideal)) i = 0 := by
  unfold k2_pay3
  simp only [shapeCast_self]
  show Ideal.ofBits .f32 0x00000000#32 = 0
  exact Ideal.ofBits_zero_f32

/-- The group scores at an index: row g of the accumulator against the classifier vector, summed along the lanes, plus
    the bias. -/
theorem pay2_apply (acc : Vec Ideal S64x128 .f32) (w : Vec Ideal S1x128 .f32) (b : Vec Ideal S1x1 .f32) (g : Fin 64) :
    k2_pay2 (F := Ideal) acc w b (ix2 g 0) = (∑ k : Fin 128, acc (ix2 g k) * w (ix2 0 k)) + b (ix2 0 0) := by
  unfold k2_pay2
  simp only [shapeCast_self]
  rw [addf_apply, broadcastTo_1b_ab_apply b broadcasts_S1x1_S64x1 g (0 : Fin 1), shapeCast_a_a1_apply _ shapeCasts_S64_S64x1 g (0 : Fin 1)]
  congr 1
  refine (Ideal.multiReduction_add_single _ 0x00000000#32 reduces_S64x128_S64 (.inl rfl) rfl (ix1 g)).trans ?_
  refine Finset.sum_congr rfl fun (k : Fin 128) _ => ?_
  have e : reduces_S64x128_S64.lift (ix1 g) k = (ix2 g k : S64x128.Idx) :=
    funext fun a => Fin.ext (by match a with | ⟨0, _⟩ => rfl | ⟨1, _⟩ => rfl)
  rw [e, mulf_apply, broadcastTo_1b_ab_apply w broadcasts_S1x128_S64x128 g k]

/-! ## The accumulator as a sum over the grid points -/

/-- The pooled features of group g: the sum over ALL rows whose segment id is g. -/
def pooled2 (c : Dev nD) (g : Fin 64) (k : Fin 128) : EReal :=
  ∑ j ∈ Finset.univ.filter (fun j : Fin 50000 => V c main_v4 (ix2 j 0) = BitVec.ofNat 32 g.val), feat2 V c j k * att2 V c j

/-- What block t adds to entry (g, k): the sum over the block's rows whose segment id is g of feature times weight. -/
def blockSum2 (c : Dev nD) (g : Fin 64) (k : Fin 128) (t : Fin cfg2.N) : EReal :=
  ∑ r : Fin 2000, (if V c main_v4 (ix2 (rowOf t r) 0) = BitVec.ofNat 32 g.val then (1 : EReal) else 0)
    * (feat2 V c (rowOf t r) k * att2 V c (rowOf t r))

/-- One step of the accumulation at point t, at an entry. -/
theorem step2_apply (c : Dev nD) (t : Fin cfg2.N) (acc : Vec Ideal S64x128 .f32) (g : Fin 64) (k : Fin 128) :
    k2_pay1 (F := Ideal) (hP V c t) (aP V c t) (segs2 V c t) acc (ix2 g k) = acc (ix2 g k) + blockSum2 V c g k t := by
  refine (pay1_apply (hP V c t) (aP V c t) (segs2 V c t) acc g k).trans ?_
  unfold blockSum2
  congr 1
  refine Finset.sum_congr rfl fun r _ => ?_
  rw [hP_apply, aP_apply, segs2_apply]

/-- The accumulator after position n is the sum of the blocks' contributions up to n. -/
theorem accP_apply (c : Dev nD) (g : Fin 64) (k : Fin 128) : ∀ (n : ℕ) (hn : n < cfg2.N),
    accP V c n hn (ix2 g k) = ∑ i ∈ Finset.range (n + 1), if h : i < cfg2.N then blockSum2 V c g k ⟨i, h⟩ else 0
  | 0, hn => by
    rw [accP_zero, step2_apply, pay3_apply, zero_add, Finset.sum_range_one, dif_pos hn]
  | n + 1, hn => by
    rw [accP_succ, step2_apply, accP_apply c g k n (Nat.lt_of_succ_lt hn), Finset.sum_range_succ _ (n + 1), dif_pos hn]

/-- After the last point the accumulator holds the pooled features: the 25 blocks of 2000 rows are the 50000 rows, and a sum
    weighted by a 0/1 indicator is the sum over the rows where it is 1. -/
theorem accP_last_apply (c : Dev nD) (g : Fin 64) (k : Fin 128) : accP V c 24 (by decide) (ix2 g k) = pooled2 V c g k := by
  rw [accP_apply, Finset.sum_range]
  unfold pooled2
  rw [← Cert.PoolMath.sum_indicator_mul (fun j : Fin 50000 => V c main_v4 (ix2 j 0) = BitVec.ofNat 32 g.val) (fun j => feat2 V c j k * att2 V c j),
    ← Cert.PoolMath.sum_blocks]
  refine Finset.sum_congr rfl fun t _ => ?_
  rw [dif_pos (show t.val < cfg2.N from t.isLt)]
  rfl

/-- The same at the grid's last point, however its bound is proved. -/
theorem accP_at_last (c : Dev nD) (t : Fin cfg2.N) (ht : t.val = 24) (g : Fin 64) (k : Fin 128) :
    accP V c t.val t.isLt (ix2 g k) = pooled2 V c g k := by
  obtain ⟨n, hn⟩ := t
  obtain rfl : n = 24 := ht
  exact accP_last_apply V c g k

/-! ## The second output array after the run -/

/-- The group scores: each group's pooled features against the classifier vector, plus its bias. -/
def scores2 (c : Dev nD) : Vec Ideal S64x1 .f32 := fun i =>
  (∑ k : Fin 128, pooled2 V c (i 0) k * V c main_arg16 (ix2 0 k)) + V c main_v96 (ix2 0 0)

/-- At the last point the body's second output is the group scores. -/
theorem logitsP_last (c : Dev nD) (t : Fin cfg2.N) (ht : t.val = 24) : logitsP V c t = scores2 V c := by
  funext i
  obtain ⟨p, q, rfl⟩ : ∃ (p : Fin 64) (q : Fin 1), i = ix2 p q := ⟨i 0, i 1, eq_ix2 i⟩
  obtain rfl : q = 0 := Subsingleton.elim _ _
  unfold logitsP
  refine (pay2_apply _ _ _ p).trans ?_
  rw [clsb2_apply]
  show _ = (∑ k : Fin 128, pooled2 V c p k * V c main_arg16 (ix2 0 k)) + V c main_v96 (ix2 0 0)
  refine congrArg (· + _) (Finset.sum_congr rfl fun k _ => ?_)
  rw [clsw2_apply, accP_at_last V c t ht p k]

/-- The second output's window has one block, the whole array: its block index is (0, 0) at every point. -/
theorem index2_11 : ∀ t : Fin cfg2.N, win2_11.index t (0 : Fin 2) = 0 ∧ win2_11.index t (1 : Fin 2) = 0 :=
  (by decide +kernel : ∀ t : Fin grid2.N, _)

/-- What the one flushing point, the last, writes back is the group scores read through the window's block. -/
theorem flushed2_11_eq (c : Dev nD) (t : Fin cfg2.N) (hf : (cfg2.win 11).flush t = true) :
    (dat2 (F := Ideal) V c).flushed 11 t = ((cfg2.win 11).blk t).view.read (Elt Ideal) (scores2 V c) := by
  have hN : cfg2.N = 25 := N_2
  have h24 : t.val = 24 := by have := (flush2_11 t).mp hf; have := t.isLt; omega
  show (cfg2.win 11).cut (grid2.coords t) ((dat2 (F := Ideal) V c).after 11 t) = _
  rw [after2_11, logitsP_last V c t h24]
  obtain ⟨e0, e1⟩ := index2_11 t
  funext j
  show scores2 V c j = scores2 V c (((cfg2.win 11).blk t).view.emb j)
  congr 1
  funext a; apply Fin.ext
  match a with
  | ⟨0, _⟩ => show (j 0).val = win2_11.index t (0 : Fin 2) * 64 + 1 * (j 0).val; omega
  | ⟨1, _⟩ => show (j 1).val = win2_11.index t (1 : Fin 2) * 1 + 1 * (j 1).val; omega

/-- An index of the array is in point t's block iff each coordinate is in the block's range on its axis. -/
theorem mem_blk2_11 (t : Fin cfg2.N) (i : S64x1.Idx) :
    i ∈ ((cfg2.win 11).blk t).view.set ↔ ∀ a : Fin 2, win2_11.index t a * S64x1.size a ≤ (i a).val ∧ (i a).val < win2_11.index t a * S64x1.size a + S64x1.size a := by
  show i ∈ ((View.whole main_v97_1).slice (win2_11.rect t)).set ↔ _
  rw [View.set_slice_whole, Rect.mem_set_unit]
  exact Iff.rfl

/-- The second output array after the run: the group scores. -/
theorem final_logits (c : Dev nD) : (dat2 (F := Ideal) V c).arrAt 11 cfg2.N = scores2 V c :=
  (dat2 (F := Ideal) V c).arrAt_eq_of_cover 11 (scores2 V c) (flushed2_11_eq V c) fun i => by
    refine ⟨⟨24, by decide⟩, (flush2_11 _).mpr rfl, ?_⟩
    rw [mem_blk2_11]
    obtain ⟨e0, e1⟩ := index2_11 ⟨24, by decide⟩
    have h0 : (i 0).val < 64 := (i 0).isLt
    have h1 : (i 1).val < 1 := (i 1).isLt
    intro a
    match a with
    | ⟨0, _⟩ =>
      show win2_11.index ⟨24, _⟩ (0 : Fin 2) * 64 ≤ (i 0).val ∧ (i 0).val < win2_11.index ⟨24, _⟩ (0 : Fin 2) * 64 + 64
      omega
    | ⟨1, _⟩ =>
      show win2_11.index ⟨24, _⟩ (1 : Fin 2) * 1 ≤ (i 1).val ∧ (i 1).val < win2_11.index ⟨24, _⟩ (1 : Fin 2) * 1 + 1
      omega

/-- The same at an index. -/
theorem final_logits_apply (c : Dev nD) (g : Fin 64) :
    (dat2 (F := Ideal) V c).arrAt 11 cfg2.N (ix2 g 0) = (∑ k : Fin 128, pooled2 V c g k * V c main_arg16 (ix2 0 k)) + V c main_v96 (ix2 0 0) := by
  rw [final_logits]
  rfl

end Cert.KernelIdeal.Hand
end
-- ==== Proof.KIV.RefPool.lean ====
/-
  The reference's pooling and classifier, read at an index. The attention-weighted features are the normalised features
  times the row's attention weight; the segment sum is a scatter-add into a zero array, so that entry (g, k) of the
  pooled array is the sum of the weighted entries (r, k) over the rows r whose segment id reads g; the classifier is the
  inner product of a pooled row with the classifier's weight row, plus the bias.
-/
import proofs.«409529_j10797547782216_3_alg».proof.Proof.KIV.ReadC
import proofs.«409529_j10797547782216_3_alg».proof.Proof.KIV.Forms
import Idealize.ShloMosaic.PureOps.Ideal
import Idealize.ShloMosaic.PureOps.Ideal.Laws
import Idealize.ShloMosaic.PureOps.Dims
import Idealize.ShloMosaic.Lib.ValueIdx
import Mathlib.Algebra.BigOperators.Group.Finset.Defs

noncomputable section

namespace Cert.ReferenceIdeal.RefSide

open Cert.ReferenceIdeal Cert.ReferenceIdeal.Gen Cert.ReferenceIdeal.ReadC Idealize.ShloMosaic Idealize.ShloMosaic.ValueIdx

/-! ## The weighted features -/

/-- The row broadcast of the attention weight reads column 0 of its row. -/
theorem idx_v129_ix2 (r : Fin 50000) (k : Fin 128) : idx_main_v129 (ix2 r k) = ix2 r 0 :=
  funext fun a => Fin.ext (by match a with | ⟨0, _⟩ => rfl | ⟨1, _⟩ => rfl)

/-- A weighted feature entry is the normalised feature entry times its row's attention weight. -/
theorem ref_v130_apply (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S128x1, .f32⟩ : BufTy).Contents (Elt Ideal)) (r : Fin 50000) (k : Fin 128) :
    val_main_v130 (F := Ideal) x0 x1 x3 x4 x5 x6 x7 x8 x9 x10 x11 x12 x13 x14 x15 (ix2 r k) = val_main_v121 (F := Ideal) x0 x1 x3 x4 x5 x6 x7 x8 x9 x10 x11 x12 x13 x14 (ix2 r k) * val_main_v128 (F := Ideal) x0 x1 x3 x4 x5 x6 x7 x8 x9 x10 x11 x12 x13 x14 x15 (ix2 r 0) := by
  rw [val_main_v130_apply, val_main_v129_apply, idx_v129_ix2]
  simp only [Ideal.mulf_def]

/-! ## The scatter's landing index

The scatter's dimension numbers make the operand's row axis the one the start index names and its column axis the
window's: the start on the row axis is the signed reading of the update row's segment id and is zero on the column axis;
the window coordinate is zero on the row axis and the update's column on the column axis. -/
/-- On the row axis the window starts at the signed reading of the update row's segment id. -/
theorem scatter_start0 (idx : IVec S50000x1 32) (j : S50000x128.Idx) :
    scatter_S64x128_S50000x1_S50000x128_1_0_0_1.start j idx 0 = (idx (ix2 (j 0) 0)).toInt := by
  unfold ScatterDims.start
  rw [dif_pos (show (0 : Fin S64x128.rank) ∈ scatter_S64x128_S50000x1_S50000x128_1_0_0_1.scatterDimsToOperandDims by decide)]
  congr 2
  funext a
  apply Fin.ext
  match a with
  | ⟨0, _⟩ => rfl
  | ⟨1, _⟩ => rfl

/-- The column axis is not a start axis: the window starts at zero there. -/
theorem scatter_start1 (idx : IVec S50000x1 32) (j : S50000x128.Idx) :
    scatter_S64x128_S50000x1_S50000x128_1_0_0_1.start j idx 1 = 0 := by
  unfold ScatterDims.start
  rw [dif_neg (show ¬ (1 : Fin S64x128.rank) ∈ scatter_S64x128_S50000x1_S50000x128_1_0_0_1.scatterDimsToOperandDims by decide)]

/-- The row axis is an inserted one: the window coordinate is zero there. -/
theorem scatter_window0 (j : S50000x128.Idx) :
    scatter_S64x128_S50000x1_S50000x128_1_0_0_1.window j 0 = 0 := by
  unfold ScatterDims.window
  rw [dif_neg (show ¬ (0 : Fin S64x128.rank) ∈ scatter_S64x128_S50000x1_S50000x128_1_0_0_1.sKept by decide)]

/-- On the column axis the window coordinate is the update's column. -/
theorem scatter_window1 (j : S50000x128.Idx) :
    scatter_S64x128_S50000x1_S50000x128_1_0_0_1.window j 1 = (j 1).val := by
  unfold ScatterDims.window
  rw [dif_pos (show (1 : Fin S64x128.rank) ∈ scatter_S64x128_S50000x1_S50000x128_1_0_0_1.sKept by decide)]
  rfl

/-- Update index `j` lands on operand entry `i` exactly when the signed reading of the segment id of `j`'s row is
    `i`'s row and the two columns agree. -/
theorem scatter_resultIdx_iff (idx : IVec S50000x1 32) (j : S50000x128.Idx) (i : S64x128.Idx) :
    scatter_S64x128_S50000x1_S50000x128_1_0_0_1.resultIdx? j idx = some i ↔
      ((idx (ix2 (j 0) 0)).toInt = ((i 0).val : ℤ) ∧ j 1 = i 1) := by
  have e0 : scatter_S64x128_S50000x1_S50000x128_1_0_0_1.start j idx 0 + (scatter_S64x128_S50000x1_S50000x128_1_0_0_1.window j 0 : ℤ) = (idx (ix2 (j 0) 0)).toInt := by
    rw [scatter_start0, scatter_window0]; simp
  have e1 : scatter_S64x128_S50000x1_S50000x128_1_0_0_1.start j idx 1 + (scatter_S64x128_S50000x1_S50000x128_1_0_0_1.window j 1 : ℤ) = ((j 1).val : ℤ) := by
    rw [scatter_start1, scatter_window1]; simp
  have hi0 : (i 0).val < 64 := (i 0).isLt
  have hi1 : (i 1).val < 128 := (i 1).isLt
  have hj1 : (j 1).val < 128 := (j 1).isLt
  unfold ScatterDims.resultIdx?
  constructor
  · intro h
    split at h
    · rename_i hb
      have hf := Option.some.inj h
      have h0 := congrArg Fin.val (congrFun hf 0)
      have h1 := congrArg Fin.val (congrFun hf 1)
      have hb0 := hb 0
      simp only at h0 h1
      rw [e0] at h0 hb0
      rw [e1] at h1
      refine ⟨by omega, Fin.ext (by omega)⟩
    · exact absurd h (by simp)
  · rintro ⟨h0, h1⟩
    have h1v : (j 1).val = (i 1).val := congrArg Fin.val h1
    have hb : ∀ a, 0 ≤ scatter_S64x128_S50000x1_S50000x128_1_0_0_1.start j idx a + (scatter_S64x128_S50000x1_S50000x128_1_0_0_1.window j a : ℤ) ∧
        scatter_S64x128_S50000x1_S50000x128_1_0_0_1.start j idx a + (scatter_S64x128_S50000x1_S50000x128_1_0_0_1.window j a : ℤ) < S64x128.size a := by
      intro a
      match a with
      | ⟨0, _⟩ =>
        show 0 ≤ scatter_S64x128_S50000x1_S50000x128_1_0_0_1.start j idx 0 + (scatter_S64x128_S50000x1_S50000x128_1_0_0_1.window j 0 : ℤ) ∧ scatter_S64x128_S50000x1_S50000x128_1_0_0_1.start j idx 0 + (scatter_S64x128_S50000x1_S50000x128_1_0_0_1.window j 0 : ℤ) < (64 : ℕ)
        rw [e0, h0]; omega
      | ⟨1, _⟩ =>
        show 0 ≤ scatter_S64x128_S50000x1_S50000x128_1_0_0_1.start j idx 1 + (scatter_S64x128_S50000x1_S50000x128_1_0_0_1.window j 1 : ℤ) ∧ scatter_S64x128_S50000x1_S50000x128_1_0_0_1.start j idx 1 + (scatter_S64x128_S50000x1_S50000x128_1_0_0_1.window j 1 : ℤ) < (128 : ℕ)
        rw [e1]; omega
    rw [dif_pos hb]
    congr 1
    funext a
    apply Fin.ext
    match a with
    | ⟨0, _⟩ =>
      show (scatter_S64x128_S50000x1_S50000x128_1_0_0_1.start j idx 0 + (scatter_S64x128_S50000x1_S50000x128_1_0_0_1.window j 0 : ℤ)).toNat = (i 0).val
      rw [e0, h0]; omega
    | ⟨1, _⟩ =>
      show (scatter_S64x128_S50000x1_S50000x128_1_0_0_1.start j idx 1 + (scatter_S64x128_S50000x1_S50000x128_1_0_0_1.window j 1 : ℤ)).toNat = (i 1).val
      rw [e1]; omega

/-- The scatter-add of rows into an operand, read at an entry: the operand's entry plus the sum, over the rows
    whose segment id reads the entry's row, of the update's entry in the same column. -/
theorem scatterAdd_rows_apply (x : S64x128.Idx → EReal) (idx : IVec S50000x1 32) (upd : S50000x128.Idx → EReal)
    (g : Fin 64) (k : Fin 128) :
    Ideal.hostScatterAdd scatter_S64x128_S50000x1_S50000x128_1_0_0_1 x idx upd (ix2 g k) =
      x (ix2 g k) + ∑ r ∈ Finset.univ.filter (fun r : Fin 50000 => (idx (ix2 r 0)).toInt = (g.val : ℤ)), upd (ix2 r k) := by
  unfold Ideal.hostScatterAdd
  refine congrArg (fun t => x (ix2 g k) + t) ?_
  symm
  refine Finset.sum_nbij' (fun r => ix2 r k) (fun j => j 0) ?_ ?_ ?_ ?_ ?_
  · intro r hr
    have hr' := (Finset.mem_filter.1 hr).2
    exact Finset.mem_filter.2 ⟨Finset.mem_univ _, (scatter_resultIdx_iff idx (ix2 r k) (ix2 g k)).2 ⟨hr', rfl⟩⟩
  · intro j hj
    have hj' := (Finset.mem_filter.1 hj).2
    exact Finset.mem_filter.2 ⟨Finset.mem_univ _, ((scatter_resultIdx_iff idx j (ix2 g k)).1 hj').1⟩
  · intro r _; rfl
  · intro j hj
    have hj' := (Finset.mem_filter.1 hj).2
    have h1 : j 1 = k := ((scatter_resultIdx_iff idx j (ix2 g k)).1 hj').2
    show ix2 (j 0) k = j
    rw [← h1]
    exact (eq_ix2 j).symm
  · intro r _; rfl

/-- The segment ids broadcast to a column read the row's id. -/
theorem idx_v132_ix2 (r : Fin 50000) : idx_main_v132 (ix2 r 0) = ix1 r :=
  funext fun a => Fin.ext (by match a with | ⟨0, _⟩ => rfl)

/-- A pooled entry is the sum of the weighted feature entries of its column over the rows whose segment id reads its
    row: the scatter-add's operand is the zero word. -/
theorem ref_v133_apply (x0 : (⟨S50000x128, .f32⟩ : BufTy).Contents (Elt Ideal)) (x1 : (⟨S2x1600000, .i32⟩ : BufTy).Contents (Elt Ideal)) (x2 : (⟨S50000, .i32⟩ : BufTy).Contents (Elt Ideal)) (x3 : (⟨S128x128, .f32⟩ : BufTy).Contents (Elt Ideal)) (x4 x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S128x1, .f32⟩ : BufTy).Contents (Elt Ideal)) (g : Fin 64) (k : Fin 128) :
    val_main_v133 (F := Ideal) x0 x1 x2 x3 x4 x5 x6 x7 x8 x9 x10 x11 x12 x13 x14 x15 (ix2 g k) = ∑ j ∈ Finset.univ.filter (fun j : Fin 50000 => (x2 (ix1 j)).toInt = (g.val : ℤ)), val_main_v130 (F := Ideal) x0 x1 x3 x4 x5 x6 x7 x8 x9 x10 x11 x12 x13 x14 x15 (ix2 j k) := by
  unfold val_main_v133
  simp only [Host.scatterAdd, Ideal.hostScatterAdd_def]
  rw [scatterAdd_rows_apply, val_main_v131_apply, val_main_cst_24_apply]
  simp only [Ideal.ofBits_def, Ideal.ofBits_zero_f32, zero_add, val_main_v132_apply, idx_v132_ix2]

/-! ## The classifier -/

/-- The classifier's product reads the pooled array along its row. -/
theorem lidx_v135_ix2 (g : Fin 64) (k : Fin 128) : lidx_main_v135 (ix2 g 0) k = ix2 g k :=
  funext fun a => Fin.ext (by match a with | ⟨0, _⟩ => rfl | ⟨1, _⟩ => rfl)

/-- The transposed weight column, read along the contracted axis, is the weight row. -/
theorem idx_v134_ridx_v135 (g : Fin 64) (k : Fin 128) : idx_main_v134 (ridx_main_v135 (ix2 g 0) k) = ix2 0 k :=
  funext fun a => Fin.ext (by match a with | ⟨0, _⟩ => rfl | ⟨1, _⟩ => rfl)

/-- The two broadcasts of the bias read its one entry. -/
theorem idx_v136_v137 (g : Fin 64) : idx_main_v136 (idx_main_v137 (ix2 g 0)) = ix1 0 :=
  funext fun a => Fin.ext (by match a with | ⟨0, _⟩ => rfl)

/-- A logit is the inner product of the pooled row with the classifier's weight row, plus the bias. -/
theorem ref_v138_apply (x0 : (⟨S50000x128, .f32⟩ : BufTy).Contents (Elt Ideal)) (x1 : (⟨S2x1600000, .i32⟩ : BufTy).Contents (Elt Ideal)) (x2 : (⟨S50000, .i32⟩ : BufTy).Contents (Elt Ideal)) (x3 : (⟨S128x128, .f32⟩ : BufTy).Contents (Elt Ideal)) (x4 x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S128x1, .f32⟩ : BufTy).Contents (Elt Ideal)) (x16 : (⟨S1x128, .f32⟩ : BufTy).Contents (Elt Ideal)) (x17 : (⟨S1, .f32⟩ : BufTy).Contents (Elt Ideal)) (g : Fin 64) :
    val_main_v138 (F := Ideal) x0 x1 x2 x3 x4 x5 x6 x7 x8 x9 x10 x11 x12 x13 x14 x15 x16 x17 (ix2 g 0) = (∑ k : Fin 128, val_main_v133 (F := Ideal) x0 x1 x2 x3 x4 x5 x6 x7 x8 x9 x10 x11 x12 x13 x14 x15 (ix2 g k) * x16 (ix2 0 k)) + x17 (ix1 0) := by
  rw [val_main_v138_apply, val_main_v135_apply, val_main_v137_apply, val_main_v136_apply, idx_v136_v137]
  simp only [val_main_v134_apply, lidx_v135_ix2, idx_v134_ridx_v135, Ideal.addf_def]

end Cert.ReferenceIdeal.RefSide

end
-- ==== Proof.KIV.Bridge2.lean ====
/-
  The kernel program's third region computes the reference's two results. Entered at the contents the host stretches
  before it leave, the region finds in its feature array the reference's second aggregation, in its parameter rows the
  second layer's bias, scale, shift, mean and variance, the attention vector, the classifier vector and bias, and in its
  segment array the segment ids. So the rectified, normalised entry (j, k) the region forms is the reference's stage of
  that name at (j, k); the attention weight of row j is the reference's at (j, 0), which is the first result; and the
  pooled sum of group g, the sum over the rows whose segment id is g of entry times weight, contracted with the
  classifier vector and shifted by its bias, is the reference's scatter-add of the weighted rows, contracted and shifted
  the same way, which is the second result. The kernel selects the rows of group g by equality of the 32-bit segment word
  with the word of g, the reference by the word's signed reading being g; for g below 64 these are the same condition.
-/
import proofs.«409529_j10797547782216_3_alg».proof.Proof.KI.Bounds
import proofs.«409529_j10797547782216_3_alg».proof.Proof.KIV.Bridge1
import proofs.«409529_j10797547782216_3_alg».proof.Proof.KIV.Val2a
import proofs.«409529_j10797547782216_3_alg».proof.Proof.KIV.Val2b
import proofs.«409529_j10797547782216_3_alg».proof.Proof.KIV.HostSide
import proofs.«409529_j10797547782216_3_alg».proof.Proof.KIV.RefForms
import proofs.«409529_j10797547782216_3_alg».proof.Proof.KIV.RefPool
import proofs.«409529_j10797547782216_3_alg».proof.Proof.KIV.PoolMath
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.ReferenceIdeal.RefSide

variable (m : (ℓ : Loc nD τ sig) → Buf (Elt Ideal) ℓ)

/-! ## The region's operands at its entry -/

/-- The six parameter rows the region reads, at lane k: the second layer's bias, scale, shift, running mean and running
    variance at feature k, and the attention vector's entry k. -/
theorem in2_row (c : Dev nD) (k : Fin 128) :
    Vin2 m c main_v90 (ix2 0 k) = (m ((c : Thread nD τ).loc main_arg10)) (ix1 k) ∧ Vin2 m c main_v91 (ix2 0 k) = (m ((c : Thread nD τ).loc main_arg11)) (ix1 k) ∧ Vin2 m c main_v92 (ix2 0 k) = (m ((c : Thread nD τ).loc main_arg12)) (ix1 k) ∧ Vin2 m c main_v93 (ix2 0 k) = (m ((c : Thread nD τ).loc main_arg13)) (ix1 k) ∧ Vin2 m c main_v94 (ix2 0 k) = (m ((c : Thread nD τ).loc main_arg14)) (ix1 k) ∧ Vin2 m c main_v95 (ix2 0 k) = (m ((c : Thread nD τ).loc main_arg15)) (ix2 k 0) := by
  have h := V9_row m (outs m) c k
  rw [V9_eq m c] at h
  exact h

/-- The classifier vector, the classifier bias and the segment ids the region reads. -/
theorem in2_misc (c : Dev nD) :
    Vin2 m c main_arg16 = (m ((c : Thread nD τ).loc main_arg16)) ∧ Vin2 m c main_v96 (ix2 0 0) = (m ((c : Thread nD τ).loc main_arg17)) (ix1 0) ∧ ∀ j : Fin 50000, Vin2 m c main_v4 (ix2 j 0) = (m ((c : Thread nD τ).loc main_arg2)) (ix1 j) := by
  have h := V9_misc m (outs m) c
  rw [V9_eq m c] at h
  exact h

/-! ## The region's rows and weights are the reference's -/

/-- Entry (j, k) of the rectified, normalised features the region forms is the reference's second rectified stage there:
    the same scalar form of the same aggregated entry and the same six parameters. -/
theorem feat2_eq (c : Dev nD) (j : Fin 50000) (k : Fin 128) :
    feat2 (Vin2 m) c j k = Cert.ReferenceIdeal.ReadC.val_main_v121 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 j k) := by
  obtain ⟨h90, h91, h92, h93, h94, -⟩ := in2_row m c k
  rw [ref_v121_apply]
  unfold feat2
  rw [in2_agg m c, h90, h91, h92, h93, h94]

/-- The attention weight of row j the region forms is the reference's first result at (j, 0): the logistic of the inner
    product of the same row with the same attention vector. -/
theorem att2_eq (c : Dev nD) (j : Fin 50000) :
    att2 (Vin2 m) c j = Cert.ReferenceIdeal.ReadC.val_main_v128 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix2 j 0) := by
  rw [ref_v128_apply]
  unfold att2
  have hf : feat2 (Vin2 m) c j = fun k => Cert.ReferenceIdeal.ReadC.val_main_v121 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 j k) :=
    funext fun k => feat2_eq m c j k
  have ha : (fun k : Fin 128 => Vin2 m c main_v95 (ix2 0 k)) = fun k : Fin 128 => (m ((c : Thread nD τ).loc main_arg15)) (ix2 k 0) :=
    funext fun k => (in2_row m c k).2.2.2.2.2
  rw [hf, ha]

/-- The pooled sum of group g at lane k is the reference's scatter-add there: the rows selected are the same, and each
    row's term is the reference's weighted entry. -/
theorem pooled2_eq (c : Dev nD) (g : Fin 64) (k : Fin 128) :
    pooled2 (Vin2 m) c g k = Cert.ReferenceIdeal.ReadC.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix2 g k) := by
  obtain ⟨-, -, hseg⟩ := in2_misc m c
  rw [ref_v133_apply]
  unfold pooled2
  rw [Cert.PoolMath.sum_filter_congr_prop _ (fun j : Fin 50000 => ((m ((c : Thread nD τ).loc main_arg2)) (ix1 j)).toInt = (g.val : ℤ))
    (fun j => by rw [hseg j]; exact Cert.PoolMath.bv_eq_ofNat_iff_toInt _ g)]
  refine Finset.sum_congr rfl fun j _ => ?_
  rw [ref_v130_apply, feat2_eq m c j k, att2_eq m c j]

/-! ## The two results -/

/-- The first output array after the region: the reference's attention weights. -/
theorem left2a_eq (c : Dev nD) :
    left2a m c = Cert.ReferenceIdeal.ReadC.val_main_v128 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  funext i
  obtain ⟨j, z, rfl⟩ : ∃ (j : Fin 50000) (z : Fin 1), i = ix2 j z := ⟨i 0, i 1, eq_ix2 i⟩
  obtain rfl : z = 0 := Subsingleton.elim _ _
  unfold left2a
  rw [final_att_apply, att2_eq]

/-- The second output array after the region: the reference's logits. -/
theorem left2b_eq (c : Dev nD) :
    left2b m c = Cert.ReferenceIdeal.ReadC.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  funext i
  obtain ⟨g, z, rfl⟩ : ∃ (g : Fin 64) (z : Fin 1), i = ix2 g z := ⟨i 0, i 1, eq_ix2 i⟩
  obtain rfl : z = 0 := Subsingleton.elim _ _
  obtain ⟨h16, h17, -⟩ := in2_misc m c
  unfold left2b
  rw [final_logits_apply, ref_v138_apply, h16, h17]
  simp only [pooled2_eq m c g]

end Cert.KernelIdeal.Hand

end
-- ==== Proof.lean ====
/-
  Two graph-convolution layers, batch normalisation and rectification after each, an attention weight per node and an
  attention-weighted sum of the node features per graph, scored by a linear classifier: the kernel program against the
  plain reference, equal at the ideal instance.

  Both programs aggregate along the edges by the same host operations (degree counts, the symmetric normalisation,
  gathers and a scatter-add); the kernel program replaces what lies between those by three kernel regions over blocks
  of 2000 nodes: x·W1; the first normalisation and rectifier followed by ·W2; and the second normalisation and
  rectifier, the attention weights, the pooling and the classifier. On the extended reals a block-wise matrix product is
  the whole product, a lane sum is the host's contraction with a one-column matrix, the logistic is 1/(1 + e^(-x)), and
  the pooling — a one-hot matrix product accumulated over the 25 blocks in a buffer carried from block to block — is
  the sum over the nodes of each graph, which is what the reference's scatter-add computes: 0·x = 0 and 1·x = x for
  every extended real, and a node whose graph id is outside [0, 64) meets no one-hot column as it lands on no row of
  the scatter. The precondition is not used.

  The frames of the two kernel programs: each region's body obligation, its proof data at its own entry contents and
  its segment record are in Proof/K (word-level) and Proof/KI (ideal); the host stretches and their chaining are the
  programs' generated conditional frames. The reference's frame is its run.
-/
import proofs.«409529_j10797547782216_3_alg».proof.Defs
import proofs.«409529_j10797547782216_3_alg».proof.Proof.Gen.Kernel
import proofs.«409529_j10797547782216_3_alg».proof.Proof.Gen.KernelIdeal
import proofs.«409529_j10797547782216_3_alg».proof.Proof.Gen.ReferenceIdeal
import proofs.«409529_j10797547782216_3_alg».proof.Proof.Gen.Pre_finite_inputs
import proofs.«409529_j10797547782216_3_alg».proof.Proof.KIV.RunP
import proofs.«409529_j10797547782216_3_alg».proof.Proof.KIV.ReadC
import proofs.«409529_j10797547782216_3_alg».proof.Proof.K.Frame
import proofs.«409529_j10797547782216_3_alg».proof.Proof.KI.Frame
import proofs.«409529_j10797547782216_3_alg».proof.Proof.KI.RunVals
import proofs.«409529_j10797547782216_3_alg».proof.Proof.KIV.Bridge2
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame (F := Bits) m ρ

/-- So does the program read at the ideal instance. -/
theorem frame_ki : Cert.frame_KernelIdeal := fun m ρ _ => Cert.KernelIdeal.Hand.frame (F := Ideal) m ρ

/-- The reference is host operations only: its run names its results, and the frame forgets them. -/
theorem frame_ri : Cert.frame_ReferenceIdeal := fun m ρ _ =>
  (θ_run Cert.ReferenceIdeal.defs _ _).mono (fun _ h c => (h c).2.2) (Cert.ReferenceIdeal.ValueP.run (F := Ideal) m ρ)

/-- From memories agreeing on the arguments both programs end with the group scores and the attention weights the
    reference's stages give: the kernel's three regions leave those stages' values, the reference's run is those stages. -/
theorem algebraic : Cert.algebraic_KernelIdeal_ReferenceIdeal := by
  intro m ρ m' ρ' _ hagree
  refine ⟨fun c => Cert.ReferenceIdeal.ReadC.val_main_v138 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.ReferenceIdeal.ReadC.val_main_v128 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ?_) (Cert.KernelIdeal.Hand.run_vals (F := Ideal) m ρ)
    obtain ⟨h1, h0, hargs⟩ := h c
    exact ⟨h1.trans (Cert.KernelIdeal.Hand.left2b_eq m c), h0.trans (Cert.KernelIdeal.Hand.left2a_eq m c), hargs⟩
  · refine (θ_run Cert.ReferenceIdeal.defs _ _).mono (fun r h c => ?_) (Cert.ReferenceIdeal.ValueP.run (F := Ideal) m' ρ')
    obtain ⟨h138, h128, hargs⟩ := h c
    obtain ⟨e0, e1, e2, e3, e4, e5, e6, e7, e8, e9, e10, e11, e12, e13, e14, e15, e16, e17⟩ := hagree c
    refine ⟨h138.trans ?_, h128.trans ?_, hargs⟩
    · rw [Cert.ReferenceIdeal.ReadC.val_main_v138_eq, e0, e1, e2, e3, e4, e5, e6, e7, e8, e9, e10, e11, e12, e13, e14, e15, e16, e17]
    · rw [Cert.ReferenceIdeal.ReadC.val_main_v128_eq, e0, e1, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
